-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024x4096 : Shape := ⟨2, ![1024, 4096]⟩
abbrev S1024x1024 : Shape := ⟨2, ![1024, 1024]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  transposes_S4096x1024_S1024x4096_1_0 : S4096x1024.Transposes [1, 0] S1024x4096
  reducesTo_S1024x1024_S1024_d0 : S1024x1024.ReducesTo [0] S1024
  bcast_S_S1024 : S_.BroadcastsInDim S1024 (![] : Fin 0 → Fin S1024.rank)
  reducesTo_S1024_S_d0 : S1024.ReducesTo [0] S_
  dot_S1024x4096_S4096x1024_S1024x1024_1_0_0_1_n_n_wf : DotDims.WF S1024x4096 S4096x1024 S1024x1024 [1] [0] [0] [1] [] []

variable [Facts]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def fn_part2 {F : FTy → Type} [FloatOps F] (main_arg2 : FVec F S4096x1024 .f32) (main_v33 : IVec S_ 1) : IVec S_ 1 :=
  let main_v34 : FVec F S1024x4096 .f32 := (transpose S1024x4096 [1, 0] · transposes_S4096x1024_S1024x4096_1_0) main_arg2
  let main_v35 : FVec F S1024x1024 .f32 := (fun l r => Host.dotGeneral dot_S1024x4096_S4096x1024_S1024x1024_1_0_0_1_n_n none l r) main_v34 main_arg2
  let main_v36 : FVec F S1024x1024 .f32 := Host.sqrt main_v35
  let main_cst_12 : FVec F S_ .f32 := constant S_ .f32 0x00000000#32
  let main_v37 : FVec F S1024 .f32 := (fun x v => Host.reduceAdd x v reducesTo_S1024x1024_S1024_d0 h_S_) main_v36 main_cst_12
  let main_cst_13 : FVec F S_ .f32 := constant S_ .f32 0x00000000#32
  let main_v38 : FVec F S1024 .f32 := broadcastInDim S1024 ![] bcast_S_S1024 main_cst_13
  let main_v39 : IVec S1024 1 := cmpf .une main_v37 main_v38
  let main_c_14 : IVec S_ 1 := constantI S_ 1 1#1
  let main_v40 : IVec S_ 1 := (fun x v => Host.reduce IntOp.andi x v reducesTo_S1024_S_d0 h_S_) main_v39 main_c_14
  let main_v41 : IVec S_ 1 := andi main_v33 main_v40
  main_v41

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S2000x256 : Shape := ⟨2, ![2000, 256]⟩
abbrev S2000x1024 : Shape := ⟨2, ![2000, 1024]⟩
abbrev S2000 : Shape := ⟨1, ![2000]⟩
abbrev S2000x1 : Shape := ⟨2, ![2000, 1]⟩

abbrev nBuf : Space → Nat
  | .hbm => 12
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1024x256, .f32⟩
  | .hbm, ⟨10, _⟩ => ⟨S1024x256, .f32⟩
  | .hbm, ⟨11, _⟩ => ⟨S10000x256, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x1024, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S2000x256, .f32⟩
  | .local _ .vmem, ⟨15, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S256_S1x256 : S256.ShapeCasts S1x256
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [0] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  shapeCasts_S1024x256_S1024x256 : S1024x256.ShapeCasts S1024x256
  reduces_S2000x1024_S2000 : S2000x1024.Reduces [1] S2000
  shapeCasts_S2000_S2000x1 : S2000.ShapeCasts S2000x1
  broadcasts_S2000x1_S2000x1024 : S2000x1.Broadcasts S2000x1024
  broadcasts_S2000x1_S2000x256 : S2000x1.Broadcasts S2000x256
  dot_S512x1024_S512x1024_S1024x1024_0_0_1_1_n_n_wf : DotDims.WF S512x1024 S512x1024 S1024x1024 [0] [0] [1] [1] [] []
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x256_S2000x256_1_0_0_1_n_n_wf : DotDims.WF S2000x1024 S1024x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x256.size a
  hwx0_5 : ∀ i : grid0.Coords, EltTy.bits .f32 = 32 ∨ (Rect.block (s := S1024x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .f32 = 32 ∨ (Rect.block (s := S1024x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S1024x256.size a
  hwx1_4 : ∀ i : grid1.Coords, EltTy.bits .f32 = 32 ∨ (Rect.block (s := S1024x256) S1024x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf

abbrev win0_0 : Pipeline.Window sig grid0 :=
  Pipeline.Window.ofSpec (Memref.whole main_arg2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1024x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.K.Attn.lean ====
/-
  The attention call, one grid point at a time.

  At each of its five grid points the body loads a block of 2000 rows of `main`, the whole of Wq, the bias row, K and the
  mixed matrix, and stores ONE whole block: the payload  softmax(q Kᵀ / 16) · mixed  with  q = block · Wqᵀ + bias.
  So after the body the output window's buffer holds that payload of the five input blocks, whatever it held before, and
  every input window's buffer still holds its block; the call's invariant (the other scoped buffers at some contents, the
  generator register at some state) passes through untouched. The blocks written back are disjoint runs of 2000 rows that
  cover the array, so the array after the call is ONE function of the contents the call was entered with: row i is the
  payload on the block that holds row i, read at row i mod 2000.
-/
import proofs.«133251_g52209622450808_cont_9to1_m_767_7_alg».proof.Proof.Gen.Kernel.Launch
import proofs.«133251_g52209622450808_cont_9to1_m_767_7_alg».proof.Proof.Gen.Kernel.Skeleton
import proofs.«133251_g52209622450808_cont_9to1_m_767_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

/-! # Region 1 (the attention kernel, pipeline 1), at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window fetched at
    the first point only keeps its block index, so the buffer still holds the block): for any proof data whose array
    is the entry contents and whose body leaves the block in place. Window 0 moves with the point; -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- windows 1 to 4 are whole arrays, the same block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window's buffer is read or written whole -/

abbrev r1_a : Rect S2000x256 := Rect.unit (s := S2000x256) ![0, 0] S2000x256.size inb_S2000x256_S2000x256_0_0
abbrev r1_b : Rect S256x256 := Rect.unit (s := S256x256) ![0, 0] S256x256.size inb_S256x256_S256x256_0_0
abbrev r1_c : Rect S1x256 := Rect.unit (s := S1x256) ![0, 0] S1x256.size inb_S1x256_S1x256_0_0
abbrev r1_d : Rect S1024x256 := Rect.unit (s := S1024x256) ![0, 0] S1024x256.size inb_S1024x256_S1024x256_0_0

/-- The offsets of every access are zero on both axes. -/
theorem hz1 : (![0, 0] : Fin 2 → Nat) = fun _ => 0 := funext fun a => by fin_cases a <;> rfl

/-! ## What the body leaves in the output window's buffer -/

/-- window 5's staging buffer after the body: the canon of its one whole-block store over the loads -/
def out1_5 (x0 : Vec F S2000x256 .f32) (x1 : Vec F S256x256 .f32) (x2 : Vec F S1x256 .f32) (x3 x4 : Vec F S1024x256 .f32) : Vec F S2000x256 .f32 :=
  View.canon [⟨r1_a, k1_pay1 (View.ld x0 r1_a) (View.ld x1 r1_b) (View.ld x2 r1_c) (View.ld x3 r1_d) (View.ld x4 r1_d)⟩]

/-- The one store is through the whole buffer, so it covers it. -/
theorem cover1_5 (p0 : Vec F S2000x256 .f32) (y : S2000x256.Idx) :
    ∃ pc ∈ ([⟨r1_a, p0⟩] : List (View.Piece (Elt F) S2000x256 .f32)), y ∈ pc.1.set :=
  ⟨_, List.mem_singleton_self _, View.mem_set_unit_zero hz1 inb_S2000x256_S2000x256_0_0 y⟩

/-! ## The body's triple -/

set_option maxHeartbeats 4000000 in
/-- The kernel body on whole staging memrefs, the inputs' at read contents `x0` … `x4` and the output's at anything, runs to
    the continuation holding the inputs' as they were and the output's at `out1_5` of the inputs'. The body also reads
    the output's buffer before it stores over it; the value read is used nowhere. -/
theorem sound_kernel1 (c : Dev nD) (E : Set ℕ) (i : grid1.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 x4 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__attn_kernel i arg1 harg1 arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body each input's buffer
    at its block and the output's at `out1_5` of the five input blocks; the class-A invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## From the blocks to the array -/

/-- the whole output array as ONE function of the entry contents: row i of the result is the body's payload on the block that holds row i -/
def attnArr (x0 : Vec F S10000x256 .f32) (x1 : Vec F S256x256 .f32) (x2 : Vec F S1x256 .f32) (x3 x4 : Vec F S1024x256 .f32) : Vec F S10000x256 .f32 :=
  fun j => k1_pay1 (fun y : S2000x256.Idx => x0 (ValueIdx.ix2 (⟨((j 0).val / 2000) * 2000 + (y 0).val, by have h1 : (y 0).val < 2000 := (y 0).isLt; have h2 : (j 0).val < 10000 := (j 0).isLt; omega⟩ : Fin 10000) (⟨(y 1).val, (y 1).isLt⟩ : Fin 256))) x1 x2 x3 x4
    (ValueIdx.ix2 (⟨(j 0).val % 2000, Nat.mod_lt _ (by decide)⟩ : Fin 2000) (⟨(j 1).val, (j 1).isLt⟩ : Fin 256))

/-- `attnArr` at an index of block `q`: if row `j 0` is row `y 0` of block `q` and `b0` is block `q` of the rows, the
    array's entry at `j` is the payload of `b0` at `y` (the block that holds row `q * 2000 + r`, `r < 2000`, is `q`). -/
theorem attnArr_apply (x0 : Vec F S10000x256 .f32) (x1 : Vec F S256x256 .f32) (x2 : Vec F S1x256 .f32) (x3 x4 : Vec F S1024x256 .f32)
    (b0 : Vec F S2000x256 .f32) (q : Nat) (j : S10000x256.Idx) (y : S2000x256.Idx)
    (hj0 : (j 0).val = q * 2000 + (y 0).val) (hj1 : (j 1).val = (y 1).val)
    (hb : ∀ (y' : S2000x256.Idx) (i : S10000x256.Idx), (i 0).val = q * 2000 + (y' 0).val → (i 1).val = (y' 1).val → b0 y' = x0 i) :
    attnArr x0 x1 x2 x3 x4 j = k1_pay1 b0 x1 x2 x3 x4 y := by
  have hy0 : (y 0).val < 2000 := (y 0).isLt
  have hdiv : (j 0).val / 2000 = q := by omega
  have hmod : (j 0).val % 2000 = (y 0).val := by omega
  have hblk : (fun y' : S2000x256.Idx => x0 (ValueIdx.ix2 (⟨((j 0).val / 2000) * 2000 + (y' 0).val, by have h1 : (y' 0).val < 2000 := (y' 0).isLt; have h2 : (j 0).val < 10000 := (j 0).isLt; omega⟩ : Fin 10000) (⟨(y' 1).val, (y' 1).isLt⟩ : Fin 256))) = b0 := by
    funext y'
    exact (hb y' _ (by show (j 0).val / 2000 * 2000 + (y' 0).val = q * 2000 + (y' 0).val; rw [hdiv]) rfl).symm
  have hidx : (ValueIdx.ix2 (⟨(j 0).val % 2000, Nat.mod_lt _ (by decide)⟩ : Fin 2000) (⟨(j 1).val, (j 1).isLt⟩ : Fin 256) : S2000x256.Idx) = y := by
    funext a; apply Fin.ext
    match a with
    | ⟨0, _⟩ => exact hmod
    | ⟨1, _⟩ => exact hj1
  unfold attnArr
  exact congr (congrArg (fun b => k1_pay1 b x1 x2 x3 x4) hblk) hidx

/-- The printed index maps over the grid: windows 0 and 5 are at block row `t`, column block 0; windows 1 to 4 at block zero. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A window whose block is its whole array reads the array. -/
theorem iblk1_1 (c : Dev nD) (t : Fin cfg1.N) : iblk1 V c 1 t = V c main_arg3 := by
  obtain ⟨-, -, -, -, e0, e1, -⟩ := idx_facts1 t
  funext y
  show V c main_arg3 (((cfg1.win 1).blk t).view.emb y) = V c main_arg3 y
  refine congrArg _ ?_
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega
theorem iblk1_2 (c : Dev nD) (t : Fin cfg1.N) : iblk1 V c 2 t = V c main_v0 := by
  obtain ⟨-, -, -, -, -, -, e0, e1, -⟩ := idx_facts1 t
  funext y
  show V c main_v0 (((cfg1.win 2).blk t).view.emb y) = V c main_v0 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega
theorem iblk1_3 (c : Dev nD) (t : Fin cfg1.N) : iblk1 V c 3 t = V c main_v2_1 := by
  obtain ⟨-, -, -, -, -, -, -, -, e0, e1, -⟩ := idx_facts1 t
  funext y
  show V c main_v2_1 (((cfg1.win 3).blk t).view.emb y) = V c main_v2_1 y
  refine congrArg _ ?_
  funext a; apply Fin.ext
  match a with
  | ⟨0, _⟩ => show win1_3.index t (0 : Fin 2) * 1024 + 1 * (y 0).val = (y 0).val; omega
  | ⟨1, _⟩ => show win1_3.index t (1 : Fin 2) * 256 + 1 * (y 1).val = (y 1).val; omega
theorem iblk1_4 (c : Dev nD) (t : Fin cfg1.N) : iblk1 V c 4 t = V c main_v2_0 := by
  obtain ⟨-, -, -, -, -, -, -, -, -, -, e0, e1⟩ := idx_facts1 t
  funext y
  show V c main_v2_0 (((cfg1.win 4).blk t).view.emb y) = V c main_v2_0 y
  refine congrArg _ ?_
  funext a; apply Fin.ext
  match a with
  | ⟨0, _⟩ => show win1_4.index t (0 : Fin 2) * 1024 + 1 * (y 0).val = (y 0).val; omega
  | ⟨1, _⟩ => show win1_4.index t (1 : Fin 2) * 256 + 1 * (y 1).val = (y 1).val; omega

/-- WHAT POINT `t` WRITES BACK is block `t` of `attnArr` of the arrays as the region finds them. -/
theorem flushed1_5_eq (c : Dev nD) (t : Fin cfg1.N) :
    (dat1 V c).flushed 5 t = ((cfg1.win 5).blk t).view.read (Elt F)
      (attnArr (V c main_arg0) (V c main_arg3) (V c main_v0) (V c main_v2_1) (V c main_v2_0)) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S256x256) hz1,
    View.ld_unit_zero (S := S1x256) hz1, View.ld_unit_zero (S := S1024x256) hz1]
  rw [iblk1_1, iblk1_2, iblk1_3, iblk1_4]
  obtain ⟨e00, e01, e50, e51, -⟩ := idx_facts1 t
  funext y
  show k1_pay1 (iblk1 V c 0 t) (V c main_arg3) (V c main_v0) (V c main_v2_1) (V c main_v2_0) y
    = attnArr (V c main_arg0) (V c main_arg3) (V c main_v0) (V c main_v2_1) (V c main_v2_0) (((cfg1.win 5).blk t).view.emb y)
  refine (attnArr_apply _ _ _ _ _ (iblk1 V c 0 t) t.val _ y ?_ ?_ ?_).symm
  · show win1_5.index t (0 : Fin 2) * 2000 + 1 * (y 0).val = t.val * 2000 + (y 0).val; omega
  · show win1_5.index t (1 : Fin 2) * 256 + 1 * (y 1).val = (y 1).val; omega
  · intro y' i hi0 hi1
    show V c main_arg0 (((cfg1.win 0).blk t).view.emb y') = V c main_arg0 i
    refine congrArg _ ?_
    funext a; apply Fin.ext
    match a with
    | ⟨0, _⟩ => show win1_0.index t (0 : Fin 2) * 2000 + 1 * (y' 0).val = (i 0).val; omega
    | ⟨1, _⟩ => show win1_0.index t (1 : Fin 2) * 256 + 1 * (y' 1).val = (i 1).val; omega

/-- An index of the array is in point `t`'s block iff each coordinate is in the block's range on its axis. -/
theorem mem_blk1_5 (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v3).slice (win1_5.rect t)).set ↔ _
  rw [View.set_slice_whole, Rect.mem_set_unit]
  exact Iff.rfl

/-- Every index of the array is in some point's block: row `r` is in the block of point `r / 2000`. -/
theorem cover_arr1_5 (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hN : cfg1.N = 5 := N_1
  have hq : (i 0).val / 2000 < cfg1.N := by rw [hN]; omega
  obtain ⟨-, -, e50, e51, -⟩ := idx_facts1 ⟨(i 0).val / 2000, hq⟩
  have e50' : win1_5.index ⟨(i 0).val / 2000, hq⟩ (0 : Fin 2) = (i 0).val / 2000 := e50
  refine ⟨⟨(i 0).val / 2000, hq⟩, flush1_5 _, ?_⟩
  rw [mem_blk1_5]
  intro a
  match a with
  | ⟨0, _⟩ => show win1_5.index ⟨(i 0).val / 2000, hq⟩ (0 : Fin 2) * 2000 ≤ (i 0).val ∧ (i 0).val < win1_5.index ⟨(i 0).val / 2000, hq⟩ (0 : Fin 2) * 2000 + 2000; omega
  | ⟨1, _⟩ => show win1_5.index ⟨(i 0).val / 2000, hq⟩ (1 : Fin 2) * 256 ≤ (i 1).val ∧ (i 1).val < win1_5.index ⟨(i 0).val / 2000, hq⟩ (1 : Fin 2) * 256 + 256; omega

/-- THE ARRAY after the run: `attnArr` of the arrays as the region finds them. -/
theorem arr1_5 (c : Dev nD) : (dat1 V c).arrAt 5 cfg1.N = attnArr (V c main_arg0) (V c main_arg3) (V c main_v0) (V c main_v2_1) (V c main_v2_0) :=
  (dat1 V c).arrAt_eq_of_cover 5 (attnArr (V c main_arg0) (V c main_arg3) (V c main_v0) (V c main_v2_1) (V c main_v2_0))
    (fun t _ => flushed1_5_eq V c t) cover_arr1_5

end Cert.Kernel.Hand
end
-- ==== Proof.K.PreRuns.lean ====
/-
  What the three cases of the Gram call's body share.

  The body branches three times on the grid point i: on i = 0, on i > 0, and on i = 7. The eight points meet three of the
  assignments: point 0 (the first only), points 1 to 6 (the second only), point 7 (the second and the third); each
  condition is decided over the grid in closed form. Here also: where the two output windows are idle (every point but
  7, where alone they are written back), the staging memrefs and the scratch by name, and the call's invariant with the
  scratch buffer singled out from the other scoped buffers.
-/
import proofs.«133251_g52209622450808_cont_9to1_m_767_7_alg».proof.Proof.Gen.Kernel.Launch
import proofs.«133251_g52209622450808_cont_9to1_m_767_7_alg».proof.Proof.Gen.Kernel.Skeleton
import proofs.«133251_g52209622450808_cont_9to1_m_767_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    window's block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    window's block index has not moved since the point that fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    window's block index has not moved since the point that fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    window's block index has not moved since the point that fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's three conditions, in closed form over the grid -/

/-- The first conditional's condition: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's condition: the grid coordinate is positive (a signed comparison). -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ ¬t.val = 0 :=
  (by decide +kernel : ∀ t : Fin grid0.N, cond0_1 (grid0.coords t) ↔ ¬t.val = 0)

/-- The third conditional's condition: the grid coordinate is 7, the last point. -/
abbrev cond0_2 (i : grid0.Coords) : Prop := k0_cond3 i = 1#1
theorem hcond0_2 : ∀ t : Fin cfg0.N, cond0_2 (grid0.coords t) ↔ t.val = 7 :=
  (by decide +kernel : ∀ t : Fin grid0.N, cond0_2 (grid0.coords t) ↔ t.val = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Off the last point nothing is stored into output 4: the window is idle there, -/
theorem idleAt0_4 : ∀ t : Fin cfg0.N, ¬cond0_2 (grid0.coords t) → cfg0.idle 4 (grid0.coords t) = true := by decide +kernel
/-- and its block is not written back there. -/
theorem noFlush0_4 : ∀ t : Fin cfg0.N, ¬cond0_2 (grid0.coords t) → (cfg0.win 4).flush t = false := by decide +kernel
/-- At the last point output 4 is live: the body stores its whole block. -/
theorem liveAt0_4 : ∀ t : Fin cfg0.N, cond0_2 (grid0.coords t) → cfg0.idle 4 (grid0.coords t) = false := by decide +kernel
/-- Off the last point nothing is stored into output 5: the window is idle there, -/
theorem idleAt0_5 : ∀ t : Fin cfg0.N, ¬cond0_2 (grid0.coords t) → cfg0.idle 5 (grid0.coords t) = true := by decide +kernel
/-- and its block is not written back there. -/
theorem noFlush0_5 : ∀ t : Fin cfg0.N, ¬cond0_2 (grid0.coords t) → (cfg0.win 5).flush t = false := by decide +kernel
/-- At the last point output 5 is live: the body stores its whole block. -/
theorem liveAt0_5 : ∀ t : Fin cfg0.N, cond0_2 (grid0.coords t) → cfg0.idle 5 (grid0.coords t) = false := by decide +kernel

/-! ## The staging memrefs and the scratch -/

/-- One staging buffer of each output window, through which its contents are stated. -/
abbrev VO0_4 : View sig .tc .vmem S1024x256 .f32 := (Memref.whole cc0_stg4_0 : Memref sig .tc .vmem S1024x256 .f32).view
abbrev VO0_5 : View sig .tc .vmem S1024x256 .f32 := (Memref.whole cc0_stg5_0 : Memref sig .tc .vmem S1024x256 .f32).view
/-- Each window's current staging memref at point `t`, as the pipeline passes it to the body, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The scratch operand: a whole scoped buffer of the kernel's own, carried from point to point. -/
abbrev scM0_0 : Memref sig .tc .vmem S1024x1024 .f32 := Memref.whole cc0_scratch0
/-- The same as a view: what the scratch holds is stated through it. -/
abbrev VS0_0 : View sig .tc .vmem S1024x1024 .f32 := scM0_0.view

/-- The scoped buffers that are neither this region's staging buffers nor its scratch — the next region's eight staging
    buffers —, each whole at some contents: the body never touches them, the invariant carries them along. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant of the class with the scratch as a memref owned at some contents, the eight other scoped
    buffers beside it, and the generator register. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.K.PreRunA.lean ====
/-
  Case A of the Gram call's body, grid point 0: the first branch taken, the other two not. The body loads its block of
  512 rows, loads the scratch (whose contents are unknown and go unused) and stores the block's Gram product into it;
  the input buffers and the two output buffers come back as they were found.
-/
import proofs.«133251_g52209622450808_cont_9to1_m_767_7_alg».proof.Proof.K.PreRuns
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

set_option maxHeartbeats 1000000 in
/-- THE BODY AT THE FIRST POINT (first conditional taken, the other two not): on whole memrefs — the row block's at its
    contents `x0`, the scratch at anything — the body runs to the continuation holding the row block's as it was and the
    scratch with the pieces `LS0` written: it loads the block, loads the scratch (a value it does not use) and stores the
    block's Gram product over the whole scratch. The other windows' buffers are not touched and stay with the caller. The
    pieces are the witness the run finds. -/
noncomputable def kernelRun0_A (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) :
    { LS0 : List (View.Piece (Elt F) S1024x1024 .f32) //
      ∀ (E : Set ℕ) (K : PUnit → sProp 𝕄),
        iprop(owns (c : Thread nD τ) arg1 fullShare x0 ∗ (∃ d, owns (c : Thread nD τ) arg7 fullShare d)
            ∗ (iprop(owns (c : Thread nD τ) arg1 fullShare x0 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun E K => ?run⟩
  case run =>
    simp only [cc0__pre_kernel_eq_skeleton]; unfold cc0__pre_kernel_skel
    unfold owns
    iintro ⟨⟨%f0, %hf0, H0⟩, ⟨%ds0, %fs0, -, HS0⟩, Hk⟩
    obtain rfl := harg1.eq_unread hf0
    sl_exec (disch := first | exact hc0 | exact hc1 | exact hc2)
    sl_step
    iapply Hk
    isplitl [H0]
    · iexists _; isplitr; · ipureintro; exact harg1.read_unread _
      iexact H0
    iexists _; iexact HS0

end Cert.Kernel.Hand

end
-- ==== Proof.K.PreRunB.lean ====
/-
  Case B of the Gram call's body, grid points 1 to 6: the second branch only. The scratch, read at what the point before
  left in it, is overwritten by its sum with the block's Gram product; everything else comes back as it was found.
-/
import proofs.«133251_g52209622450808_cont_9to1_m_767_7_alg».proof.Proof.K.PreRunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

set_option maxHeartbeats 1000000 in
/-- THE BODY AT A MIDDLE POINT (only the second conditional taken): on whole memrefs — the row block's at `x0`, the scratch
    at what the point before left, `xs0` — the body runs to the continuation holding the row block's as it was and the
    scratch with the pieces `LS0` written: it loads the block and the scratch and stores their sum with the block's Gram
    product over the whole scratch. -/
noncomputable def kernelRun0_B (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (xs0 : Vec F S1024x1024 .f32) :
    { LS0 : List (View.Piece (Elt F) S1024x1024 .f32) //
      ∀ (E : Set ℕ) (K : PUnit → sProp 𝕄),
        iprop(owns (c : Thread nD τ) arg1 fullShare x0 ∗ owns (c : Thread nD τ) arg7 fullShare xs0
            ∗ (iprop(owns (c : Thread nD τ) arg1 fullShare x0 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun E K => ?run⟩
  case run =>
    simp only [cc0__pre_kernel_eq_skeleton]; unfold cc0__pre_kernel_skel
    unfold owns
    iintro ⟨⟨%f0, %hf0, H0⟩, ⟨%fs0, %hfs0, HS0⟩, Hk⟩
    obtain rfl := harg1.eq_unread hf0; obtain rfl := harg7.eq_unread hfs0
    sl_exec (disch := first | exact hc0 | exact hc1 | exact hc2)
    sl_step
    iapply Hk
    isplitl [H0]
    · iexists _; isplitr; · ipureintro; exact harg1.read_unread _
      iexact H0
    iexists _; iexact HS0

end Cert.Kernel.Hand

end
-- ==== Proof.K.PreRunC.lean ====
/-
  Case C of the Gram call's body, grid point 7: the second and the third branch. After case B's update the scratch is read
  back; its square roots, their column sums, `other` divided by those sums, and the two matrix products are computed, and
  each of the two output windows is stored whole.
-/
import proofs.«133251_g52209622450808_cont_9to1_m_767_7_alg».proof.Proof.K.PreRunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

set_option maxHeartbeats 2000000 in
/-- THE BODY AT THE LAST POINT (second and third conditionals taken): on whole memrefs — the four inputs' at their contents,
    the two outputs' at anything, the scratch at what the point before left — the body runs to the continuation holding the
    inputs' as they were and each output's buffer and the scratch with their pieces written: it updates the scratch as at
    a middle point, reads it back, and stores one whole block into each output. -/
noncomputable def kernelRun0_C (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    Σ' (L4 : List (View.Piece (Elt F) S1024x256 .f32)) (L5 : List (View.Piece (Elt F) S1024x256 .f32)), { LS0 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, ?_, ?_, fun E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel.Hand

end
-- ==== Proof.K.Pre.lean ====
/-
  The Gram call, one grid point at a time, with the scratch buffer it carries between points.

  Eight points. Every point loads its block of 512 rows of `fix` and forms the block's Gram product. Point 0 stores it
  into the scratch; points 1 to 7 add it to what the scratch holds; point 7 then reads the scratch back and stores the two
  results. What the scratch holds after point n is therefore a recursion on n, and the call's invariant between points
  says exactly that: the scratch at the recursion's value for the point before (at anything before point 0), the other
  scoped buffers at some contents, the generator register at some state. The two output windows are stored at point 7
  only: at the other points the body hands their buffers back untouched and nothing is written back from them.
-/
import proofs.«133251_g52209622450808_cont_9to1_m_767_7_alg».proof.Proof.K.PreRunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

/-! ## What each case leaves in the scratch and in the outputs -/

/-- The first point's pieces for the scratch cover it: one store of the whole buffer. -/
theorem scover0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (y : S1024x1024.Idx) :
    ∃ pc ∈ (kernelRun0_A c i arg1 harg1 arg2 harg2 arg3 harg3 arg4 harg4 arg5 harg5 arg6 harg6 arg7 harg7 hc0 hc1 hc2 x0).1, y ∈ pc.1.set :=
  View.cover_of_tiledL (kernelRun0_A c i arg1 harg1 arg2 harg2 arg3 harg3 arg4 harg4 arg5 harg5 arg6 harg6 arg7 harg7 hc0 hc1 hc2 x0).1 S1024x1024.size (by sl_kernel_rfl) y

/-- What the first point leaves in the scratch: its pieces read back. -/
def sout0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) : Vec F S1024x1024 .f32 :=
  VS0_0.read (Elt F) (VS0_0.writes (Elt F) VS0_0.junk (kernelRun0_A c i arg1 harg1 arg2 harg2 arg3 harg3 arg4 harg4 arg5 harg5 arg6 harg6 arg7 harg7 hc0 hc1 hc2 x0).1)

/-- A middle point's pieces for the scratch cover it: one store of the whole buffer. -/
theorem scover0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (xs0 : Vec F S1024x1024 .f32) (y : S1024x1024.Idx) :
    ∃ pc ∈ (kernelRun0_B c i arg1 harg1 arg2 harg2 arg3 harg3 arg4 harg4 arg5 harg5 arg6 harg6 arg7 harg7 hc0 hc1 hc2 x0 xs0).1, y ∈ pc.1.set :=
  View.cover_of_tiledL (kernelRun0_B c i arg1 harg1 arg2 harg2 arg3 harg3 arg4 harg4 arg5 harg5 arg6 harg6 arg7 harg7 hc0 hc1 hc2 x0 xs0).1 S1024x1024.size (by sl_kernel_rfl) y

/-- What a middle point leaves in the scratch: its pieces read back. -/
def sout0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (xs0 : Vec F S1024x1024 .f32) : Vec F S1024x1024 .f32 :=
  VS0_0.read (Elt F) (VS0_0.writes (Elt F) VS0_0.junk (kernelRun0_B c i arg1 harg1 arg2 harg2 arg3 harg3 arg4 harg4 arg5 harg5 arg6 harg6 arg7 harg7 hc0 hc1 hc2 x0 xs0).1)

/-- The last point's pieces for output 4 cover its block: one store of the whole block. -/
theorem cover0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).1, y ∈ pc.1.set :=
  View.cover_of_tiledL (kernelRun0_C c i arg1 harg1 arg2 harg2 arg3 harg3 arg4 harg4 arg5 harg5 arg6 harg6 arg7 harg7 hc0 hc1 hc2 x0 x1 x2 x3 xs0).1 S1024x256.size (by sl_kernel_rfl) y

/-- What the last point leaves in output 4's staging buffer: its pieces read back. -/
def out0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_4.read (Elt F) (VO0_4.writes (Elt F) VO0_4.junk (kernelRun0_C c i arg1 harg1 arg2 harg2 arg3 harg3 arg4 harg4 arg5 harg5 arg6 harg6 arg7 harg7 hc0 hc1 hc2 x0 x1 x2 x3 xs0).1)

/-- The last point's pieces for output 5 cover its block: one store of the whole block. -/
theorem cover0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.1 S1024x256.size (by sl_kernel_rfl) y

/-- What the last point leaves in output 5's staging buffer: its pieces read back. -/
def out0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_5.read (Elt F) (VO0_5.writes (Elt F) VO0_5.junk (kernelRun0_C c i arg1 harg1 arg2 harg2 arg3 harg3 arg4 harg4 arg5 harg5 arg6 harg6 arg7 harg7 hc0 hc1 hc2 x0 x1 x2 x3 xs0).2.1)

/-- The last point's pieces for the scratch cover it. -/
theorem scover0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x1024.Idx) :
    ∃ pc ∈ (kernelRun0_C c i arg1 harg1 arg2 harg2 arg3 harg3 arg4 harg4 arg5 harg5 arg6 harg6 arg7 harg7 hc0 hc1 hc2 x0 x1 x2 x3 xs0).2.2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.2.1 S1024x1024.size (by sl_kernel_rfl) y

/-- What the last point leaves in the scratch: its pieces read back. -/
def sout0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x1024 .f32 :=
  VS0_0.read (Elt F) (VS0_0.writes (Elt F) VS0_0.junk (kernelRun0_C c i arg1 harg1 arg2 harg2 arg3 harg3 arg4 harg4 arg5 harg5 arg6 harg6 arg7 harg7 hc0 hc1 hc2 x0 x1 x2 x3 xs0).2.2.1)

/-- The contents named for an output at a point where nothing is stored into it and it is not written back: nothing
    consults them. -/
def idleOut0 : Vec F S1024x256 .f32 := VO0_4.read (Elt F) VO0_4.junk

/-! ## What the outputs and the scratch hold after each point -/

/-- THE ACCUMULATION: what output 4's buffer, output 5's buffer and the scratch hold after the body at position `n`.
    Point 0 stores the first block's product into the scratch; a later point adds its block's product to what the point
    before left; the last point then also fills both outputs. -/
def outsAt0 (c : Dev nD) : (n : ℕ) → n < cfg0.N → Vec F S1024x256 .f32 × Vec F S1024x256 .f32 × Vec F S1024x1024 .f32
  | 0, hn => (idleOut0, idleOut0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (fun h => (hcond0_1 ⟨0, hn⟩).mp h rfl) (fun h => (fun h => by (try dsimp only at h); omega) ((hcond0_2 ⟨0, hn⟩).mp h)) (iblk0 V c 0 ⟨0, hn⟩))
  | n + 1, hn =>
    if h2 : n + 1 = 7 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
    else
      (idleOut0, idleOut0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) (fun h => h2 ((hcond0_2 ⟨n + 1, hn⟩).mp h)) (iblk0 V c 0 ⟨n + 1, hn⟩) (outsAt0 c n (Nat.lt_of_succ_lt hn)).2.2)

/-- `outsAt0` at the first point. -/
theorem outsAt0_A (c : Dev nD) (t : Fin cfg0.N) (h0 : t.val = 0) :
    outsAt0 V c t.val t.isLt = (idleOut0, idleOut0, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => (hcond0_1 t).mp h h0) (fun h => (fun h => by omega) ((hcond0_2 t).mp h)) (iblk0 V c 0 t)) := by
  obtain ⟨n, hn⟩ := t
  cases n with
  | zero => exact rfl
  | succ n => exact absurd h0 (Nat.succ_ne_zero n)

/-- `outsAt0` at a middle point: over what the point before left in the scratch. -/
theorem outsAt0_B (c : Dev nD) (t : Fin cfg0.N) (h0 : ¬t.val = 0) (h2 : ¬t.val = 7) :
    outsAt0 V c t.val t.isLt = (idleOut0, idleOut0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact absurd rfl h0
  | succ n => exact (dif_neg h2).trans rfl

/-- `outsAt0` at the last point: over what the point before left in the scratch. -/
theorem outsAt0_C (c : Dev nD) (t : Fin cfg0.N) (h0 : ¬t.val = 0) (h2 : t.val = 7) :
    outsAt0 V c t.val t.isLt =
      (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd rfl h0
  | succ n => exact (dif_pos h2).trans rfl

/-! ## The region invariant with the carried scratch -/

/-- The invariant before position `n`: before the first point the class's (every scoped buffer at anything); afterwards
    the scratch at what the point before left in it, the eight other scoped buffers at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ rest0 (F := F) c) ∗ (∃ r, prngReg c r)) := by
  cases n with
  | zero => exact absurd rfl hz
  | succ n => rfl

/-! ## The pipeline's proof data -/

/-- The proof data of region 0 on core `c`: the arrays as the region finds them; after the body at point `t` each input's
    buffer at its block, the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the closed forms of the conditions say which of the three
    cases the point is in, and that case's run applies. The invariant hands the body the scratch — at anything before the
    first point, at what the point before left afterwards — and takes it back at this point's contents, the pieces the run
    found covering it; the eight other scoped buffers and the generator register pass through. Off the last point the
    outputs' buffers are handed back as found (idle, not written back); at the last point each is covered by its one store. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val = 0
  · have hn2 : ¬cond0_2 (grid0.coords t) := fun h => (fun h => by omega) ((hcond0_2 t).mp h)
    rw [Dat.leavesExact_idle (dat0 V c) 4 t (idleAt0_4 t hn2) (noFlush0_4 t hn2)]
    rw [Dat.leavesExact_idle (dat0 V c) 5 t (idleAt0_5 t hn2) (noFlush0_5 t hn2)]
    rw [outsAt0_A V c t h0]
    unfold sout0_A_0; (try dsimp only)
    rw [PhiS0_castSucc V c t, PhiS0_zero V c _ _ h0, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => (hcond0_1 t).mp h h0) hn2 (iblk0 V c 0 t)).2 Set.univ _)
    isplitl [H0]; · iexact H0
    isplitl [HS0]; · iexact HS0
    iintro ⟨H0, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h2 : t.val = 7
    · have hc2 : cond0_2 (grid0.coords t) := (hcond0_2 t).mpr h2
      rw [show (dat0 V c).leavesExact 4 t = owns (c : Thread nD τ) (ms0_4 t) fullShare ((dat0 V c).after 4 t) from by
        unfold Dat.leavesExact; rw [liveAt0_4 t hc2], after0_4]
      rw [show (dat0 V c).leavesExact 5 t = owns (c : Thread nD τ) (ms0_5 t) fullShare ((dat0 V c).after 5 t) from by
        unfold Dat.leavesExact; rw [liveAt0_5 t hc2], after0_5]
      rw [outsAt0_C V c t h0 h2]
      unfold out0_C_4 out0_C_5 sout0_C_0; (try dsimp only)
      rw [PhiS0_castSucc V c t, PhiS0_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h0) hc2 (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _)
    · have hn2 : ¬cond0_2 (grid0.coords t) := fun h => h2 ((hcond0_2 t).mp h)
      rw [Dat.leavesExact_idle (dat0 V c) 4 t (idleAt0_4 t hn2) (noFlush0_4 t hn2)]
      rw [Dat.leavesExact_idle (dat0 V c) 5 t (idleAt0_5 t hn2) (noFlush0_5 t hn2)]
      rw [outsAt0_B V c t h0 h2]
      unfold sout0_B_0; (try dsimp only)
      rw [PhiS0_castSucc V c t, PhiS0_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) ((hcond0_1 t).mpr h0) hn2 (iblk0 V c 0 t) _).2 Set.univ _)
      isplitl [H0]; · iexact H0
      isplitl [HS0]; · iexact HS0
      iintro ⟨H0, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

/-! ## The running sum the scratch carries -/

/-- the scratch after point n: the chunk's Gram product at 0, the running sum afterwards -/
def sAt (c : Dev nD) : (n : ℕ) → n < cfg0.N → Vec F S1024x1024 .f32
  | 0, hn => k0_pay2 (iblk0 V c 0 ⟨0, hn⟩)
  | n + 1, hn => k0_pay3 (iblk0 V c 0 ⟨n + 1, hn⟩) (sAt c n (Nat.lt_of_succ_lt hn))

end Cert.Kernel.Hand

end
-- ==== Proof.K.Run.lean ====
/-
  The run of @main: a host stretch of two reshapes, then the two calls.

  Between segments a core holds every unscoped buffer at named contents: the launch contents; after the reshapes those with
  the two bias rows written; after the first call its two result arrays at what its write-backs leave and everything
  else as before; after the second call the result array likewise. Each call is entered from the state before it and
  left at the state after it: its arrays are split out of the unscoped buffers and put back at their final contents, the
  generator register goes into the call's invariant and comes back, nothing is owed to another core. So every weakly
  fair execution terminates with every unscoped buffer at the last contents; and since no segment writes an argument,
  each argument array reads back through the three steps to its launch contents.
-/
import proofs.«133251_g52209622450808_cont_9to1_m_767_7_alg».proof.Proof.Gen.Kernel.Launch
import proofs.«133251_g52209622450808_cont_9to1_m_767_7_alg».proof.Proof.Gen.Kernel.Skeleton
import proofs.«133251_g52209622450808_cont_9to1_m_767_7_alg».proof.Proof.Gen.Kernel.Points
import proofs.«133251_g52209622450808_cont_9to1_m_767_7_alg».proof.Proof.Gen.Kernel.Regions
import proofs.«133251_g52209622450808_cont_9to1_m_767_7_alg».proof.Proof.K.Attn
import proofs.«133251_g52209622450808_cont_9to1_m_767_7_alg».proof.Proof.K.Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! # The run of @main: the host stretch, region 0, region 1

## The buffer contents at each segment boundary: a fold from the launch memory -/

/-- Core `c`'s buffers at launch. -/
abbrev W0 : Dev nD → Valuation τ sig (Elt F) := fun c b => m (c, b)
/-- After the two reshapes (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b

/-- A reference neither reshape writes holds its launch contents at region 0's entry. -/
theorem V1_of_arg (c : Dev nD) (b : Ref sig .tc) (hb : b ≠ main_v0 ∧ b ≠ main_v1) : V1 m c b = m ((c : Thread nD τ).loc b) :=
  StableHlo.after_of_writes_sub hostOps0 _ hostOps0_writes (by
    intro h
    rcases List.mem_cons.mp h with h | h
    · exact hb.1 h
    · exact hb.2 (List.mem_singleton.mp h))

/-- The first reshape's result: the bias of the query projection, its 256 entries as one row. -/
theorem V1_main_v0 (c : Dev nD) : V1 m c main_v0 = shapeCast S1x256 (m ((c : Thread nD τ).loc main_arg4)) shapeCasts_S256_S1x256 := by
  dsimp only [V1, W1, W0, hostOps0]; after_results; rfl
/-- The second reshape's result: the bias of the key projection, its 256 entries as one row. -/
theorem V1_main_v1 (c : Dev nD) : V1 m c main_v1 = shapeCast S1x256 (m ((c : Thread nD τ).loc main_arg6)) shapeCasts_S256_S1x256 := by
  dsimp only [V1, W1, W0, hostOps0]; after_results; rfl

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents, which region 1 is entered from: no host
    operation stands between the two regions). -/
abbrev V2 : (c : Dev nD) → (b : Ref sig .tc) → Buf (Elt F) ((c : Thread nD τ).loc b) := fun c b => W2 m c b
/-- At region 0's exit each of its arrays holds what the pipeline leaves, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. Nothing follows it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### What the regions leave in the buffers the next stage reads -/

/-- The output array holds what region 1's write-backs leave. -/
theorem W3_main_v3 (c : Dev nD) : W3 m c (Proc.devRef .tc main_v3) = (dat1 (V2 m) c).arrAt 5 cfg1.N := W3_arr m c 5
/-- Region 1 finds the mixed rows and the keys as region 0's write-backs leave them. -/
theorem V2_main_v2_0 (c : Dev nD) : V2 m c main_v2_0 = (dat0 (V1 m) c).arrAt 4 cfg0.N := W2_arr m c 4
theorem V2_main_v2_1 (c : Dev nD) : V2 m c main_v2_1 = (dat0 (V1 m) c).arrAt 5 cfg0.N := W2_arr m c 5
/-- A buffer that is no array of region 0 is found by region 1 as region 0 found it. -/
theorem V2_of_arg (c : Dev nD) (b : Ref sig .tc) (hb : ∀ w, Pipeline.arrRef spec0 w ≠ b) : V2 m c b = V1 m c b := W2_of_ne m c b hb

/-! ### The arguments end as launched: neither reshape writes one, and a region reads it through an input window
    (whose array the pipeline leaves as entered) or bypasses it -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = m ((c : Thread nD τ).loc main_arg0) := V1_of_arg m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := V1_of_arg m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 0).trans (((dat0 (V1 m) c).arrAt_in 0 rfl _).trans (A_eq0 (V1 m) c 0))
    _ = m ((c : Thread nD τ).loc main_arg2) := V1_of_arg m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 1).trans (((dat1 (V2 m) c).arrAt_in 1 rfl _).trans (A_eq1 (V2 m) c 1))
    _ = W1 m c (Proc.devRef .tc main_arg3) := W2_of_ne m c main_arg3 (by decide)
    _ = m ((c : Thread nD τ).loc main_arg3) := V1_of_arg m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := V1_of_arg m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 2).trans (((dat0 (V1 m) c).arrAt_in 2 rfl _).trans (A_eq0 (V1 m) c 2))
    _ = m ((c : Thread nD τ).loc main_arg5) := V1_of_arg m c main_arg5 (by decide)
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := V1_of_arg m c main_arg6 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 over the thread state: entered from every unscoped buffer at `W1`, left at `W2`. Its arrays split out of
    the unscoped buffers and put back at the exit contents; the generator register and the scoped buffers no window stages
    (the carried scratch among them) into the kernel's invariant at the first point and out of it at the last; nothing
    owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads at
    the end). The generator register into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two regions back to back. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main IS the run of the segments. -/
theorem main_run (c : Dev nD) : main (F := F) c = Pipeline.Seg.run (segs m) := (main_chain c).trans (by chain_rfl)

set_option backward.isDefEq.respectTransparency.types false in
/-- Every weakly fair execution of @main from memory `m` with zero counters ends, nothing faulting, and every unscoped
    buffer then holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME at any `F`: every weakly fair execution of @main ends and every final state has the seven argument arrays
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.Kernel.Hand
end
-- ==== Proof.KI.Attn.lean ====
/-
  The attention call, one grid point at a time.

  At each of its five grid points the body loads a block of 2000 rows of `main`, the whole of Wq, the bias row, K and the
  mixed matrix, and stores ONE whole block: the payload  softmax(q Kᵀ / 16) · mixed  with  q = block · Wqᵀ + bias.
  So after the body the output window's buffer holds that payload of the five input blocks, whatever it held before, and
  every input window's buffer still holds its block; the call's invariant (the other scoped buffers at some contents, the
  generator register at some state) passes through untouched. The blocks written back are disjoint runs of 2000 rows that
  cover the array, so the array after the call is ONE function of the contents the call was entered with: row i is the
  payload on the block that holds row i, read at row i mod 2000.
-/
import proofs.«133251_g52209622450808_cont_9to1_m_767_7_alg».proof.Proof.Gen.KernelIdeal.Launch
import proofs.«133251_g52209622450808_cont_9to1_m_767_7_alg».proof.Proof.Gen.KernelIdeal.Skeleton
import proofs.«133251_g52209622450808_cont_9to1_m_767_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

/-! # Region 1 (the attention kernel, pipeline 1), at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window fetched at
    the first point only keeps its block index, so the buffer still holds the block): for any proof data whose array
    is the entry contents and whose body leaves the block in place. Window 0 moves with the point; -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- windows 1 to 4 are whole arrays, the same block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window's buffer is read or written whole -/

abbrev r1_a : Rect S2000x256 := Rect.unit (s := S2000x256) ![0, 0] S2000x256.size inb_S2000x256_S2000x256_0_0
abbrev r1_b : Rect S256x256 := Rect.unit (s := S256x256) ![0, 0] S256x256.size inb_S256x256_S256x256_0_0
abbrev r1_c : Rect S1x256 := Rect.unit (s := S1x256) ![0, 0] S1x256.size inb_S1x256_S1x256_0_0
abbrev r1_d : Rect S1024x256 := Rect.unit (s := S1024x256) ![0, 0] S1024x256.size inb_S1024x256_S1024x256_0_0

/-- The offsets of every access are zero on both axes. -/
theorem hz1 : (![0, 0] : Fin 2 → Nat) = fun _ => 0 := funext fun a => by fin_cases a <;> rfl

/-! ## What the body leaves in the output window's buffer -/

/-- window 5's staging buffer after the body: the canon of its one whole-block store over the loads -/
def out1_5 (x0 : Vec F S2000x256 .f32) (x1 : Vec F S256x256 .f32) (x2 : Vec F S1x256 .f32) (x3 x4 : Vec F S1024x256 .f32) : Vec F S2000x256 .f32 :=
  View.canon [⟨r1_a, k1_pay1 (View.ld x0 r1_a) (View.ld x1 r1_b) (View.ld x2 r1_c) (View.ld x3 r1_d) (View.ld x4 r1_d)⟩]

/-- The one store is through the whole buffer, so it covers it. -/
theorem cover1_5 (p0 : Vec F S2000x256 .f32) (y : S2000x256.Idx) :
    ∃ pc ∈ ([⟨r1_a, p0⟩] : List (View.Piece (Elt F) S2000x256 .f32)), y ∈ pc.1.set :=
  ⟨_, List.mem_singleton_self _, View.mem_set_unit_zero hz1 inb_S2000x256_S2000x256_0_0 y⟩

/-! ## The body's triple -/

set_option maxHeartbeats 4000000 in
/-- The kernel body on whole staging memrefs, the inputs' at read contents `x0` … `x4` and the output's at anything, runs to
    the continuation holding the inputs' as they were and the output's at `out1_5` of the inputs'. The body also reads
    the output's buffer before it stores over it; the value read is used nowhere. -/
theorem sound_kernel1 (c : Dev nD) (E : Set ℕ) (i : grid1.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (arg5 : Memref sig .tc .vmem S1024x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 x4 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__attn_kernel i arg1 harg1 arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body each input's buffer
    at its block and the output's at `out1_5` of the five input blocks; the class-A invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## From the blocks to the array -/

/-- the whole output array as ONE function of the entry contents: row i of the result is the body's payload on the block that holds row i -/
def attnArr (x0 : Vec F S10000x256 .f32) (x1 : Vec F S256x256 .f32) (x2 : Vec F S1x256 .f32) (x3 x4 : Vec F S1024x256 .f32) : Vec F S10000x256 .f32 :=
  fun j => k1_pay1 (fun y : S2000x256.Idx => x0 (ValueIdx.ix2 (⟨((j 0).val / 2000) * 2000 + (y 0).val, by have h1 : (y 0).val < 2000 := (y 0).isLt; have h2 : (j 0).val < 10000 := (j 0).isLt; omega⟩ : Fin 10000) (⟨(y 1).val, (y 1).isLt⟩ : Fin 256))) x1 x2 x3 x4
    (ValueIdx.ix2 (⟨(j 0).val % 2000, Nat.mod_lt _ (by decide)⟩ : Fin 2000) (⟨(j 1).val, (j 1).isLt⟩ : Fin 256))

/-- `attnArr` at an index of block `q`: if row `j 0` is row `y 0` of block `q` and `b0` is block `q` of the rows, the
    array's entry at `j` is the payload of `b0` at `y` (the block that holds row `q * 2000 + r`, `r < 2000`, is `q`). -/
theorem attnArr_apply (x0 : Vec F S10000x256 .f32) (x1 : Vec F S256x256 .f32) (x2 : Vec F S1x256 .f32) (x3 x4 : Vec F S1024x256 .f32)
    (b0 : Vec F S2000x256 .f32) (q : Nat) (j : S10000x256.Idx) (y : S2000x256.Idx)
    (hj0 : (j 0).val = q * 2000 + (y 0).val) (hj1 : (j 1).val = (y 1).val)
    (hb : ∀ (y' : S2000x256.Idx) (i : S10000x256.Idx), (i 0).val = q * 2000 + (y' 0).val → (i 1).val = (y' 1).val → b0 y' = x0 i) :
    attnArr x0 x1 x2 x3 x4 j = k1_pay1 b0 x1 x2 x3 x4 y := by
  have hy0 : (y 0).val < 2000 := (y 0).isLt
  have hdiv : (j 0).val / 2000 = q := by omega
  have hmod : (j 0).val % 2000 = (y 0).val := by omega
  have hblk : (fun y' : S2000x256.Idx => x0 (ValueIdx.ix2 (⟨((j 0).val / 2000) * 2000 + (y' 0).val, by have h1 : (y' 0).val < 2000 := (y' 0).isLt; have h2 : (j 0).val < 10000 := (j 0).isLt; omega⟩ : Fin 10000) (⟨(y' 1).val, (y' 1).isLt⟩ : Fin 256))) = b0 := by
    funext y'
    exact (hb y' _ (by show (j 0).val / 2000 * 2000 + (y' 0).val = q * 2000 + (y' 0).val; rw [hdiv]) rfl).symm
  have hidx : (ValueIdx.ix2 (⟨(j 0).val % 2000, Nat.mod_lt _ (by decide)⟩ : Fin 2000) (⟨(j 1).val, (j 1).isLt⟩ : Fin 256) : S2000x256.Idx) = y := by
    funext a; apply Fin.ext
    match a with
    | ⟨0, _⟩ => exact hmod
    | ⟨1, _⟩ => exact hj1
  unfold attnArr
  exact congr (congrArg (fun b => k1_pay1 b x1 x2 x3 x4) hblk) hidx

/-- The printed index maps over the grid: windows 0 and 5 are at block row `t`, column block 0; windows 1 to 4 at block zero. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A window whose block is its whole array reads the array. -/
theorem iblk1_1 (c : Dev nD) (t : Fin cfg1.N) : iblk1 V c 1 t = V c main_arg3 := by
  obtain ⟨-, -, -, -, e0, e1, -⟩ := idx_facts1 t
  funext y
  show V c main_arg3 (((cfg1.win 1).blk t).view.emb y) = V c main_arg3 y
  refine congrArg _ ?_
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega
theorem iblk1_2 (c : Dev nD) (t : Fin cfg1.N) : iblk1 V c 2 t = V c main_v0 := by
  obtain ⟨-, -, -, -, -, -, e0, e1, -⟩ := idx_facts1 t
  funext y
  show V c main_v0 (((cfg1.win 2).blk t).view.emb y) = V c main_v0 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega
theorem iblk1_3 (c : Dev nD) (t : Fin cfg1.N) : iblk1 V c 3 t = V c main_v2_1 := by
  obtain ⟨-, -, -, -, -, -, -, -, e0, e1, -⟩ := idx_facts1 t
  funext y
  show V c main_v2_1 (((cfg1.win 3).blk t).view.emb y) = V c main_v2_1 y
  refine congrArg _ ?_
  funext a; apply Fin.ext
  match a with
  | ⟨0, _⟩ => show win1_3.index t (0 : Fin 2) * 1024 + 1 * (y 0).val = (y 0).val; omega
  | ⟨1, _⟩ => show win1_3.index t (1 : Fin 2) * 256 + 1 * (y 1).val = (y 1).val; omega
theorem iblk1_4 (c : Dev nD) (t : Fin cfg1.N) : iblk1 V c 4 t = V c main_v2_0 := by
  obtain ⟨-, -, -, -, -, -, -, -, -, -, e0, e1⟩ := idx_facts1 t
  funext y
  show V c main_v2_0 (((cfg1.win 4).blk t).view.emb y) = V c main_v2_0 y
  refine congrArg _ ?_
  funext a; apply Fin.ext
  match a with
  | ⟨0, _⟩ => show win1_4.index t (0 : Fin 2) * 1024 + 1 * (y 0).val = (y 0).val; omega
  | ⟨1, _⟩ => show win1_4.index t (1 : Fin 2) * 256 + 1 * (y 1).val = (y 1).val; omega

/-- WHAT POINT `t` WRITES BACK is block `t` of `attnArr` of the arrays as the region finds them. -/
theorem flushed1_5_eq (c : Dev nD) (t : Fin cfg1.N) :
    (dat1 V c).flushed 5 t = ((cfg1.win 5).blk t).view.read (Elt F)
      (attnArr (V c main_arg0) (V c main_arg3) (V c main_v0) (V c main_v2_1) (V c main_v2_0)) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S256x256) hz1,
    View.ld_unit_zero (S := S1x256) hz1, View.ld_unit_zero (S := S1024x256) hz1]
  rw [iblk1_1, iblk1_2, iblk1_3, iblk1_4]
  obtain ⟨e00, e01, e50, e51, -⟩ := idx_facts1 t
  funext y
  show k1_pay1 (iblk1 V c 0 t) (V c main_arg3) (V c main_v0) (V c main_v2_1) (V c main_v2_0) y
    = attnArr (V c main_arg0) (V c main_arg3) (V c main_v0) (V c main_v2_1) (V c main_v2_0) (((cfg1.win 5).blk t).view.emb y)
  refine (attnArr_apply _ _ _ _ _ (iblk1 V c 0 t) t.val _ y ?_ ?_ ?_).symm
  · show win1_5.index t (0 : Fin 2) * 2000 + 1 * (y 0).val = t.val * 2000 + (y 0).val; omega
  · show win1_5.index t (1 : Fin 2) * 256 + 1 * (y 1).val = (y 1).val; omega
  · intro y' i hi0 hi1
    show V c main_arg0 (((cfg1.win 0).blk t).view.emb y') = V c main_arg0 i
    refine congrArg _ ?_
    funext a; apply Fin.ext
    match a with
    | ⟨0, _⟩ => show win1_0.index t (0 : Fin 2) * 2000 + 1 * (y' 0).val = (i 0).val; omega
    | ⟨1, _⟩ => show win1_0.index t (1 : Fin 2) * 256 + 1 * (y' 1).val = (i 1).val; omega

/-- An index of the array is in point `t`'s block iff each coordinate is in the block's range on its axis. -/
theorem mem_blk1_5 (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v3).slice (win1_5.rect t)).set ↔ _
  rw [View.set_slice_whole, Rect.mem_set_unit]
  exact Iff.rfl

/-- Every index of the array is in some point's block: row `r` is in the block of point `r / 2000`. -/
theorem cover_arr1_5 (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hN : cfg1.N = 5 := N_1
  have hq : (i 0).val / 2000 < cfg1.N := by rw [hN]; omega
  obtain ⟨-, -, e50, e51, -⟩ := idx_facts1 ⟨(i 0).val / 2000, hq⟩
  have e50' : win1_5.index ⟨(i 0).val / 2000, hq⟩ (0 : Fin 2) = (i 0).val / 2000 := e50
  refine ⟨⟨(i 0).val / 2000, hq⟩, flush1_5 _, ?_⟩
  rw [mem_blk1_5]
  intro a
  match a with
  | ⟨0, _⟩ => show win1_5.index ⟨(i 0).val / 2000, hq⟩ (0 : Fin 2) * 2000 ≤ (i 0).val ∧ (i 0).val < win1_5.index ⟨(i 0).val / 2000, hq⟩ (0 : Fin 2) * 2000 + 2000; omega
  | ⟨1, _⟩ => show win1_5.index ⟨(i 0).val / 2000, hq⟩ (1 : Fin 2) * 256 ≤ (i 1).val ∧ (i 1).val < win1_5.index ⟨(i 0).val / 2000, hq⟩ (1 : Fin 2) * 256 + 256; omega

/-- THE ARRAY after the run: `attnArr` of the arrays as the region finds them. -/
theorem arr1_5 (c : Dev nD) : (dat1 V c).arrAt 5 cfg1.N = attnArr (V c main_arg0) (V c main_arg3) (V c main_v0) (V c main_v2_1) (V c main_v2_0) :=
  (dat1 V c).arrAt_eq_of_cover 5 (attnArr (V c main_arg0) (V c main_arg3) (V c main_v0) (V c main_v2_1) (V c main_v2_0))
    (fun t _ => flushed1_5_eq V c t) cover_arr1_5

end Cert.KernelIdeal.Hand
end
-- ==== Proof.KI.PreRuns.lean ====
/-
  What the three cases of the Gram call's body share.

  The body branches three times on the grid point i: on i = 0, on i > 0, and on i = 7. The eight points meet three of the
  assignments: point 0 (the first only), points 1 to 6 (the second only), point 7 (the second and the third); each
  condition is decided over the grid in closed form. Here also: where the two output windows are idle (every point but
  7, where alone they are written back), the staging memrefs and the scratch by name, and the call's invariant with the
  scratch buffer singled out from the other scoped buffers.
-/
import proofs.«133251_g52209622450808_cont_9to1_m_767_7_alg».proof.Proof.Gen.KernelIdeal.Launch
import proofs.«133251_g52209622450808_cont_9to1_m_767_7_alg».proof.Proof.Gen.KernelIdeal.Skeleton
import proofs.«133251_g52209622450808_cont_9to1_m_767_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    window's block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    window's block index has not moved since the point that fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    window's block index has not moved since the point that fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    window's block index has not moved since the point that fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's three conditions, in closed form over the grid -/

/-- The first conditional's condition: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's condition: the grid coordinate is positive (a signed comparison). -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ ¬t.val = 0 :=
  (by decide +kernel : ∀ t : Fin grid0.N, cond0_1 (grid0.coords t) ↔ ¬t.val = 0)

/-- The third conditional's condition: the grid coordinate is 7, the last point. -/
abbrev cond0_2 (i : grid0.Coords) : Prop := k0_cond3 i = 1#1
theorem hcond0_2 : ∀ t : Fin cfg0.N, cond0_2 (grid0.coords t) ↔ t.val = 7 :=
  (by decide +kernel : ∀ t : Fin grid0.N, cond0_2 (grid0.coords t) ↔ t.val = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Off the last point nothing is stored into output 4: the window is idle there, -/
theorem idleAt0_4 : ∀ t : Fin cfg0.N, ¬cond0_2 (grid0.coords t) → cfg0.idle 4 (grid0.coords t) = true := by decide +kernel
/-- and its block is not written back there. -/
theorem noFlush0_4 : ∀ t : Fin cfg0.N, ¬cond0_2 (grid0.coords t) → (cfg0.win 4).flush t = false := by decide +kernel
/-- At the last point output 4 is live: the body stores its whole block. -/
theorem liveAt0_4 : ∀ t : Fin cfg0.N, cond0_2 (grid0.coords t) → cfg0.idle 4 (grid0.coords t) = false := by decide +kernel
/-- Off the last point nothing is stored into output 5: the window is idle there, -/
theorem idleAt0_5 : ∀ t : Fin cfg0.N, ¬cond0_2 (grid0.coords t) → cfg0.idle 5 (grid0.coords t) = true := by decide +kernel
/-- and its block is not written back there. -/
theorem noFlush0_5 : ∀ t : Fin cfg0.N, ¬cond0_2 (grid0.coords t) → (cfg0.win 5).flush t = false := by decide +kernel
/-- At the last point output 5 is live: the body stores its whole block. -/
theorem liveAt0_5 : ∀ t : Fin cfg0.N, cond0_2 (grid0.coords t) → cfg0.idle 5 (grid0.coords t) = false := by decide +kernel

/-! ## The staging memrefs and the scratch -/

/-- One staging buffer of each output window, through which its contents are stated. -/
abbrev VO0_4 : View sig .tc .vmem S1024x256 .f32 := (Memref.whole cc0_stg4_0 : Memref sig .tc .vmem S1024x256 .f32).view
abbrev VO0_5 : View sig .tc .vmem S1024x256 .f32 := (Memref.whole cc0_stg5_0 : Memref sig .tc .vmem S1024x256 .f32).view
/-- Each window's current staging memref at point `t`, as the pipeline passes it to the body, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
/-- The scratch operand: a whole scoped buffer of the kernel's own, carried from point to point. -/
abbrev scM0_0 : Memref sig .tc .vmem S1024x1024 .f32 := Memref.whole cc0_scratch0
/-- The same as a view: what the scratch holds is stated through it. -/
abbrev VS0_0 : View sig .tc .vmem S1024x1024 .f32 := scM0_0.view

/-- The scoped buffers that are neither this region's staging buffers nor its scratch — the next region's eight staging
    buffers —, each whole at some contents: the body never touches them, the invariant carries them along. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant of the class with the scratch as a memref owned at some contents, the eight other scoped
    buffers beside it, and the generator register. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.KI.PreRunA.lean ====
/-
  Case A of the Gram call's body, grid point 0: the first branch taken, the other two not. The body loads its block of
  512 rows, loads the scratch (whose contents are unknown and go unused) and stores the block's Gram product into it;
  the input buffers and the two output buffers come back as they were found.
-/
import proofs.«133251_g52209622450808_cont_9to1_m_767_7_alg».proof.Proof.KI.PreRuns
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

set_option maxHeartbeats 1000000 in
/-- THE BODY AT THE FIRST POINT (first conditional taken, the other two not): on whole memrefs — the row block's at its
    contents `x0`, the scratch at anything — the body runs to the continuation holding the row block's as it was and the
    scratch with the pieces `LS0` written: it loads the block, loads the scratch (a value it does not use) and stores the
    block's Gram product over the whole scratch. The other windows' buffers are not touched and stay with the caller. The
    pieces are the witness the run finds. -/
noncomputable def kernelRun0_A (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) :
    { LS0 : List (View.Piece (Elt F) S1024x1024 .f32) //
      ∀ (E : Set ℕ) (K : PUnit → sProp 𝕄),
        iprop(owns (c : Thread nD τ) arg1 fullShare x0 ∗ (∃ d, owns (c : Thread nD τ) arg7 fullShare d)
            ∗ (iprop(owns (c : Thread nD τ) arg1 fullShare x0 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun E K => ?run⟩
  case run =>
    simp only [cc0__pre_kernel_eq_skeleton]; unfold cc0__pre_kernel_skel
    unfold owns
    iintro ⟨⟨%f0, %hf0, H0⟩, ⟨%ds0, %fs0, -, HS0⟩, Hk⟩
    obtain rfl := harg1.eq_unread hf0
    sl_exec (disch := first | exact hc0 | exact hc1 | exact hc2)
    sl_step
    iapply Hk
    isplitl [H0]
    · iexists _; isplitr; · ipureintro; exact harg1.read_unread _
      iexact H0
    iexists _; iexact HS0

end Cert.KernelIdeal.Hand

end
-- ==== Proof.KI.PreRunB.lean ====
/-
  Case B of the Gram call's body, grid points 1 to 6: the second branch only. The scratch, read at what the point before
  left in it, is overwritten by its sum with the block's Gram product; everything else comes back as it was found.
-/
import proofs.«133251_g52209622450808_cont_9to1_m_767_7_alg».proof.Proof.KI.PreRunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

set_option maxHeartbeats 1000000 in
/-- THE BODY AT A MIDDLE POINT (only the second conditional taken): on whole memrefs — the row block's at `x0`, the scratch
    at what the point before left, `xs0` — the body runs to the continuation holding the row block's as it was and the
    scratch with the pieces `LS0` written: it loads the block and the scratch and stores their sum with the block's Gram
    product over the whole scratch. -/
noncomputable def kernelRun0_B (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (xs0 : Vec F S1024x1024 .f32) :
    { LS0 : List (View.Piece (Elt F) S1024x1024 .f32) //
      ∀ (E : Set ℕ) (K : PUnit → sProp 𝕄),
        iprop(owns (c : Thread nD τ) arg1 fullShare x0 ∗ owns (c : Thread nD τ) arg7 fullShare xs0
            ∗ (iprop(owns (c : Thread nD τ) arg1 fullShare x0 ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, fun E K => ?run⟩
  case run =>
    simp only [cc0__pre_kernel_eq_skeleton]; unfold cc0__pre_kernel_skel
    unfold owns
    iintro ⟨⟨%f0, %hf0, H0⟩, ⟨%fs0, %hfs0, HS0⟩, Hk⟩
    obtain rfl := harg1.eq_unread hf0; obtain rfl := harg7.eq_unread hfs0
    sl_exec (disch := first | exact hc0 | exact hc1 | exact hc2)
    sl_step
    iapply Hk
    isplitl [H0]
    · iexists _; isplitr; · ipureintro; exact harg1.read_unread _
      iexact H0
    iexists _; iexact HS0

end Cert.KernelIdeal.Hand

end
-- ==== Proof.KI.PreRunC.lean ====
/-
  Case C of the Gram call's body, grid point 7: the second and the third branch. After case B's update the scratch is read
  back; its square roots, their column sums, `other` divided by those sums, and the two matrix products are computed, and
  each of the two output windows is stored whole.
-/
import proofs.«133251_g52209622450808_cont_9to1_m_767_7_alg».proof.Proof.KI.PreRunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

set_option maxHeartbeats 2000000 in
/-- THE BODY AT THE LAST POINT (second and third conditionals taken): on whole memrefs — the four inputs' at their contents,
    the two outputs' at anything, the scratch at what the point before left — the body runs to the continuation holding the
    inputs' as they were and each output's buffer and the scratch with their pieces written: it updates the scratch as at
    a middle point, reads it back, and stores one whole block into each output. -/
noncomputable def kernelRun0_C (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    Σ' (L4 : List (View.Piece (Elt F) S1024x256 .f32)) (L5 : List (View.Piece (Elt F) S1024x256 .f32)), { LS0 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc0__pre_kernel i arg1 harg1 arg2 harg2 arg3 harg3 arg4 harg4 arg5 harg5 arg6 harg6 arg7 harg7) K } := by
  refine ⟨?_, ?_, ?_, fun E K => ?run⟩
  case run =>
    simp only [cc0__pre_kernel_eq_skeleton]; unfold cc0__pre_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Hand

end
-- ==== Proof.KI.Pre.lean ====
/-
  The Gram call, one grid point at a time, with the scratch buffer it carries between points.

  Eight points. Every point loads its block of 512 rows of `fix` and forms the block's Gram product. Point 0 stores it
  into the scratch; points 1 to 7 add it to what the scratch holds; point 7 then reads the scratch back and stores the two
  results. What the scratch holds after point n is therefore a recursion on n, and the call's invariant between points
  says exactly that: the scratch at the recursion's value for the point before (at anything before point 0), the other
  scoped buffers at some contents, the generator register at some state. The two output windows are stored at point 7
  only: at the other points the body hands their buffers back untouched and nothing is written back from them.
-/
import proofs.«133251_g52209622450808_cont_9to1_m_767_7_alg».proof.Proof.KI.PreRunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

/-! ## What each case leaves in the scratch and in the outputs -/

/-- The first point's pieces for the scratch cover it: one store of the whole buffer. -/
theorem scover0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) (y : S1024x1024.Idx) :
    ∃ pc ∈ (kernelRun0_A c i arg1 harg1 arg2 harg2 arg3 harg3 arg4 harg4 arg5 harg5 arg6 harg6 arg7 harg7 hc0 hc1 hc2 x0).1, y ∈ pc.1.set :=
  View.cover_of_tiledL (kernelRun0_A c i arg1 harg1 arg2 harg2 arg3 harg3 arg4 harg4 arg5 harg5 arg6 harg6 arg7 harg7 hc0 hc1 hc2 x0).1 S1024x1024.size (by sl_kernel_rfl) y

/-- What the first point leaves in the scratch: its pieces read back. -/
def sout0_A_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) : Vec F S1024x1024 .f32 :=
  VS0_0.read (Elt F) (VS0_0.writes (Elt F) VS0_0.junk (kernelRun0_A c i arg1 harg1 arg2 harg2 arg3 harg3 arg4 harg4 arg5 harg5 arg6 harg6 arg7 harg7 hc0 hc1 hc2 x0).1)

/-- A middle point's pieces for the scratch cover it: one store of the whole buffer. -/
theorem scover0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (xs0 : Vec F S1024x1024 .f32) (y : S1024x1024.Idx) :
    ∃ pc ∈ (kernelRun0_B c i arg1 harg1 arg2 harg2 arg3 harg3 arg4 harg4 arg5 harg5 arg6 harg6 arg7 harg7 hc0 hc1 hc2 x0 xs0).1, y ∈ pc.1.set :=
  View.cover_of_tiledL (kernelRun0_B c i arg1 harg1 arg2 harg2 arg3 harg3 arg4 harg4 arg5 harg5 arg6 harg6 arg7 harg7 hc0 hc1 hc2 x0 xs0).1 S1024x1024.size (by sl_kernel_rfl) y

/-- What a middle point leaves in the scratch: its pieces read back. -/
def sout0_B_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (xs0 : Vec F S1024x1024 .f32) : Vec F S1024x1024 .f32 :=
  VS0_0.read (Elt F) (VS0_0.writes (Elt F) VS0_0.junk (kernelRun0_B c i arg1 harg1 arg2 harg2 arg3 harg3 arg4 harg4 arg5 harg5 arg6 harg6 arg7 harg7 hc0 hc1 hc2 x0 xs0).1)

/-- The last point's pieces for output 4 cover its block: one store of the whole block. -/
theorem cover0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).1, y ∈ pc.1.set :=
  View.cover_of_tiledL (kernelRun0_C c i arg1 harg1 arg2 harg2 arg3 harg3 arg4 harg4 arg5 harg5 arg6 harg6 arg7 harg7 hc0 hc1 hc2 x0 x1 x2 x3 xs0).1 S1024x256.size (by sl_kernel_rfl) y

/-- What the last point leaves in output 4's staging buffer: its pieces read back. -/
def out0_C_4 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_4.read (Elt F) (VO0_4.writes (Elt F) VO0_4.junk (kernelRun0_C c i arg1 harg1 arg2 harg2 arg3 harg3 arg4 harg4 arg5 harg5 arg6 harg6 arg7 harg7 hc0 hc1 hc2 x0 x1 x2 x3 xs0).1)

/-- The last point's pieces for output 5 cover its block: one store of the whole block. -/
theorem cover0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x256.Idx) :
    ∃ pc ∈ (kernelRun0_C c i arg1 harg1 arg2 harg2 arg3 harg3 arg4 harg4 arg5 harg5 arg6 harg6 arg7 harg7 hc0 hc1 hc2 x0 x1 x2 x3 xs0).2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.1 S1024x256.size (by sl_kernel_rfl) y

/-- What the last point leaves in output 5's staging buffer: its pieces read back. -/
def out0_C_5 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x256 .f32 :=
  VO0_5.read (Elt F) (VO0_5.writes (Elt F) VO0_5.junk (kernelRun0_C c i arg1 harg1 arg2 harg2 arg3 harg3 arg4 harg4 arg5 harg5 arg6 harg6 arg7 harg7 hc0 hc1 hc2 x0 x1 x2 x3 xs0).2.1)

/-- The last point's pieces for the scratch cover it. -/
theorem scover0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) (y : S1024x1024.Idx) :
    ∃ pc ∈ (kernelRun0_C c i arg1 harg1 arg2 harg2 arg3 harg3 arg4 harg4 arg5 harg5 arg6 harg6 arg7 harg7 hc0 hc1 hc2 x0 x1 x2 x3 xs0).2.2.1, y ∈ pc.1.set :=
  View.cover_of_tiledL (kernelRun0_C c i arg1 harg1 arg2 harg2 arg3 harg3 arg4 harg4 arg5 harg5 arg6 harg6 arg7 harg7 hc0 hc1 hc2 x0 x1 x2 x3 xs0).2.2.1 S1024x1024.size (by sl_kernel_rfl) y

/-- What the last point leaves in the scratch: its pieces read back. -/
def sout0_C_0 (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) : Vec F S1024x1024 .f32 :=
  VS0_0.read (Elt F) (VS0_0.writes (Elt F) VS0_0.junk (kernelRun0_C c i arg1 harg1 arg2 harg2 arg3 harg3 arg4 harg4 arg5 harg5 arg6 harg6 arg7 harg7 hc0 hc1 hc2 x0 x1 x2 x3 xs0).2.2.1)

/-- The contents named for an output at a point where nothing is stored into it and it is not written back: nothing
    consults them. -/
def idleOut0 : Vec F S1024x256 .f32 := VO0_4.read (Elt F) VO0_4.junk

/-! ## What the outputs and the scratch hold after each point -/

/-- THE ACCUMULATION: what output 4's buffer, output 5's buffer and the scratch hold after the body at position `n`.
    Point 0 stores the first block's product into the scratch; a later point adds its block's product to what the point
    before left; the last point then also fills both outputs. -/
def outsAt0 (c : Dev nD) : (n : ℕ) → n < cfg0.N → Vec F S1024x256 .f32 × Vec F S1024x256 .f32 × Vec F S1024x1024 .f32
  | 0, hn => (idleOut0, idleOut0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (fun h => (hcond0_1 ⟨0, hn⟩).mp h rfl) (fun h => (fun h => by (try dsimp only at h); omega) ((hcond0_2 ⟨0, hn⟩).mp h)) (iblk0 V c 0 ⟨0, hn⟩))
  | n + 1, hn =>
    if h2 : n + 1 = 7 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
    else
      (idleOut0, idleOut0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) ((hcond0_1 ⟨n + 1, hn⟩).mpr (Nat.succ_ne_zero n)) (fun h => h2 ((hcond0_2 ⟨n + 1, hn⟩).mp h)) (iblk0 V c 0 ⟨n + 1, hn⟩) (outsAt0 c n (Nat.lt_of_succ_lt hn)).2.2)

/-- `outsAt0` at the first point. -/
theorem outsAt0_A (c : Dev nD) (t : Fin cfg0.N) (h0 : t.val = 0) :
    outsAt0 V c t.val t.isLt = (idleOut0, idleOut0, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => (hcond0_1 t).mp h h0) (fun h => (fun h => by omega) ((hcond0_2 t).mp h)) (iblk0 V c 0 t)) := by
  obtain ⟨n, hn⟩ := t
  cases n with
  | zero => exact rfl
  | succ n => exact absurd h0 (Nat.succ_ne_zero n)

/-- `outsAt0` at a middle point: over what the point before left in the scratch. -/
theorem outsAt0_B (c : Dev nD) (t : Fin cfg0.N) (h0 : ¬t.val = 0) (h2 : ¬t.val = 7) :
    outsAt0 V c t.val t.isLt = (idleOut0, idleOut0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact absurd rfl h0
  | succ n => exact (dif_neg h2).trans rfl

/-- `outsAt0` at the last point: over what the point before left in the scratch. -/
theorem outsAt0_C (c : Dev nD) (t : Fin cfg0.N) (h0 : ¬t.val = 0) (h2 : t.val = 7) :
    outsAt0 V c t.val t.isLt =
      (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h0) ((hcond0_2 t).mpr h2) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact absurd rfl h0
  | succ n => exact (dif_pos h2).trans rfl

/-! ## The region invariant with the carried scratch -/

/-- The invariant before position `n`: before the first point the class's (every scoped buffer at anything); afterwards
    the scratch at what the point before left in it, the eight other scoped buffers at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ rest0 (F := F) c) ∗ (∃ r, prngReg c r)) := by
  cases n with
  | zero => exact absurd rfl hz
  | succ n => rfl

/-! ## The pipeline's proof data -/

/-- The proof data of region 0 on core `c`: the arrays as the region finds them; after the body at point `t` each input's
    buffer at its block, the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the closed forms of the conditions say which of the three
    cases the point is in, and that case's run applies. The invariant hands the body the scratch — at anything before the
    first point, at what the point before left afterwards — and takes it back at this point's contents, the pieces the run
    found covering it; the eight other scoped buffers and the generator register pass through. Off the last point the
    outputs' buffers are handed back as found (idle, not written back); at the last point each is covered by its one store. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val = 0
  · have hn2 : ¬cond0_2 (grid0.coords t) := fun h => (fun h => by omega) ((hcond0_2 t).mp h)
    rw [Dat.leavesExact_idle (dat0 V c) 4 t (idleAt0_4 t hn2) (noFlush0_4 t hn2)]
    rw [Dat.leavesExact_idle (dat0 V c) 5 t (idleAt0_5 t hn2) (noFlush0_5 t hn2)]
    rw [outsAt0_A V c t h0]
    unfold sout0_A_0; (try dsimp only)
    rw [PhiS0_castSucc V c t, PhiS0_zero V c _ _ h0, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => (hcond0_1 t).mp h h0) hn2 (iblk0 V c 0 t)).2 Set.univ _)
    isplitl [H0]; · iexact H0
    isplitl [HS0]; · iexact HS0
    iintro ⟨H0, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h2 : t.val = 7
    · have hc2 : cond0_2 (grid0.coords t) := (hcond0_2 t).mpr h2
      rw [show (dat0 V c).leavesExact 4 t = owns (c : Thread nD τ) (ms0_4 t) fullShare ((dat0 V c).after 4 t) from by
        unfold Dat.leavesExact; rw [liveAt0_4 t hc2], after0_4]
      rw [show (dat0 V c).leavesExact 5 t = owns (c : Thread nD τ) (ms0_5 t) fullShare ((dat0 V c).after 5 t) from by
        unfold Dat.leavesExact; rw [liveAt0_5 t hc2], after0_5]
      rw [outsAt0_C V c t h0 h2]
      unfold out0_C_4 out0_C_5 sout0_C_0; (try dsimp only)
      rw [PhiS0_castSucc V c t, PhiS0_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h0) hc2 (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _)
    · have hn2 : ¬cond0_2 (grid0.coords t) := fun h => h2 ((hcond0_2 t).mp h)
      rw [Dat.leavesExact_idle (dat0 V c) 4 t (idleAt0_4 t hn2) (noFlush0_4 t hn2)]
      rw [Dat.leavesExact_idle (dat0 V c) 5 t (idleAt0_5 t hn2) (noFlush0_5 t hn2)]
      rw [outsAt0_B V c t h0 h2]
      unfold sout0_B_0; (try dsimp only)
      rw [PhiS0_castSucc V c t, PhiS0_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) ((hcond0_1 t).mpr h0) hn2 (iblk0 V c 0 t) _).2 Set.univ _)
      isplitl [H0]; · iexact H0
      isplitl [HS0]; · iexact HS0
      iintro ⟨H0, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

/-! ## The running sum the scratch carries -/

/-- the scratch after point n: the chunk's Gram product at 0, the running sum afterwards -/
def sAt (c : Dev nD) : (n : ℕ) → n < cfg0.N → Vec F S1024x1024 .f32
  | 0, hn => k0_pay2 (iblk0 V c 0 ⟨0, hn⟩)
  | n + 1, hn => k0_pay3 (iblk0 V c 0 ⟨n + 1, hn⟩) (sAt c n (Nat.lt_of_succ_lt hn))

end Cert.KernelIdeal.Hand

end
-- ==== Proof.KI.Run.lean ====
/-
  The run of @main: a host stretch of two reshapes, then the two calls.

  Between segments a core holds every unscoped buffer at named contents: the launch contents; after the reshapes those with
  the two bias rows written; after the first call its two result arrays at what its write-backs leave and everything
  else as before; after the second call the result array likewise. Each call is entered from the state before it and
  left at the state after it: its arrays are split out of the unscoped buffers and put back at their final contents, the
  generator register goes into the call's invariant and comes back, nothing is owed to another core. So every weakly
  fair execution terminates with every unscoped buffer at the last contents; and since no segment writes an argument,
  each argument array reads back through the three steps to its launch contents.
-/
import proofs.«133251_g52209622450808_cont_9to1_m_767_7_alg».proof.Proof.Gen.KernelIdeal.Launch
import proofs.«133251_g52209622450808_cont_9to1_m_767_7_alg».proof.Proof.Gen.KernelIdeal.Skeleton
import proofs.«133251_g52209622450808_cont_9to1_m_767_7_alg».proof.Proof.Gen.KernelIdeal.Points
import proofs.«133251_g52209622450808_cont_9to1_m_767_7_alg».proof.Proof.Gen.KernelIdeal.Regions
import proofs.«133251_g52209622450808_cont_9to1_m_767_7_alg».proof.Proof.KI.Attn
import proofs.«133251_g52209622450808_cont_9to1_m_767_7_alg».proof.Proof.KI.Pre
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! # The run of @main: the host stretch, region 0, region 1

## The buffer contents at each segment boundary: a fold from the launch memory -/

/-- Core `c`'s buffers at launch. -/
abbrev W0 : Dev nD → Valuation τ sig (Elt F) := fun c b => m (c, b)
/-- After the two reshapes (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b

/-- A reference neither reshape writes holds its launch contents at region 0's entry. -/
theorem V1_of_arg (c : Dev nD) (b : Ref sig .tc) (hb : b ≠ main_v0 ∧ b ≠ main_v1) : V1 m c b = m ((c : Thread nD τ).loc b) :=
  StableHlo.after_of_writes_sub hostOps0 _ hostOps0_writes (by
    intro h
    rcases List.mem_cons.mp h with h | h
    · exact hb.1 h
    · exact hb.2 (List.mem_singleton.mp h))

/-- The first reshape's result: the bias of the query projection, its 256 entries as one row. -/
theorem V1_main_v0 (c : Dev nD) : V1 m c main_v0 = shapeCast S1x256 (m ((c : Thread nD τ).loc main_arg4)) shapeCasts_S256_S1x256 := by
  dsimp only [V1, W1, W0, hostOps0]; after_results; rfl
/-- The second reshape's result: the bias of the key projection, its 256 entries as one row. -/
theorem V1_main_v1 (c : Dev nD) : V1 m c main_v1 = shapeCast S1x256 (m ((c : Thread nD τ).loc main_arg6)) shapeCasts_S256_S1x256 := by
  dsimp only [V1, W1, W0, hostOps0]; after_results; rfl

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents, which region 1 is entered from: no host
    operation stands between the two regions). -/
abbrev V2 : (c : Dev nD) → (b : Ref sig .tc) → Buf (Elt F) ((c : Thread nD τ).loc b) := fun c b => W2 m c b
/-- At region 0's exit each of its arrays holds what the pipeline leaves, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. Nothing follows it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### What the regions leave in the buffers the next stage reads -/

/-- The output array holds what region 1's write-backs leave. -/
theorem W3_main_v3 (c : Dev nD) : W3 m c (Proc.devRef .tc main_v3) = (dat1 (V2 m) c).arrAt 5 cfg1.N := W3_arr m c 5
/-- Region 1 finds the mixed rows and the keys as region 0's write-backs leave them. -/
theorem V2_main_v2_0 (c : Dev nD) : V2 m c main_v2_0 = (dat0 (V1 m) c).arrAt 4 cfg0.N := W2_arr m c 4
theorem V2_main_v2_1 (c : Dev nD) : V2 m c main_v2_1 = (dat0 (V1 m) c).arrAt 5 cfg0.N := W2_arr m c 5
/-- A buffer that is no array of region 0 is found by region 1 as region 0 found it. -/
theorem V2_of_arg (c : Dev nD) (b : Ref sig .tc) (hb : ∀ w, Pipeline.arrRef spec0 w ≠ b) : V2 m c b = V1 m c b := W2_of_ne m c b hb

/-! ### The arguments end as launched: neither reshape writes one, and a region reads it through an input window
    (whose array the pipeline leaves as entered) or bypasses it -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = m ((c : Thread nD τ).loc main_arg0) := V1_of_arg m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := V1_of_arg m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 0).trans (((dat0 (V1 m) c).arrAt_in 0 rfl _).trans (A_eq0 (V1 m) c 0))
    _ = m ((c : Thread nD τ).loc main_arg2) := V1_of_arg m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 1).trans (((dat1 (V2 m) c).arrAt_in 1 rfl _).trans (A_eq1 (V2 m) c 1))
    _ = W1 m c (Proc.devRef .tc main_arg3) := W2_of_ne m c main_arg3 (by decide)
    _ = m ((c : Thread nD τ).loc main_arg3) := V1_of_arg m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := V1_of_arg m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 2).trans (((dat0 (V1 m) c).arrAt_in 2 rfl _).trans (A_eq0 (V1 m) c 2))
    _ = m ((c : Thread nD τ).loc main_arg5) := V1_of_arg m c main_arg5 (by decide)
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := V1_of_arg m c main_arg6 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 over the thread state: entered from every unscoped buffer at `W1`, left at `W2`. Its arrays split out of
    the unscoped buffers and put back at the exit contents; the generator register and the scoped buffers no window stages
    (the carried scratch among them) into the kernel's invariant at the first point and out of it at the last; nothing
    owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads at
    the end). The generator register into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two regions back to back. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main IS the run of the segments. -/
theorem main_run (c : Dev nD) : main (F := F) c = Pipeline.Seg.run (segs m) := (main_chain c).trans (by chain_rfl)

set_option backward.isDefEq.respectTransparency.types false in
/-- Every weakly fair execution of @main from memory `m` with zero counters ends, nothing faulting, and every unscoped
    buffer then holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME at any `F`: every weakly fair execution of @main ends and every final state has the seven argument arrays
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.KernelIdeal.Hand
end
-- ==== Proof.KI.PreArr.lean ====
/-
  The two results of the Gram call as functions of the contents it was entered with.

  Each piece a case's run found is the skeleton's payload of the blocks it loaded. The scratch component of the
  point-by-point contents is the recursion `sAt` — the first chunk's Gram product, then each later chunk's added — by
  induction on the point. Each output window is ONE block, the whole array, written back once, at point 7: so each
  result array after the call is the payload stored there, of the last scratch contents and the whole input arrays.
-/
import proofs.«133251_g52209622450808_cont_9to1_m_767_7_alg».proof.Proof.KI.Pre
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when a region is entered (the parameter each region's half is stated at)
variable (V : (c : Dev nD) → (b : Ref sig .tc) → Buf (Elt F) ((c : Thread nD τ).loc b))

/-! ## The found pieces, read as values -/

theorem hz0 : (![0, 0] : Fin 2 → Nat) = fun _ => 0 := funext fun a => by fin_cases a <;> rfl

/-- The first point leaves the block's Gram product in the scratch: its one covering store's payload over the loaded block. -/
theorem sout0_A_0_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : cond0_0 i) (hc1 : ¬cond0_1 i) (hc2 : ¬cond0_2 i)
    (x0 : Vec F S512x1024 .f32) :
    sout0_A_0 c i arg1 harg1 arg2 harg2 arg3 harg3 arg4 harg4 arg5 harg5 arg6 harg6 arg7 harg7 hc0 hc1 hc2 x0 = k0_pay2 x0 := by
  unfold sout0_A_0
  rw [View.read_writes_eq_canon _ _ _ (scover0_A_0 c i arg1 harg1 arg2 harg2 arg3 harg3 arg4 harg4 arg5 harg5 arg6 harg6 arg7 harg7 hc0 hc1 hc2 x0)]
  unfold kernelRun0_A
  dsimp only
  sl_unfold_words
  rw [View.canon_unit_zero hz0]
  simp only [View.readAt_eq_ld, harg1.read_unread, View.ld_unit_zero (S := S512x1024) hz0]

/-- A middle point leaves, in the scratch holding `xs0`, `xs0` plus the block's Gram product. -/
theorem sout0_B_0_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : ¬cond0_2 i)
    (x0 : Vec F S512x1024 .f32) (xs0 : Vec F S1024x1024 .f32) :
    sout0_B_0 c i arg1 harg1 arg2 harg2 arg3 harg3 arg4 harg4 arg5 harg5 arg6 harg6 arg7 harg7 hc0 hc1 hc2 x0 xs0 = k0_pay3 x0 xs0 := by
  unfold sout0_B_0
  rw [View.read_writes_eq_canon _ _ _ (scover0_B_0 c i arg1 harg1 arg2 harg2 arg3 harg3 arg4 harg4 arg5 harg5 arg6 harg6 arg7 harg7 hc0 hc1 hc2 x0 xs0)]
  unfold kernelRun0_B
  dsimp only
  sl_unfold_words
  rw [View.canon_unit_zero hz0]
  simp only [View.readAt_eq_ld, harg1.read_unread, harg7.read_unread, View.ld_unit_zero (S := S512x1024) hz0, View.ld_unit_zero (S := S1024x1024) hz0]

/-- The last point leaves the same update in the scratch. -/
theorem sout0_C_0_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    sout0_C_0 c i arg1 harg1 arg2 harg2 arg3 harg3 arg4 harg4 arg5 harg5 arg6 harg6 arg7 harg7 hc0 hc1 hc2 x0 x1 x2 x3 xs0 = k0_pay3 x0 xs0 := by
  unfold sout0_C_0
  rw [View.read_writes_eq_canon _ _ _ (scover0_C_0 c i arg1 harg1 arg2 harg2 arg3 harg3 arg4 harg4 arg5 harg5 arg6 harg6 arg7 harg7 hc0 hc1 hc2 x0 x1 x2 x3 xs0)]
  unfold kernelRun0_C
  dsimp only
  sl_unfold_words
  rw [View.canon_unit_zero hz0]
  simp only [View.readAt_eq_ld, harg1.read_unread, harg7.read_unread, View.ld_unit_zero (S := S512x1024) hz0, View.ld_unit_zero (S := S1024x1024) hz0]

/-- The last point leaves in output 4 the mixing payload of the UPDATED scratch — read back after its store — and of `other`. -/
theorem out0_C_4_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    out0_C_4 c i arg1 harg1 arg2 harg2 arg3 harg3 arg4 harg4 arg5 harg5 arg6 harg6 arg7 harg7 hc0 hc1 hc2 x0 x1 x2 x3 xs0 = k0_pay4 (k0_pay3 x0 xs0) x1 := by
  unfold out0_C_4
  rw [View.read_writes_eq_canon _ _ _ (cover0_C_4 c i arg1 harg1 arg2 harg2 arg3 harg3 arg4 harg4 arg5 harg5 arg6 harg6 arg7 harg7 hc0 hc1 hc2 x0 x1 x2 x3 xs0)]
  unfold kernelRun0_C
  dsimp only
  sl_unfold_words
  rw [View.canon_unit_zero hz0]
  simp only [View.readAt_eq_ld, harg1.read_unread, harg2.read_unread, harg7.read_unread, View.readCov_unit_zero (S := S1024x1024) _ hz0, View.ld_unit_zero (S := S512x1024) hz0, View.ld_unit_zero (S := S1024x1024) hz0, View.ld_unit_zero (S := S1024x256) hz0]

/-- The last point leaves in output 5 the projection payload of `other`, the weight and the bias row. -/
theorem out0_C_5_eq (c : Dev nD) (i : grid0.Coords) (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1024 .f32) (harg7 : arg7.IsWhole) (hc0 : ¬cond0_0 i) (hc1 : cond0_1 i) (hc2 : cond0_2 i)
    (x0 : Vec F S512x1024 .f32) (x1 : Vec F S1024x256 .f32) (x2 : Vec F S256x256 .f32) (x3 : Vec F S1x256 .f32) (xs0 : Vec F S1024x1024 .f32) :
    out0_C_5 c i arg1 harg1 arg2 harg2 arg3 harg3 arg4 harg4 arg5 harg5 arg6 harg6 arg7 harg7 hc0 hc1 hc2 x0 x1 x2 x3 xs0 = k0_pay5 x1 x2 x3 := by
  unfold out0_C_5
  rw [View.read_writes_eq_canon _ _ _ (cover0_C_5 c i arg1 harg1 arg2 harg2 arg3 harg3 arg4 harg4 arg5 harg5 arg6 harg6 arg7 harg7 hc0 hc1 hc2 x0 x1 x2 x3 xs0)]
  unfold kernelRun0_C
  dsimp only
  sl_unfold_words
  rw [View.canon_unit_zero hz0]
  simp only [View.readAt_eq_ld, harg2.read_unread, harg3.read_unread, harg4.read_unread, View.ld_unit_zero (S := S1024x256) hz0, View.ld_unit_zero (S := S256x256) hz0, View.ld_unit_zero (S := S1x256) hz0]

/-! ## The scratch is the running sum -/

/-- What the scratch holds after point `n` is the running sum: by induction on the point. -/
theorem scratch_eq (c : Dev nD) : ∀ (n : ℕ) (h : n < cfg0.N), (outsAt0 V c n h).2.2 = sAt V c n h
  | 0, h => by
    rw [outsAt0_A V c ⟨0, h⟩ rfl]; dsimp only
    exact sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ _ (iblk0 V c 0 ⟨0, h⟩)
  | n + 1, h => by
    have h0 : ¬(⟨n + 1, h⟩ : Fin cfg0.N).val = 0 := Nat.succ_ne_zero n
    by_cases h2 : (⟨n + 1, h⟩ : Fin cfg0.N).val = 7
    · rw [outsAt0_C V c ⟨n + 1, h⟩ h0 h2]; dsimp only
      rw [sout0_C_0_eq]
      show k0_pay3 _ (outsAt0 V c n _).2.2 = k0_pay3 _ (sAt V c n _)
      rw [scratch_eq c n]
    · rw [outsAt0_B V c ⟨n + 1, h⟩ h0 h2]; dsimp only
      rw [sout0_B_0_eq]
      show k0_pay3 _ (outsAt0 V c n _).2.2 = k0_pay3 _ (sAt V c n _)
      rw [scratch_eq c n]

/-! ## The outputs' arrays -/

/-- The last point. -/
theorem t7_lt : 7 < cfg0.N := by rw [show cfg0.N = 8 from N_0]; decide

/-- A whole-array window's block is the array: windows 1, 2, 3 read their arrays through zero offsets. -/
theorem iblk0_1_eq (c : Dev nD) (t : Fin cfg0.N) : (iblk0 V c 1 t : Vec F S1024x256 .f32) = V c main_arg1 := by
  have hz' : (fun a => win0_1.index t a * main_arg1.ty.shape.size a) = fun _ => 0 := funext fun a => by
    rcases fin_N0 t with rfl | rfl | rfl | rfl | rfl | rfl | rfl | rfl <;> fin_cases a <;> decide
  exact Memref.read_access_unit_zero (Elt F) main_arg1 hz' (fun a => by rw [congrFun hz' a]; simp) (V c main_arg1)
theorem iblk0_2_eq (c : Dev nD) (t : Fin cfg0.N) : (iblk0 V c 2 t : Vec F S256x256 .f32) = V c main_arg5 := by
  have hz' : (fun a => win0_2.index t a * main_arg5.ty.shape.size a) = fun _ => 0 := funext fun a => by
    rcases fin_N0 t with rfl | rfl | rfl | rfl | rfl | rfl | rfl | rfl <;> fin_cases a <;> decide
  exact Memref.read_access_unit_zero (Elt F) main_arg5 hz' (fun a => by rw [congrFun hz' a]; simp) (V c main_arg5)
theorem iblk0_3_eq (c : Dev nD) (t : Fin cfg0.N) : (iblk0 V c 3 t : Vec F S1x256 .f32) = V c main_v1 := by
  have hz' : (fun a => win0_3.index t a * main_v1.ty.shape.size a) = fun _ => 0 := funext fun a => by
    rcases fin_N0 t with rfl | rfl | rfl | rfl | rfl | rfl | rfl | rfl <;> fin_cases a <;> decide
  exact Memref.read_access_unit_zero (Elt F) main_v1 hz' (fun a => by rw [congrFun hz' a]; simp) (V c main_v1)

theorem sAt_succ (c : Dev nD) (n : ℕ) (h : n + 1 < cfg0.N) :
    sAt V c (n + 1) h = k0_pay3 (iblk0 V c 0 ⟨n + 1, h⟩) (sAt V c n (Nat.lt_of_succ_lt h)) := rfl

/-- What the last point leaves in output 4's buffer: the mixing payload of the full running sum and `other`. -/
theorem last0_4 (c : Dev nD) : (outsAt0 V c t0_7.val t0_7.isLt).1 = k0_pay4 (sAt V c 7 t7_lt) (V c main_arg1) := by
  rw [outsAt0_C V c t0_7 (by decide) rfl]; dsimp only
  rw [out0_C_4_eq, iblk0_1_eq, scratch_eq]
  exact congrArg (fun s => k0_pay4 s (V c main_arg1)) (sAt_succ V c 6 t7_lt).symm

/-- What the last point leaves in output 5's buffer: the projection payload of `other`, the weight and the bias row. -/
theorem last0_5 (c : Dev nD) : (outsAt0 V c t0_7.val t0_7.isLt).2.1 = k0_pay5 (V c main_arg1) (V c main_arg5) (V c main_v1) := by
  rw [outsAt0_C V c t0_7 (by decide) rfl]; dsimp only
  rw [out0_C_5_eq, iblk0_1_eq, iblk0_2_eq, iblk0_3_eq]

/-- Output 4 has ONE block, the whole array: every index of the array lies in the block the last point writes back. -/
theorem mem_blk0_4 (i : S1024x256.Idx) : i ∈ ((cfg0.win 4).blk t0_7).view.set := by
  show i ∈ ((View.whole main_v2_0).slice (win0_4.rect t0_7)).set
  rw [View.set_slice_whole, Rect.mem_set_unit]
  intro a
  have h0 : (i 0 : Nat) < 1024 := (i 0).isLt
  have h1 : (i 1 : Nat) < 256 := (i 1).isLt
  match a with
  | ⟨0, _⟩ =>
    show win0_4.index t0_7 0 * win0_4.size 0 ≤ (i 0 : Nat) ∧ (i 0 : Nat) < win0_4.index t0_7 0 * win0_4.size 0 + win0_4.xsize (grid0.coords t0_7) 0
    rw [show win0_4.index t0_7 0 * win0_4.size 0 = 0 from by decide +kernel, show win0_4.xsize (grid0.coords t0_7) 0 = 1024 from by decide +kernel]
    omega
  | ⟨1, _⟩ =>
    show win0_4.index t0_7 1 * win0_4.size 1 ≤ (i 1 : Nat) ∧ (i 1 : Nat) < win0_4.index t0_7 1 * win0_4.size 1 + win0_4.xsize (grid0.coords t0_7) 1
    rw [show win0_4.index t0_7 1 * win0_4.size 1 = 0 from by decide +kernel, show win0_4.xsize (grid0.coords t0_7) 1 = 256 from by decide +kernel]
    omega

/-- Output 5 has ONE block, the whole array: every index of the array lies in the block the last point writes back. -/
theorem mem_blk0_5 (i : S1024x256.Idx) : i ∈ ((cfg0.win 5).blk t0_7).view.set := by
  show i ∈ ((View.whole main_v2_1).slice (win0_5.rect t0_7)).set
  rw [View.set_slice_whole, Rect.mem_set_unit]
  intro a
  have h0 : (i 0 : Nat) < 1024 := (i 0).isLt
  have h1 : (i 1 : Nat) < 256 := (i 1).isLt
  match a with
  | ⟨0, _⟩ =>
    show win0_5.index t0_7 0 * win0_5.size 0 ≤ (i 0 : Nat) ∧ (i 0 : Nat) < win0_5.index t0_7 0 * win0_5.size 0 + win0_5.xsize (grid0.coords t0_7) 0
    rw [show win0_5.index t0_7 0 * win0_5.size 0 = 0 from by decide +kernel, show win0_5.xsize (grid0.coords t0_7) 0 = 1024 from by decide +kernel]
    omega
  | ⟨1, _⟩ =>
    show win0_5.index t0_7 1 * win0_5.size 1 ≤ (i 1 : Nat) ∧ (i 1 : Nat) < win0_5.index t0_7 1 * win0_5.size 1 + win0_5.xsize (grid0.coords t0_7) 1
    rw [show win0_5.index t0_7 1 * win0_5.size 1 = 0 from by decide +kernel, show win0_5.xsize (grid0.coords t0_7) 1 = 256 from by decide +kernel]
    omega

/-- The one write-back of output 4, at the last point, writes the whole array at that value. -/
theorem flushed0_4 (c : Dev nD) (t : Fin cfg0.N) (hf : (cfg0.win 4).flush t = true) :
    (dat0 V c).flushed 4 t = ((cfg0.win 4).blk t).view.read (Elt F) (k0_pay4 (sAt V c 7 t7_lt) (V c main_arg1) : Buf (Elt F) ((c : Thread nD τ).loc main_v2_0)) := by
  have hN : cfg0.N = 8 := N_0
  have h7 : t.val = 7 := by have := (flush0_4 t).mp hf; have := t.isLt; omega
  obtain rfl : t = t0_7 := Fin.ext h7
  show (cfg0.win 4).cut (grid0.coords t0_7) ((dat0 V c).after 4 t0_7) = _
  rw [after0_4, last0_4]
  have hz' : (fun a => win0_4.index t0_7 a * main_v2_0.ty.shape.size a) = fun _ => 0 := funext fun a => by fin_cases a <;> decide
  exact (Memref.read_access_unit_zero (Elt F) main_v2_0 hz' (fun a => by rw [congrFun hz' a]; simp) _).symm

/-- The one write-back of output 5, at the last point, writes the whole array at that value. -/
theorem flushed0_5 (c : Dev nD) (t : Fin cfg0.N) (hf : (cfg0.win 5).flush t = true) :
    (dat0 V c).flushed 5 t = ((cfg0.win 5).blk t).view.read (Elt F) (k0_pay5 (V c main_arg1) (V c main_arg5) (V c main_v1) : Buf (Elt F) ((c : Thread nD τ).loc main_v2_1)) := by
  have hN : cfg0.N = 8 := N_0
  have h7 : t.val = 7 := by have := (flush0_5 t).mp hf; have := t.isLt; omega
  obtain rfl : t = t0_7 := Fin.ext h7
  show (cfg0.win 5).cut (grid0.coords t0_7) ((dat0 V c).after 5 t0_7) = _
  rw [after0_5, last0_5]
  have hz' : (fun a => win0_5.index t0_7 a * main_v2_1.ty.shape.size a) = fun _ => 0 := funext fun a => by fin_cases a <;> decide
  exact (Memref.read_access_unit_zero (Elt F) main_v2_1 hz' (fun a => by rw [congrFun hz' a]; simp) _).symm

/-- After the region output 4's array holds the mixing payload of the running sum over all eight chunks and `other`. -/
theorem arr0_4 (c : Dev nD) : (dat0 V c).arrAt 4 cfg0.N = k0_pay4 (sAt V c 7 (by rw [show cfg0.N = 8 from N_0]; decide)) (V c main_arg1) :=
  (dat0 V c).arrAt_eq_of_cover 4 (k0_pay4 (sAt V c 7 t7_lt) (V c main_arg1)) (flushed0_4 V c) fun i =>
    ⟨t0_7, (flush0_4 t0_7).mpr rfl, mem_blk0_4 i⟩

/-- After the region output 5's array holds the projection payload of `other`, the weight and the bias row. -/
theorem arr0_5 (c : Dev nD) : (dat0 V c).arrAt 5 cfg0.N = k0_pay5 (V c main_arg1) (V c main_arg5) (V c main_v1) :=
  (dat0 V c).arrAt_eq_of_cover 5 (k0_pay5 (V c main_arg1) (V c main_arg5) (V c main_v1)) (flushed0_5 V c) fun i =>
    ⟨t0_7, (flush0_5 t0_7).mpr rfl, mem_blk0_5 i⟩

end Cert.KernelIdeal.Hand

end
-- ==== Proof.KI.Blocks.lean ====
/-
  The blocks of the Gram kernel's first window are runs of 512 consecutive rows of the array it is cut from:
  block t, read at (r, a), is the array at row 512·t + r, column a.
-/
import proofs.«133251_g52209622450808_cont_9to1_m_767_7_alg».proof.Proof.KI.Pre
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The printed index map of window 0, decided over the grid: block row t, block column 0. -/
theorem idx0_0 : ∀ t : Fin cfg0.N, win0_0.index t (0 : Fin 2) = t.val ∧ win0_0.index t (1 : Fin 2) = 0 :=
  (by decide +kernel : ∀ t : Fin grid0.N, _)

/-- Block t of the first window at (r, a) is the array at (512·t + r, a). -/
theorem fixBlock_apply (c : Dev nD) (t : Fin cfg0.N) (r : Fin 512) (a : Fin 1024) :
    iblk0 V c 0 t (ix2 r a)
      = V c main_arg2 (ix2 (⟨t.val * 512 + r.val, by have := t.isLt; have h8 : cfg0.N = 8 := N_0; have := r.isLt; omega⟩ : Fin 4096) a) := by
  obtain ⟨e0, e1⟩ := idx0_0 t
  show V c main_arg2 (((cfg0.win 0).blk t).view.emb (ix2 r a)) = _
  congr 1
  funext ax; apply Fin.ext
  match ax with
  | ⟨0, _⟩ => show win0_0.index t (0 : Fin 2) * 512 + 1 * r.val = t.val * 512 + r.val; omega
  | ⟨1, _⟩ => show win0_0.index t (1 : Fin 2) * 1024 + 1 * a.val = a.val; omega

end Cert.KernelIdeal.Hand

end
-- ==== Proof.KI.Spec.lean ====
/-
  The two closed forms of the result, entry by entry, on the extended reals.

  Both programs compute  O = softmax(Q Kᵀ / 16) · (ff · other)  with  Q = main Wqᵀ + bq,  K = other Wkᵀ + bk,
  ff[a, b] = √(fixᵀ fix)[a, b] / Σ_a' √(fixᵀ fix)[a', b].  They differ in arrangement only:
  * the Gram matrix fixᵀ fix is summed whole (reference) or chunk by chunk over eight blocks of 512 rows (kernel);
  * the column normalisation divides the square root (reference) or the row of `other` it multiplies (kernel);
  * the logits are divided by 16 (reference) or multiplied by 1/16 (kernel);
  * the softmax's normalisation divides each weight (reference) or the weighted sum (kernel).
  `outR` is the reference's arrangement and `outK` the kernel's; that the two agree is the algebra's part.
-/
import Idealize.ShloMosaic.PureOps.Ideal
import Idealize.ShloMosaic.Lib.ValueIdx

noncomputable section

namespace Cert.Spec

open Idealize.ShloMosaic

/-- A rank-2 array read by its two coordinates, and a vector by its one. -/
def c2 {n0 n1 : Nat} (x : (⟨2, ![n0, n1]⟩ : Shape).Idx → EReal) : Fin n0 → Fin n1 → EReal := fun a b => x (ValueIdx.ix2 a b)
def c1 {n : Nat} (x : (⟨1, ![n]⟩ : Shape).Idx → EReal) : Fin n → EReal := fun a => x (ValueIdx.ix1 a)

/-- `X Wᵀ + b`, row by row. -/
def proj {n : Nat} (X : Fin n → Fin 256 → EReal) (W : Fin 256 → Fin 256 → EReal) (b : Fin 256 → EReal)
    (i : Fin n) (d : Fin 256) : EReal := (∑ k : Fin 256, X i k * W d k) + b d

/-- The logit before scaling: row `i` of Q against row `j` of K. -/
def score {n : Nat} (Q : Fin n → Fin 256 → EReal) (K : Fin 1024 → Fin 256 → EReal) (i : Fin n) (j : Fin 1024) : EReal :=
  ∑ d : Fin 256, Q i d * K j d

/-- The two spellings of the scale: the reference's divisor 16 and the kernel's factor 1/16, as their f32 words. -/
def sixteen : EReal := Ideal.ofBits .f32 0x41800000#32
def sixteenth : EReal := Ideal.ofBits .f32 0x3D800000#32

/-! ## The Gram matrix, whole and by chunks -/

/-- `(fixᵀ fix)[a, b]`, summed over all 4096 rows at once. -/
def gram (fx : Fin 4096 → Fin 1024 → EReal) (a b : Fin 1024) : EReal := ∑ r : Fin 4096, fx r a * fx r b

/-- Row `r` of chunk `n` (512 rows a chunk). -/
def chunkRow (n : Fin 8) (r : Fin 512) : Fin 4096 := ⟨n.val * 512 + r.val, by have := n.isLt; have := r.isLt; omega⟩

/-- Chunk `n`'s share of the Gram matrix. -/
def chunk (fx : Fin 4096 → Fin 1024 → EReal) (n : Fin 8) (a b : Fin 1024) : EReal :=
  ∑ r : Fin 512, fx (chunkRow n r) a * fx (chunkRow n r) b

/-- The running sum the kernel keeps: chunk 0, then each later chunk added on the right. -/
def gramAcc (fx : Fin 4096 → Fin 1024 → EReal) : (n : Nat) → n < 8 → Fin 1024 → Fin 1024 → EReal
  | 0, h => chunk fx ⟨0, h⟩
  | n + 1, h => fun a b => gramAcc fx n (Nat.lt_of_succ_lt h) a b + chunk fx ⟨n + 1, h⟩ a b

/-- The Gram matrix as the kernel accumulates it. -/
def gramK (fx : Fin 4096 → Fin 1024 → EReal) (a b : Fin 1024) : EReal := gramAcc fx 7 (by decide) a b

/-! ## The mixing matrix applied to `other` -/

def root (fx : Fin 4096 → Fin 1024 → EReal) (a b : Fin 1024) : EReal := Ideal.sqrt (gram fx a b)
def colsum (fx : Fin 4096 → Fin 1024 → EReal) (b : Fin 1024) : EReal := ∑ a : Fin 1024, root fx a b
/-- The reference: each square root divided by its column's sum, then the product with `other`. -/
def mixR (fx : Fin 4096 → Fin 1024 → EReal) (ot : Fin 1024 → Fin 256 → EReal) (a : Fin 1024) (d : Fin 256) : EReal :=
  ∑ b : Fin 1024, Ideal.div (root fx a b) (colsum fx b) * ot b d

def rootK (fx : Fin 4096 → Fin 1024 → EReal) (a b : Fin 1024) : EReal := Ideal.sqrt (gramK fx a b)
def colsumK (fx : Fin 4096 → Fin 1024 → EReal) (b : Fin 1024) : EReal := ∑ a : Fin 1024, rootK fx a b
/-- The kernel: each row of `other` divided by the column's sum, then the product with the square roots. -/
def mixK (fx : Fin 4096 → Fin 1024 → EReal) (ot : Fin 1024 → Fin 256 → EReal) (a : Fin 1024) (d : Fin 256) : EReal :=
  ∑ b : Fin 1024, rootK fx a b * Ideal.div (ot b d) (colsumK fx b)

/-! ## One row of the softmax-weighted sum -/

/-- A row's maximum, folded from `-∞`. -/
def rowMax (A : Fin 1024 → EReal) : EReal := (Finset.univ : Finset (Fin 1024)).fold max ⊥ A

/-- The reference: every weight normalised, then the weighted sum. -/
def softR (A : Fin 1024 → EReal) (om : Fin 1024 → Fin 256 → EReal) (d : Fin 256) : EReal :=
  ∑ j : Fin 1024, Ideal.div (Ideal.exp (A j - rowMax A)) (∑ j' : Fin 1024, Ideal.exp (A j' - rowMax A)) * om j d

/-- The kernel: the weighted sum, then one division by the weights' sum. -/
def softK (A : Fin 1024 → EReal) (om : Fin 1024 → Fin 256 → EReal) (d : Fin 256) : EReal :=
  Ideal.div (∑ j : Fin 1024, Ideal.exp (A j - rowMax A) * om j d) (∑ j' : Fin 1024, Ideal.exp (A j' - rowMax A))

/-! ## The result -/

/-- The reference's arrangement. -/
def outR (mn : Fin 10000 → Fin 256 → EReal) (ot : Fin 1024 → Fin 256 → EReal) (fx : Fin 4096 → Fin 1024 → EReal)
    (Wq : Fin 256 → Fin 256 → EReal) (bq : Fin 256 → EReal) (Wk : Fin 256 → Fin 256 → EReal) (bk : Fin 256 → EReal)
    (i : Fin 10000) (d : Fin 256) : EReal :=
  softR (fun j => Ideal.div (score (proj mn Wq bq) (proj ot Wk bk) i j) sixteen) (mixR fx ot) d

/-- The kernel's arrangement. -/
def outK (mn : Fin 10000 → Fin 256 → EReal) (ot : Fin 1024 → Fin 256 → EReal) (fx : Fin 4096 → Fin 1024 → EReal)
    (Wq : Fin 256 → Fin 256 → EReal) (bq : Fin 256 → EReal) (Wk : Fin 256 → Fin 256 → EReal) (bk : Fin 256 → EReal)
    (i : Fin 10000) (d : Fin 256) : EReal :=
  softK (fun j => score (proj mn Wq bq) (proj ot Wk bk) i j * sixteenth) (mixK fx ot) d

end Cert.Spec

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KI.AttnValue.lean ====
/-
  The attention kernel's payload read at an index, at the ideal values (every value an extended real).

  Row p of the block: q = x Wqᵀ + bq, the logits a_j = (q · K_j) · (1/16), their maximum m folded from -∞,
  the weights e_j = exp (a_j - m), the weighted sum o_d = Σ_j e_j V_{j d}, and the result o_d / Σ_j e_j.
  Each step is read at an index: a product of matrices as the sum over the contracted coordinate, a reduction
  along the lanes as the sum or the fold of max over the lane coordinate, a column kept as [a, 1] and broadcast
  back as the value of its row.
-/
import proofs.«133251_g52209622450808_cont_9to1_m_767_7_alg».proof.Proof.Gen.KernelIdeal.Skeleton
import proofs.«133251_g52209622450808_cont_9to1_m_767_7_alg».proof.Proof.KI.Spec
import proofs.«133251_g52209622450808_cont_9to1_m_767_7_alg».proof.Proof.LibRowLayers
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.HandValue

open Cert.KernelIdeal Cert.KernelIdeal.Gen Idealize.ShloMosaic ValueIdx

/-! ## The three products of matrices, each read at an index -/

/-- x · Wqᵀ: both operands contracted on their last axis. -/
theorem mmQ_apply (X : FVec Ideal S2000x256 .bf16) (W : FVec Ideal S256x256 .bf16) (p : Fin 2000) (d : Fin 256) :
    matmul dot_S2000x256_S256x256_S2000x256_1_1_0_0_n_n none X W (constant S2000x256 .f32 0x00000000#32) (ix2 p d)
      = ∑ k : Fin 256, X (ix2 p k) * W (ix2 d k) :=
  RowLayers.matmulT_apply (m := 2000) (k := 256) (n := 256) none X W p d

/-- q · Kᵀ: both operands contracted on their last axis. -/
theorem mmK_apply (Q : FVec Ideal S2000x256 .bf16) (K : FVec Ideal S1024x256 .bf16) (p : Fin 2000) (j : Fin 1024) :
    matmul dot_S2000x256_S1024x256_S2000x1024_1_1_0_0_n_n none Q K (constant S2000x1024 .f32 0x00000000#32) (ix2 p j)
      = ∑ k : Fin 256, Q (ix2 p k) * K (ix2 j k) :=
  RowLayers.matmulT_apply (m := 2000) (k := 256) (n := 1024) none Q K p j

/-- The left operand's row coordinate is the result's. -/
theorem lhsO_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
/-- The left operand's column coordinate is the contracted one. -/
theorem lhsO_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
/-- The right operand's row coordinate is the contracted one. -/
theorem rhsO_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
/-- The right operand's column coordinate is the result's. -/
theorem rhsO_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl

/-- e · V: the plain product, the left operand contracted on its columns and the right on its rows. -/
theorem mmO_apply (P : FVec Ideal S2000x1024 .bf16) (V : FVec Ideal S1024x256 .bf16) (p : Fin 2000) (d : Fin 256) :
    matmul dot_S2000x1024_S1024x256_S2000x256_1_0_0_1_n_n none P V (constant S2000x256 .f32 0x00000000#32) (ix2 p d)
      = ∑ j : Fin 1024, P (ix2 p j) * V (ix2 j d) := by
  refine (Ideal.matmul_constant_zero_apply dot_S2000x1024_S1024x256_S2000x256_1_0_0_1_n_n none P V (ix2 p d)).trans ?_
  rw [← Equiv.sum_comp (contrEquiv1 dot_S2000x1024_S1024x256_S2000x256_1_0_0_1_n_n 1024 rfl rfl).symm]
  refine Finset.sum_congr rfl fun j _ => ?_
  have hj := contrEquiv1_symm_val dot_S2000x1024_S1024x256_S2000x256_1_0_0_1_n_n 1024 rfl rfl j
  have el : dot_S2000x1024_S1024x256_S2000x256_1_0_0_1_n_n.lhsIdx (ix2 p d) ((contrEquiv1 dot_S2000x1024_S1024x256_S2000x256_1_0_0_1_n_n 1024 rfl rfl).symm j) = ix2 p j := funext fun a => Fin.ext (by
    match a with
    | ⟨0, _⟩ => exact lhsO_0 _ _
    | ⟨1, _⟩ => exact (lhsO_1 _ _).trans hj)
  have er : dot_S2000x1024_S1024x256_S2000x256_1_0_0_1_n_n.rhsIdx (ix2 p d) ((contrEquiv1 dot_S2000x1024_S1024x256_S2000x256_1_0_0_1_n_n 1024 rfl rfl).symm j) = ix2 j d := funext fun a => Fin.ext (by
    match a with
    | ⟨0, _⟩ => exact (rhsO_0 _ _).trans hj
    | ⟨1, _⟩ => exact rhsO_1 _ _)
  rw [el, er]

/-! ## The two reductions along the lanes -/

/-- The word of -∞ is the bottom of the extended reals. -/
theorem negInf_f32 : (FloatOps.ofBits (F := Ideal) .f32 0xFF800000#32 : EReal) = ⊥ := by
  simp [FloatOps.ofBits, Ideal.ofBits, Ideal.ieee]

/-- A row's maximum: the fold of max from -∞ over the row's entries. -/
theorem rowMax_apply (A : FVec Ideal S2000x1024 .f32) (h : S2000x1024.Reduces [1] S2000) (hφ : FKind.Formats FTy.f32)
    (hacc : (0xFF800000#32 : BitVec FTy.f32.bits) = FKind.maximumf.neutral .f32 hφ) (p : Fin 2000) :
    multiReduction .maximumf [1] S2000 A 0xFF800000#32 h hφ hacc (ix1 p) = Cert.Spec.rowMax (fun j => A (ix2 p j)) := by
  refine (Ideal.multiReduction_maximumf_single A _ h hφ hacc (ix1 p)).trans ?_
  have hf : (A ∘ h.lift (ix1 p)) = fun j : Fin 1024 => A (ix2 p j) :=
    funext fun j => congrArg A (RowLayers.lift_cols (m := 2000) (k := 1024) h p j)
  show (Finset.univ : Finset (Fin 1024)).fold max (FloatOps.ofBits (F := Ideal) .f32 0xFF800000#32) (A ∘ h.lift (ix1 p)) = (Finset.univ : Finset (Fin 1024)).fold max ⊥ fun j => A (ix2 p j)
  rw [hf, negInf_f32]
  rfl

/-- A row's sum. -/
theorem rowSum_apply (E : FVec Ideal S2000x1024 .f32) (h : S2000x1024.Reduces [1] S2000) (hφ : FKind.Formats FTy.f32)
    (hacc : (0x00000000#32 : BitVec FTy.f32.bits) = FKind.add.neutral .f32 hφ) (p : Fin 2000) :
    multiReduction .add [1] S2000 E 0x00000000#32 h hφ hacc (ix1 p) = ∑ j : Fin 1024, E (ix2 p j) := by
  refine (Ideal.multiReduction_add_single E _ h hφ hacc (ix1 p)).trans ?_
  exact Finset.sum_congr rfl fun j _ => congrArg E (RowLayers.lift_cols (m := 2000) (k := 1024) h p j)

/-- A row's reduced value kept as a column and broadcast back along the row reads the row's value. -/
theorem column_back {n : ℕ} (v : FVec Ideal S2000 .f32) (hsc : S2000.ShapeCasts S2000x1)
    (hbc : S2000x1.Broadcasts ⟨2, ![2000, n]⟩) (p : Fin 2000) (j : Fin n) :
    broadcastTo ⟨2, ![2000, n]⟩ (shapeCast S2000x1 v hsc) hbc (ix2 p j) = v (ix1 p) :=
  (RowLayers.broadcastColumn_apply (m := 2000) (k := n) hbc _ p j).trans (RowLayers.column_apply (m := 2000) hsc v p 0)

/-! ## The values the kernel forms, in order -/

/-- q = x Wqᵀ + bq. -/
def qv (x0 : Vec Ideal S2000x256 .f32) (x1 : Vec Ideal S256x256 .f32) (x2 : Vec Ideal S1x256 .f32) : FVec Ideal S2000x256 .f32 :=
  addf (matmul dot_S2000x256_S256x256_S2000x256_1_1_0_0_n_n none (truncf .bf16 x0 Gen.bitsLt_bf16_f32) (truncf .bf16 x1 Gen.bitsLt_bf16_f32) (constant S2000x256 .f32 0x00000000#32))
    (broadcastTo S2000x256 (shapeCast S1x256 x2 Gen.shapeCasts_S1x256_S1x256) Gen.broadcasts_S1x256_S2000x256)

/-- The logits a = (q Kᵀ) · (1/16). -/
def av (x0 : Vec Ideal S2000x256 .f32) (x1 : Vec Ideal S256x256 .f32) (x2 : Vec Ideal S1x256 .f32) (x3 : Vec Ideal S1024x256 .f32) : FVec Ideal S2000x1024 .f32 :=
  mulf (matmul dot_S2000x256_S1024x256_S2000x1024_1_1_0_0_n_n none (truncf .bf16 (qv x0 x1 x2) Gen.bitsLt_bf16_f32) (truncf .bf16 (shapeCast S1024x256 x3 Gen.shapeCasts_S1024x256_S1024x256) Gen.bitsLt_bf16_f32) (constant S2000x1024 .f32 0x00000000#32))
    (broadcast S2000x1024 (Scalar.ofBits (F := Ideal) .f32 0x3D800000#32))

/-- The weights e = exp (a - the row's maximum). -/
def ev (x0 : Vec Ideal S2000x256 .f32) (x1 : Vec Ideal S256x256 .f32) (x2 : Vec Ideal S1x256 .f32) (x3 : Vec Ideal S1024x256 .f32) : FVec Ideal S2000x1024 .f32 :=
  exp (subf (av x0 x1 x2 x3) (broadcastTo S2000x1024 (shapeCast S2000x1 (multiReduction .maximumf [1] S2000 (av x0 x1 x2 x3) 0xFF800000#32 Gen.reduces_S2000x1024_S2000 (.inl rfl) rfl) Gen.shapeCasts_S2000_S2000x1) Gen.broadcasts_S2000x1_S2000x1024))

/-- The payload is the weighted sum e V divided by the row sums of e. -/
theorem pay1_eq (x0 : Vec Ideal S2000x256 .f32) (x1 : Vec Ideal S256x256 .f32) (x2 : Vec Ideal S1x256 .f32) (x3 x4 : Vec Ideal S1024x256 .f32) :
    k1_pay1 (F := Ideal) x0 x1 x2 x3 x4
      = divf (matmul dot_S2000x1024_S1024x256_S2000x256_1_0_0_1_n_n none (truncf .bf16 (ev x0 x1 x2 x3) Gen.bitsLt_bf16_f32) (truncf .bf16 (shapeCast S1024x256 x4 Gen.shapeCasts_S1024x256_S1024x256) Gen.bitsLt_bf16_f32) (constant S2000x256 .f32 0x00000000#32))
          (broadcastTo S2000x256 (shapeCast S2000x1 (multiReduction .add [1] S2000 (ev x0 x1 x2 x3) 0x00000000#32 Gen.reduces_S2000x1024_S2000 (.inl rfl) rfl) Gen.shapeCasts_S2000_S2000x1) Gen.broadcasts_S2000x1_S2000x256) := rfl

/-- q at (p, d): row p of x against row d of Wq, plus the bias. -/
theorem qv_apply (x0 : Vec Ideal S2000x256 .f32) (x1 : Vec Ideal S256x256 .f32) (x2 : Vec Ideal S1x256 .f32) (p : Fin 2000) (d : Fin 256) :
    qv x0 x1 x2 (ix2 p d) = Cert.Spec.proj (Cert.Spec.c2 x0) (Cert.Spec.c2 x1) (fun k => x2 (ix2 (0 : Fin 1) k)) p d := by
  show matmul (F := Ideal) dot_S2000x256_S256x256_S2000x256_1_1_0_0_n_n none (truncf (F := Ideal) (φ := .f32) .bf16 x0 Gen.bitsLt_bf16_f32) (truncf (F := Ideal) (φ := .f32) .bf16 x1 Gen.bitsLt_bf16_f32) (constant S2000x256 .f32 0x00000000#32) (ix2 p d)
      + broadcastTo S2000x256 (shapeCast S1x256 x2 Gen.shapeCasts_S1x256_S1x256) Gen.broadcasts_S1x256_S2000x256 (ix2 p d)
    = (∑ k : Fin 256, x0 (ix2 p k) * x1 (ix2 d k)) + x2 (ix2 (0 : Fin 1) d)
  refine congrArg₂ (· + ·) (mmQ_apply _ _ p d) ?_
  exact (broadcastTo_1b_ab_apply _ _ p d).trans (congrFun (shapeCast_self x2 _) _)

/-- The logit at (p, j): row p of q against row j of K, times 1/16. -/
theorem av_apply (x0 : Vec Ideal S2000x256 .f32) (x1 : Vec Ideal S256x256 .f32) (x2 : Vec Ideal S1x256 .f32) (x3 : Vec Ideal S1024x256 .f32) (p : Fin 2000) (j : Fin 1024) :
    av x0 x1 x2 x3 (ix2 p j)
      = Cert.Spec.score (Cert.Spec.proj (Cert.Spec.c2 x0) (Cert.Spec.c2 x1) (fun k => x2 (ix2 (0 : Fin 1) k))) (Cert.Spec.c2 x3) p j * Cert.Spec.sixteenth := by
  show matmul dot_S2000x256_S1024x256_S2000x1024_1_1_0_0_n_n none (truncf .bf16 (qv x0 x1 x2) Gen.bitsLt_bf16_f32) (truncf .bf16 (shapeCast S1024x256 x3 Gen.shapeCasts_S1024x256_S1024x256) Gen.bitsLt_bf16_f32) (constant S2000x1024 .f32 0x00000000#32) (ix2 p j)
      * Ideal.ofBits .f32 0x3D800000#32
    = (∑ d : Fin 256, Cert.Spec.proj (Cert.Spec.c2 x0) (Cert.Spec.c2 x1) (fun k => x2 (ix2 (0 : Fin 1) k)) p d * x3 (ix2 j d)) * Ideal.ofBits .f32 0x3D800000#32
  refine congrArg (· * Ideal.ofBits .f32 0x3D800000#32) ?_
  refine (mmK_apply _ _ p j).trans (Finset.sum_congr rfl fun d _ => ?_)
  show qv x0 x1 x2 (ix2 p d) * shapeCast S1024x256 x3 Gen.shapeCasts_S1024x256_S1024x256 (ix2 j d) = _
  exact congrArg₂ (· * ·) (qv_apply x0 x1 x2 p d) (congrFun (shapeCast_self x3 _) _)

/-- The weight at (p, j): the exponential of the logit less its row's maximum. -/
theorem ev_apply (x0 : Vec Ideal S2000x256 .f32) (x1 : Vec Ideal S256x256 .f32) (x2 : Vec Ideal S1x256 .f32) (x3 : Vec Ideal S1024x256 .f32) (p : Fin 2000) (j : Fin 1024) :
    ev x0 x1 x2 x3 (ix2 p j)
      = Ideal.exp ((fun j' => Cert.Spec.score (Cert.Spec.proj (Cert.Spec.c2 x0) (Cert.Spec.c2 x1) (fun k => x2 (ix2 (0 : Fin 1) k))) (Cert.Spec.c2 x3) p j' * Cert.Spec.sixteenth) j
          - Cert.Spec.rowMax (fun j' => Cert.Spec.score (Cert.Spec.proj (Cert.Spec.c2 x0) (Cert.Spec.c2 x1) (fun k => x2 (ix2 (0 : Fin 1) k))) (Cert.Spec.c2 x3) p j' * Cert.Spec.sixteenth)) := by
  have hA : (fun j' : Fin 1024 => av x0 x1 x2 x3 (ix2 p j'))
      = fun j' => Cert.Spec.score (Cert.Spec.proj (Cert.Spec.c2 x0) (Cert.Spec.c2 x1) (fun k => x2 (ix2 (0 : Fin 1) k))) (Cert.Spec.c2 x3) p j' * Cert.Spec.sixteenth :=
    funext fun j' => av_apply x0 x1 x2 x3 p j'
  show Ideal.exp (av x0 x1 x2 x3 (ix2 p j)
      - broadcastTo S2000x1024 (shapeCast S2000x1 (multiReduction .maximumf [1] S2000 (av x0 x1 x2 x3) 0xFF800000#32 Gen.reduces_S2000x1024_S2000 (.inl rfl) rfl) Gen.shapeCasts_S2000_S2000x1) Gen.broadcasts_S2000x1_S2000x1024 (ix2 p j)) = _
  refine congrArg Ideal.exp (congrArg₂ (· - ·) (av_apply x0 x1 x2 x3 p j) ?_)
  refine (column_back (n := 1024) _ _ _ p j).trans ?_
  exact (rowMax_apply _ _ _ _ p).trans (congrArg Cert.Spec.rowMax hA)

/-- The payload at row `p`, column `d`: the softmax-weighted sum in the kernel's arrangement. -/
theorem pay1_apply (x0 : Vec Ideal S2000x256 .f32) (x1 : Vec Ideal S256x256 .f32) (x2 : Vec Ideal S1x256 .f32)
    (x3 x4 : Vec Ideal S1024x256 .f32) (p : Fin 2000) (d : Fin 256) :
    k1_pay1 (F := Ideal) x0 x1 x2 x3 x4 (ix2 p d)
      = Cert.Spec.softK (fun j => Cert.Spec.score (Cert.Spec.proj (Cert.Spec.c2 x0) (Cert.Spec.c2 x1) (fun k => x2 (ix2 (0 : Fin 1) k)))
          (Cert.Spec.c2 x3) p j * Cert.Spec.sixteenth) (Cert.Spec.c2 x4) d := by
  rw [pay1_eq]
  show Ideal.div
      (matmul dot_S2000x1024_S1024x256_S2000x256_1_0_0_1_n_n none (truncf .bf16 (ev x0 x1 x2 x3) Gen.bitsLt_bf16_f32) (truncf .bf16 (shapeCast S1024x256 x4 Gen.shapeCasts_S1024x256_S1024x256) Gen.bitsLt_bf16_f32) (constant S2000x256 .f32 0x00000000#32) (ix2 p d))
      (broadcastTo S2000x256 (shapeCast S2000x1 (multiReduction .add [1] S2000 (ev x0 x1 x2 x3) 0x00000000#32 Gen.reduces_S2000x1024_S2000 (.inl rfl) rfl) Gen.shapeCasts_S2000_S2000x1) Gen.broadcasts_S2000x1_S2000x256 (ix2 p d))
    = Ideal.div
      (∑ j : Fin 1024, Ideal.exp ((fun j' => Cert.Spec.score (Cert.Spec.proj (Cert.Spec.c2 x0) (Cert.Spec.c2 x1) (fun k => x2 (ix2 (0 : Fin 1) k))) (Cert.Spec.c2 x3) p j' * Cert.Spec.sixteenth) j
          - Cert.Spec.rowMax (fun j' => Cert.Spec.score (Cert.Spec.proj (Cert.Spec.c2 x0) (Cert.Spec.c2 x1) (fun k => x2 (ix2 (0 : Fin 1) k))) (Cert.Spec.c2 x3) p j' * Cert.Spec.sixteenth)) * x4 (ix2 j d))
      (∑ j : Fin 1024, Ideal.exp ((fun j' => Cert.Spec.score (Cert.Spec.proj (Cert.Spec.c2 x0) (Cert.Spec.c2 x1) (fun k => x2 (ix2 (0 : Fin 1) k))) (Cert.Spec.c2 x3) p j' * Cert.Spec.sixteenth) j
          - Cert.Spec.rowMax (fun j' => Cert.Spec.score (Cert.Spec.proj (Cert.Spec.c2 x0) (Cert.Spec.c2 x1) (fun k => x2 (ix2 (0 : Fin 1) k))) (Cert.Spec.c2 x3) p j' * Cert.Spec.sixteenth)))
  refine congrArg₂ Ideal.div ?_ ?_
  · refine (mmO_apply _ _ p d).trans (Finset.sum_congr rfl fun j _ => ?_)
    show ev x0 x1 x2 x3 (ix2 p j) * shapeCast S1024x256 x4 Gen.shapeCasts_S1024x256_S1024x256 (ix2 j d) = _
    exact congrArg₂ (· * ·) (ev_apply x0 x1 x2 x3 p j) (congrFun (shapeCast_self x4 _) _)
  · refine (column_back (n := 256) _ _ _ p d).trans ?_
    exact (rowSum_apply _ _ _ _ p).trans (Finset.sum_congr rfl fun j _ => ev_apply x0 x1 x2 x3 p j)

end Cert.KernelIdeal.HandValue

end
-- ==== Proof.KI.PreValue.lean ====
/-
  The preamble kernel's stored values read entry by entry, on the extended reals.

  A chunk of 512 rows of `fix` contributes the Gram product  Σ_r fix[r, a] · fix[r, b]  of its rows; the running sum of the
  chunks' products is the Gram matrix as the kernel accumulates it. From it the kernel takes the square roots, the sum of
  each column of roots, divides row b of `other` by the sum of column b, and multiplies the roots by the result; and it
  projects `other` by  other · Wkᵀ + bk.
-/
import proofs.«133251_g52209622450808_cont_9to1_m_767_7_alg».proof.Proof.Gen.KernelIdeal.Skeleton
import proofs.«133251_g52209622450808_cont_9to1_m_767_7_alg».proof.Proof.KI.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.HandValue

open Cert.KernelIdeal Cert.KernelIdeal.Gen
open Idealize.ShloMosaic Idealize.ShloMosaic.ValueIdx

/-! ## A vector laid as a column, and a column repeated along the rows -/

/-- A vector of `a` entries cast to the column `[a, 1]` reads, at `(i, u)`, entry `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum down the rows of a 1024 × 1024 matrix, read at column `b`: the sum over the rows `a` of the entry `(a, b)`. -/
theorem colsum_apply (x : FVec Ideal S1024x1024 .f32) (h : S1024x1024.Reduces [0] S1024) (hφ : FKind.Formats .f32)
    (hacc : (0x00000000#32 : BitVec FTy.f32.bits) = FKind.add.neutral .f32 hφ) (b : Fin 1024) :
    multiReduction .add [0] S1024 x 0x00000000#32 h hφ hacc (ix1 b) = ∑ a : Fin 1024, x (ix2 a b) := by
  refine (Ideal.multiReduction_add_single x 0x00000000#32 h hφ hacc (ix1 b)).trans ?_
  refine Finset.sum_congr rfl fun a _ => ?_
  exact congrArg x (funext fun d => Fin.ext (by match d with | ⟨0, _⟩ => rfl | ⟨1, _⟩ => rfl))

/-! ## The three products of the matrix unit, each read at an entry as the sum over its contracted coordinate -/

-- both operands contracted over their rows (axis 0): the entry (a, b) pairs column a of the left with column b of the right
theorem lhs_gram_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem lhs_gram_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhs_gram_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem rhs_gram_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The product that contracts the rows of both operands: at (a, b), the sum over the rows r of L[r, a] · R[r, b]. -/
theorem gram_matmul_apply (L : FVec Ideal S512x1024 .bf16) (R : FVec Ideal S512x1024 .bf16) (a : Fin 1024) (b : Fin 1024) :
    matmul dot_S512x1024_S512x1024_S1024x1024_0_0_1_1_n_n none L R (constant (F := Ideal) S1024x1024 .f32 0x00000000#32) (ix2 a b)
      = ∑ k : Fin 512, L (ix2 k a) * R (ix2 k b) := by
  refine (Ideal.matmul_constant_zero_apply dot_S512x1024_S512x1024_S1024x1024_0_0_1_1_n_n none L R (ix2 a b)).trans ?_
  rw [← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 a b) ((contrEquiv1 dot_S512x1024_S512x1024_S1024x1024_0_0_1_1_n_n 512 rfl rfl).symm k) = ix2 k a := funext fun x => Fin.ext (by
    match x with
    | ⟨0, _⟩ => exact (lhs_gram_0 _ _).trans hk
    | ⟨1, _⟩ => exact lhs_gram_1 _ _)
  have er : dot_S512x1024_S512x1024_S1024x1024_0_0_1_1_n_n.rhsIdx (ix2 a b) ((contrEquiv1 dot_S512x1024_S512x1024_S1024x1024_0_0_1_1_n_n 512 rfl rfl).symm k) = ix2 k b := funext fun x => Fin.ext (by
    match x with
    | ⟨0, _⟩ => exact (rhs_gram_0 _ _).trans hk
    | ⟨1, _⟩ => exact rhs_gram_1 _ _)
  rw [el, er]

-- the plain product: the left operand's columns against the right operand's rows
theorem lhs_mix_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mix_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mix_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mix_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The plain product: at (a, d), the sum over b of L[a, b] · R[b, d]. -/
theorem mix_matmul_apply (L : FVec Ideal S1024x1024 .bf16) (R : FVec Ideal S1024x256 .bf16) (a : Fin 1024) (d : Fin 256) :
    matmul dot_S1024x1024_S1024x256_S1024x256_1_0_0_1_n_n none L R (constant (F := Ideal) S1024x256 .f32 0x00000000#32) (ix2 a d)
      = ∑ k : Fin 1024, L (ix2 a k) * R (ix2 k d) := by
  refine (Ideal.matmul_constant_zero_apply dot_S1024x1024_S1024x256_S1024x256_1_0_0_1_n_n none L R (ix2 a d)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 a d) ((contrEquiv1 dot_S1024x1024_S1024x256_S1024x256_1_0_0_1_n_n 1024 rfl rfl).symm k) = ix2 a k := funext fun x => Fin.ext (by
    match x with
    | ⟨0, _⟩ => exact lhs_mix_0 _ _
    | ⟨1, _⟩ => exact (lhs_mix_1 _ _).trans hk)
  have er : dot_S1024x1024_S1024x256_S1024x256_1_0_0_1_n_n.rhsIdx (ix2 a d) ((contrEquiv1 dot_S1024x1024_S1024x256_S1024x256_1_0_0_1_n_n 1024 rfl rfl).symm k) = ix2 k d := funext fun x => Fin.ext (by
    match x with
    | ⟨0, _⟩ => exact (rhs_mix_0 _ _).trans hk
    | ⟨1, _⟩ => exact rhs_mix_1 _ _)
  rw [el, er]

-- the product against the transposed right operand: both operands contracted over their columns (axis 1)
theorem lhs_proj_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_proj_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_proj_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_proj_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The product with the right operand transposed: at (j, d), the sum over k of L[j, k] · R[d, k]. -/
theorem proj_matmul_apply (L : FVec Ideal S1024x256 .bf16) (R : FVec Ideal S256x256 .bf16) (j : Fin 1024) (d : Fin 256) :
    matmul dot_S1024x256_S256x256_S1024x256_1_1_0_0_n_n none L R (constant (F := Ideal) S1024x256 .f32 0x00000000#32) (ix2 j d)
      = ∑ k : Fin 256, L (ix2 j k) * R (ix2 d k) := by
  refine (Ideal.matmul_constant_zero_apply dot_S1024x256_S256x256_S1024x256_1_1_0_0_n_n none L R (ix2 j d)).trans ?_
  rw [← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 j d) ((contrEquiv1 dot_S1024x256_S256x256_S1024x256_1_1_0_0_n_n 256 rfl rfl).symm k) = ix2 j k := funext fun x => Fin.ext (by
    match x with
    | ⟨0, _⟩ => exact lhs_proj_0 _ _
    | ⟨1, _⟩ => exact (lhs_proj_1 _ _).trans hk)
  have er : dot_S1024x256_S256x256_S1024x256_1_1_0_0_n_n.rhsIdx (ix2 j d) ((contrEquiv1 dot_S1024x256_S256x256_S1024x256_1_1_0_0_n_n 256 rfl rfl).symm k) = ix2 d k := funext fun x => Fin.ext (by
    match x with
    | ⟨0, _⟩ => exact rhs_proj_0 _ _
    | ⟨1, _⟩ => exact (rhs_proj_1 _ _).trans hk)
  rw [el, er]

/-! ## The stored values at an entry -/

/-- A chunk's Gram product before it is stored: narrowing the operands changes nothing on the extended reals. -/
theorem chunkGram_apply (v0 : Vec Ideal S512x1024 .f32) (a b : Fin 1024) :
    k0_pay1 (F := Ideal) v0 (ix2 a b) = ∑ r : Fin 512, v0 (ix2 r a) * v0 (ix2 r b) := by
  unfold k0_pay1
  refine (gram_matmul_apply _ _ a b).trans ?_
  rfl

/-- What the first grid point stores: the chunk's Gram product. -/
theorem pay2_apply (v0 : Vec Ideal S512x1024 .f32) (a b : Fin 1024) :
    k0_pay2 (F := Ideal) v0 (ix2 a b) = ∑ r : Fin 512, v0 (ix2 r a) * v0 (ix2 r b) := by
  unfold k0_pay2
  refine (congrFun (shapeCast_self _ _) (ix2 a b)).trans ?_
  exact chunkGram_apply v0 a b

/-- What a later grid point stores: what was there plus the chunk's Gram product. -/
theorem pay3_apply (v0 : Vec Ideal S512x1024 .f32) (v13 : Vec Ideal S1024x1024 .f32) (a b : Fin 1024) :
    k0_pay3 (F := Ideal) v0 v13 (ix2 a b) = v13 (ix2 a b) + ∑ r : Fin 512, v0 (ix2 r a) * v0 (ix2 r b) := by
  unfold k0_pay3
  refine (congrFun (shapeCast_self _ _) (ix2 a b)).trans ?_
  exact congrArg (v13 (ix2 a b) + ·) (chunkGram_apply v0 a b)

/-- The mixed rows of `other`: the square roots of the accumulated matrix times the rows of `other`, row b divided by the sum
    of column b of the roots. -/
theorem pay4_apply (s : Vec Ideal S1024x1024 .f32) (ot : Vec Ideal S1024x256 .f32) (a : Fin 1024) (d : Fin 256) :
    k0_pay4 (F := Ideal) s ot (ix2 a d)
      = ∑ b : Fin 1024, Ideal.sqrt (s (ix2 a b)) * Ideal.div (ot (ix2 b d)) (∑ a' : Fin 1024, Ideal.sqrt (s (ix2 a' b))) := by
  unfold k0_pay4
  refine (mix_matmul_apply _ _ a d).trans ?_
  refine Finset.sum_congr rfl fun b _ => ?_
  refine congrArg (fun t => Ideal.sqrt (s (ix2 a b)) * Ideal.div (ot (ix2 b d)) t) ?_
  refine (broadcastTo_a1_ab_apply _ _ b d).trans ?_
  refine (shapeCast_a_a1_apply _ _ b (0 : Fin 1)).trans ?_
  refine (colsum_apply _ _ _ _ b).trans ?_
  rfl

/-- The projected rows of `other`: other · Wkᵀ + bk. -/
theorem pay5_apply (ot : Vec Ideal S1024x256 .f32) (wk : Vec Ideal S256x256 .f32) (bk1 : Vec Ideal S1x256 .f32)
    (j : Fin 1024) (d : Fin 256) :
    k0_pay5 (F := Ideal) ot wk bk1 (ix2 j d)
      = Cert.Spec.proj (Cert.Spec.c2 ot) (Cert.Spec.c2 wk) (fun k => bk1 (ix2 (0 : Fin 1) k)) j d := by
  unfold k0_pay5
  show _ = (∑ k : Fin 256, ot (ix2 j k) * wk (ix2 d k)) + bk1 (ix2 (0 : Fin 1) d)
  refine congrArg₂ (· + ·) ?_ ?_
  · refine (proj_matmul_apply _ _ j d).trans ?_
    rfl
  · refine (broadcastTo_1b_ab_apply _ _ j d).trans ?_
    exact congrFun (shapeCast_self _ _) (ix2 (0 : Fin 1) d)

/-! ## The running sum over the chunks -/

/-- The scratch after grid point n holds the Gram matrix's running sum over chunks 0 … n. -/
theorem acc_apply (blk : (n : ℕ) → n < 8 → Vec Ideal S512x1024 .f32) (fx : Fin 4096 → Fin 1024 → EReal)
    (hblk : ∀ (n : ℕ) (hn : n < 8) (r : Fin 512) (a : Fin 1024), blk n hn (ix2 r a) = fx (Cert.Spec.chunkRow ⟨n, hn⟩ r) a)
    (acc : (n : ℕ) → n < 8 → Vec Ideal S1024x1024 .f32)
    (h0 : ∀ h, acc 0 h = k0_pay2 (F := Ideal) (blk 0 h))
    (hs : ∀ n h, acc (n + 1) h = k0_pay3 (F := Ideal) (blk (n + 1) h) (acc n (Nat.lt_of_succ_lt h))) :
    ∀ (n : ℕ) (hn : n < 8) (a b : Fin 1024), acc n hn (ix2 a b) = Cert.Spec.gramAcc fx n hn a b := by
  intro n
  induction n with
  | zero =>
    intro hn a b
    refine (congrFun (h0 hn) (ix2 a b)).trans ?_
    refine (pay2_apply (blk 0 hn) a b).trans ?_
    show _ = ∑ r : Fin 512, fx (Cert.Spec.chunkRow ⟨0, hn⟩ r) a * fx (Cert.Spec.chunkRow ⟨0, hn⟩ r) b
    refine Finset.sum_congr rfl fun r _ => ?_
    rw [hblk 0 hn r a, hblk 0 hn r b]
  | succ n ih =>
    intro hn a b
    refine (congrFun (hs n hn) (ix2 a b)).trans ?_
    refine (pay3_apply (blk (n + 1) hn) (acc n (Nat.lt_of_succ_lt hn)) a b).trans ?_
    show _ = Cert.Spec.gramAcc fx n (Nat.lt_of_succ_lt hn) a b
        + ∑ r : Fin 512, fx (Cert.Spec.chunkRow ⟨n + 1, hn⟩ r) a * fx (Cert.Spec.chunkRow ⟨n + 1, hn⟩ r) b
    refine congrArg₂ (· + ·) (ih (Nat.lt_of_succ_lt hn) a b) (Finset.sum_congr rfl fun r _ => ?_)
    rw [hblk (n + 1) hn r a, hblk (n + 1) hn r b]

/-- With the scratch holding the accumulated Gram matrix, the mixed rows are the kernel's arrangement of the mixing. -/
theorem pay4_mixK (fx : Fin 4096 → Fin 1024 → EReal) (s : Vec Ideal S1024x1024 .f32)
    (hs : ∀ (a b : Fin 1024), s (ix2 a b) = Cert.Spec.gramK fx a b) (ot : Vec Ideal S1024x256 .f32)
    (a : Fin 1024) (d : Fin 256) :
    k0_pay4 (F := Ideal) s ot (ix2 a d) = Cert.Spec.mixK fx (Cert.Spec.c2 ot) a d := by
  refine (pay4_apply s ot a d).trans ?_
  show _ = ∑ b : Fin 1024, Ideal.sqrt (Cert.Spec.gramK fx a b)
      * Ideal.div (ot (ix2 b d)) (∑ a' : Fin 1024, Ideal.sqrt (Cert.Spec.gramK fx a' b))
  refine Finset.sum_congr rfl fun b _ => ?_
  refine congrArg₂ (fun x y => Ideal.sqrt x * Ideal.div (ot (ix2 b d)) y) (hs a b) (Finset.sum_congr rfl fun a' _ => ?_)
  exact congrArg Ideal.sqrt (hs a' b)

end Cert.KernelIdeal.HandValue

end
-- ==== Proof.KI.Value.lean ====
/-
  The idealized kernel's result array, entry by entry.

  The run leaves in the result buffer what the second region's write-backs leave: row i of it is the attention
  payload on the block of 2000 rows of `main` that holds row i, over Wq, the bias row, and the first region's two
  results. Those are the projection  other · Wkᵀ + bk  and the mixing  Σ_b √G[a, b] · (other[b, d] / Σ_a' √G[a', b])
  of the Gram matrix G that the first region accumulates chunk by chunk. Reading each payload at an index gives
  the kernel's arrangement `Cert.Spec.outK` of the argument arrays.
-/
import proofs.«133251_g52209622450808_cont_9to1_m_767_7_alg».proof.Proof.KI.Run
import proofs.«133251_g52209622450808_cont_9to1_m_767_7_alg».proof.Proof.KI.PreArr
import proofs.«133251_g52209622450808_cont_9to1_m_767_7_alg».proof.Proof.KI.Blocks
import proofs.«133251_g52209622450808_cont_9to1_m_767_7_alg».proof.Proof.KI.AttnValue
import proofs.«133251_g52209622450808_cont_9to1_m_767_7_alg».proof.Proof.KI.PreValue
import proofs.«133251_g52209622450808_cont_9to1_m_767_7_alg».proof.Proof.KI.Spec
import proofs.«133251_g52209622450808_cont_9to1_m_767_7_alg».proof.Proof.LibRowLayers

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- The seven argument arrays as the launch finds them. -/
abbrev aMain : FVec Ideal S10000x256 .f32 := m ((c : Thread nD τ).loc main_arg0)
abbrev aOther : FVec Ideal S1024x256 .f32 := m ((c : Thread nD τ).loc main_arg1)
abbrev aFix : FVec Ideal S4096x1024 .f32 := m ((c : Thread nD τ).loc main_arg2)
abbrev aWq : FVec Ideal S256x256 .f32 := m ((c : Thread nD τ).loc main_arg3)
abbrev aBq : FVec Ideal S256 .f32 := m ((c : Thread nD τ).loc main_arg4)
abbrev aWk : FVec Ideal S256x256 .f32 := m ((c : Thread nD τ).loc main_arg5)
abbrev aBk : FVec Ideal S256 .f32 := m ((c : Thread nD τ).loc main_arg6)

theorem lt8 {n : ℕ} (hn : n < 8) : n < cfg0.N := lt_of_lt_of_eq hn (show 8 = cfg0.N from N_0.symm)

/-- Chunk n of `fix`, read at (r, a), is row 512·n + r of the argument array. -/
theorem chunk_apply (n : ℕ) (hn : n < 8) (r : Fin 512) (a : Fin 1024) :
    iblk0 (V1 m) c 0 ⟨n, lt8 hn⟩ (ix2 r a) = Cert.Spec.c2 (aFix m c) (Cert.Spec.chunkRow ⟨n, hn⟩ r) a := by
  rw [fixBlock_apply (V1 m) c ⟨n, lt8 hn⟩ r a, V1_of_arg m c main_arg2 (by decide)]
  rfl

/-- After the last point the scratch holds the Gram matrix as the chunks accumulate it. -/
theorem scratch_apply (a b : Fin 1024) :
    sAt (V1 m) c 7 (lt8 (by decide)) (ix2 a b) = Cert.Spec.gramK (Cert.Spec.c2 (aFix m c)) a b :=
  acc_apply (fun n hn => iblk0 (V1 m) c 0 ⟨n, lt8 hn⟩) (Cert.Spec.c2 (aFix m c)) (chunk_apply m c)
    (fun n hn => sAt (V1 m) c n (lt8 hn)) (fun _ => rfl) (fun _ _ => rfl) 7 (by decide) a b

/-- The first region's first result: the mixing of `other`, in the kernel's arrangement. -/
theorem mixed_apply (a : Fin 1024) (d : Fin 256) :
    V2 m c main_v2_0 (ix2 a d) = Cert.Spec.mixK (Cert.Spec.c2 (aFix m c)) (Cert.Spec.c2 (aOther m c)) a d := by
  rw [V2_main_v2_0, arr0_4, V1_of_arg m c main_arg1 (by decide)]
  exact pay4_mixK (Cert.Spec.c2 (aFix m c)) _ (scratch_apply m c) (aOther m c) a d

/-- A vector cast to one row reads, at (0, k), entry k. -/
theorem row_apply (v : FVec Ideal S256 .f32) (k : Fin 256) :
    shapeCast S1x256 v shapeCasts_S256_S1x256 (ix2 (0 : Fin 1) k) = Cert.Spec.c1 v k := by
  rw [shapeCast_a_1a_apply]
  rfl

/-- The first region's second result: the projection of `other`. -/
theorem keys_apply (j : Fin 1024) (d : Fin 256) :
    V2 m c main_v2_1 (ix2 j d)
      = Cert.Spec.proj (Cert.Spec.c2 (aOther m c)) (Cert.Spec.c2 (aWk m c)) (Cert.Spec.c1 (aBk m c)) j d := by
  rw [V2_main_v2_1, arr0_5, V1_of_arg m c main_arg1 (by decide), V1_of_arg m c main_arg5 (by decide), V1_main_v1]
  refine (pay5_apply (aOther m c) (aWk m c) _ j d).trans ?_
  unfold Cert.Spec.proj
  exact congrArg (_ + ·) (row_apply (aBk m c) d)

/-- One row of the kernel's softmax-weighted sum depends on the row of logits and on the mixed matrix only. -/
theorem softK_congr {A A' : Fin 1024 → EReal} {om om' : Fin 1024 → Fin 256 → EReal} (hA : A' = A) (hom : om' = om) (d : Fin 256) :
    Cert.Spec.softK A' om' d = Cert.Spec.softK A om d := by rw [hA, hom]

/-- THE RESULT: entry (i, d) of what the run leaves in the result buffer is the kernel's arrangement of the arguments. -/
theorem result_apply (i : Fin 10000) (d : Fin 256) :
    W3 m c (Proc.devRef .tc main_v3) (ix2 i d)
      = Cert.Spec.outK (Cert.Spec.c2 (aMain m c)) (Cert.Spec.c2 (aOther m c)) (Cert.Spec.c2 (aFix m c)) (Cert.Spec.c2 (aWq m c))
          (Cert.Spec.c1 (aBq m c)) (Cert.Spec.c2 (aWk m c)) (Cert.Spec.c1 (aBk m c)) i d := by
  rw [W3_main_v3, arr1_5]
  have hA0 : V2 m c main_arg0 = aMain m c := (V2_of_arg m c main_arg0 (by decide)).trans (V1_of_arg m c main_arg0 (by decide))
  have hA3 : V2 m c main_arg3 = aWq m c := (V2_of_arg m c main_arg3 (by decide)).trans (V1_of_arg m c main_arg3 (by decide))
  have hV0 : V2 m c main_v0 = shapeCast S1x256 (aBq m c) shapeCasts_S256_S1x256 := (V2_of_arg m c main_v0 (by decide)).trans (V1_main_v0 m c)
  rw [hA0, hA3, hV0]
  unfold attnArr
  refine (pay1_apply _ (aWq m c) _ (V2 m c main_v2_1) (V2 m c main_v2_0) ⟨i.val % 2000, Nat.mod_lt _ (by decide)⟩ d).trans ?_
  have hom : Cert.Spec.c2 (V2 m c main_v2_0) = Cert.Spec.mixK (Cert.Spec.c2 (aFix m c)) (Cert.Spec.c2 (aOther m c)) :=
    funext fun a => funext fun e => mixed_apply m c a e
  have hK : Cert.Spec.c2 (V2 m c main_v2_1) = Cert.Spec.proj (Cert.Spec.c2 (aOther m c)) (Cert.Spec.c2 (aWk m c)) (Cert.Spec.c1 (aBk m c)) :=
    funext fun j => funext fun e => keys_apply m c j e
  have hrowi : (⟨i.val / 2000 * 2000 + i.val % 2000, by have := i.isLt; omega⟩ : Fin 10000) = i := Fin.ext (by show i.val / 2000 * 2000 + i.val % 2000 = i.val; omega)
  have hA : (fun j : Fin 1024 => Cert.Spec.score (Cert.Spec.proj (Cert.Spec.c2 (fun y : S2000x256.Idx => aMain m c (ix2 (⟨i.val / 2000 * 2000 + (y 0).val, by have h1 : (y 0).val < 2000 := (y 0).isLt; have := i.isLt; omega⟩ : Fin 10000) (⟨(y 1).val, (y 1).isLt⟩ : Fin 256)))) (Cert.Spec.c2 (aWq m c)) (fun k => shapeCast S1x256 (aBq m c) shapeCasts_S256_S1x256 (ix2 (0 : Fin 1) k))) (Cert.Spec.c2 (V2 m c main_v2_1)) ⟨i.val % 2000, Nat.mod_lt _ (by decide)⟩ j * Cert.Spec.sixteenth)
      = fun j : Fin 1024 => Cert.Spec.score (Cert.Spec.proj (Cert.Spec.c2 (aMain m c)) (Cert.Spec.c2 (aWq m c)) (Cert.Spec.c1 (aBq m c))) (Cert.Spec.proj (Cert.Spec.c2 (aOther m c)) (Cert.Spec.c2 (aWk m c)) (Cert.Spec.c1 (aBk m c))) i j * Cert.Spec.sixteenth := by
    funext j
    rw [hK]
    unfold Cert.Spec.score Cert.Spec.proj
    refine congrArg (· * Cert.Spec.sixteenth) (Finset.sum_congr rfl fun e _ => congrArg (· * _) ?_)
    refine congrArg₂ (· + ·) (Finset.sum_congr rfl fun k _ => congrArg (· * _) ?_) (row_apply (aBq m c) e)
    show aMain m c (ix2 (⟨i.val / 2000 * 2000 + i.val % 2000, _⟩ : Fin 10000) k) = aMain m c (ix2 i k)
    rw [hrowi]
  exact softK_congr hA hom d

end Cert.KernelIdeal.HandValue

end
-- ==== Proof.KI.RefValue.lean ====
/-
  The reference's result read at one index, at the ideal instance.

  The reference computes, stage by stage,  Q = main Wqᵀ + bq,  K = other Wkᵀ + bk,  the logits  Q Kᵀ / 16,
  each row's maximum, the weights  exp(logit − maximum),  their row sums, the normalised weights, the Gram
  matrix  fixᵀ fix,  its entrywise square root, the column sums of the roots, the roots divided by their
  column sums, that matrix times `other`, and the normalised weights times the result.  Read at (i, d),
  each stage is the corresponding piece of `Cert.Spec.outR`.
-/
import proofs.«133251_g52209622450808_cont_9to1_m_767_7_alg».proof.Proof.Gen.ReferenceIdeal.Read
import proofs.«133251_g52209622450808_cont_9to1_m_767_7_alg».proof.Proof.KI.Spec
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic ValueIdx

/-- Two index functions agree when they agree on every axis. -/
local macro "idx_eq" : tactic =>
  `(tactic| exact funext fun a => Fin.ext (by match a with | ⟨0, _⟩ => rfl | ⟨1, _⟩ => rfl))

/-- The same for indices with one axis. -/
local macro "idx_eq1" : tactic =>
  `(tactic| exact funext fun a => Fin.ext (by match a with | ⟨0, _⟩ => rfl))

section Stages

variable (x0 : (⟨S10000x256, .f32⟩ : BufTy).Contents (Elt Ideal)) (x1 : (⟨S1024x256, .f32⟩ : BufTy).Contents (Elt Ideal))
  (x2 : (⟨S4096x1024, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-! ## The two projections -/

/-- Q = main Wqᵀ + bq at (i, k): the product reads Wq transposed, the bias is broadcast down the rows. -/
theorem q_apply (i : Fin 10000) (k : Fin 256) :
    val_main_v4 (F := Ideal) x0 x3 x4 (ix2 i k)
      = Cert.Spec.proj (Cert.Spec.c2 x0) (Cert.Spec.c2 x3) (Cert.Spec.c1 x4) i k := by
  rw [val_main_v4_apply, val_main_v1_apply, val_main_v3_apply, val_main_v2_apply]
  simp only [val_main_v0_apply, Ideal.addf_def, Cert.Spec.proj, Cert.Spec.c2, Cert.Spec.c1]
  refine congrArg₂ (· + ·) (Finset.sum_congr rfl fun k' _ => ?_) (congrArg x4 (by idx_eq1))
  exact congrArg₂ (· * ·) (congrArg x0 (by idx_eq)) (congrArg x3 (by idx_eq))

/-- K = other Wkᵀ + bk at (j, k). -/
theorem k_apply (j : Fin 1024) (k : Fin 256) :
    val_main_v9 (F := Ideal) x1 x5 x6 (ix2 j k)
      = Cert.Spec.proj (Cert.Spec.c2 x1) (Cert.Spec.c2 x5) (Cert.Spec.c1 x6) j k := by
  rw [val_main_v9_apply, val_main_v6_apply, val_main_v8_apply, val_main_v7_apply]
  simp only [val_main_v5_apply, Ideal.addf_def, Cert.Spec.proj, Cert.Spec.c2, Cert.Spec.c1]
  refine congrArg₂ (· + ·) (Finset.sum_congr rfl fun k' _ => ?_) (congrArg x6 (by idx_eq1))
  exact congrArg₂ (· * ·) (congrArg x1 (by idx_eq)) (congrArg x5 (by idx_eq))

/-! ## The logits -/

/-- Row `i` of the scaled logits: row `i` of Q against every row of K, divided by the word for 16. -/
def logits (i : Fin 10000) : Fin 1024 → EReal := fun j =>
  Ideal.div (Cert.Spec.score (Cert.Spec.proj (Cert.Spec.c2 x0) (Cert.Spec.c2 x3) (Cert.Spec.c1 x4))
    (Cert.Spec.proj (Cert.Spec.c2 x1) (Cert.Spec.c2 x5) (Cert.Spec.c1 x6)) i j) Cert.Spec.sixteen

/-- The logit at (i, j): the product reads K transposed; the divisor is the broadcast constant, kept as its word. -/
theorem logit_apply (i : Fin 10000) (j : Fin 1024) :
    val_main_v13 (F := Ideal) x0 x1 x3 x4 x5 x6 (ix2 i j) = logits x0 x1 x3 x4 x5 x6 i j := by
  rw [val_main_v13_apply, val_main_v11_apply, val_main_v12_apply, val_main_cst_apply, Ideal.hostDivf_def, Ideal.ofBits_def]
  simp only [logits, Cert.Spec.score, Cert.Spec.sixteen]
  refine congrArg (fun s => Ideal.div s (Ideal.ofBits .f32 0x41800000#32)) (Finset.sum_congr rfl fun k _ => ?_)
  rw [val_main_v10_apply, show lidx_main_v11 (ix2 i j) k = ix2 i k by idx_eq,
    show idx_main_v10 (ridx_main_v11 (ix2 i j) k) = ix2 j k by idx_eq, q_apply, k_apply]

/-! ## The row maximum -/

/-- The word 0xFF800000 is −∞. -/
theorem negInf_eq_bot : Ideal.ofBits .f32 0xFF800000#32 = (⊥ : EReal) := by simp [Ideal.ofBits, Ideal.ieee]

/-- The reduced index `i` with column `k` put back is (i, k). -/
theorem lift_row (h : S10000x1024.Reduces [1] S10000) (i : Fin 10000) (k : Fin (S10000x1024.size 1)) :
    h.lift (ix1 i) k = ix2 i (⟨k.val, k.isLt⟩ : Fin 1024) := by
  funext c; apply Fin.ext
  match c with
  | ⟨0, _⟩ => rfl
  | ⟨1, _⟩ => rfl

/-- The reduce with a maximum body from −∞ along a row is the fold of `max` from ⊥ over the row's logits;
    the later maximum against −∞ changes nothing. -/
theorem rowmax_apply (i : Fin 10000) :
    val_main_v16 (F := Ideal) x0 x1 x3 x4 x5 x6 (ix1 i) = Cert.Spec.rowMax (logits x0 x1 x3 x4 x5 x6 i) := by
  have h : S10000x1024.Reduces [1] S10000 := by decide
  rw [val_main_v16_apply, val_main_v15_apply, val_main_cst_1_apply, Ideal.ofBits_def, Ideal.maximumf_def, negInf_eq_bot,
    max_bot_left]
  unfold val_main_v14
  rw [Host.reduce_eq_fold_single FloatOps.maximumf _ _ reducesTo_S10000x1024_S10000_d1 h h_S_, val_main_cst_0_apply,
    Ideal.ofBits_def, negInf_eq_bot]
  have hf : (val_main_v13 (F := Ideal) x0 x1 x3 x4 x5 x6 ∘ h.lift (ix1 i)) = logits x0 x1 x3 x4 x5 x6 i :=
    funext fun k => (congrArg (val_main_v13 (F := Ideal) x0 x1 x3 x4 x5 x6) (lift_row h i k)).trans
      (logit_apply x0 x1 x3 x4 x5 x6 i ⟨k.val, k.isLt⟩)
  exact congrArg (fun f => Finset.fold max (⊥ : EReal) f (Finset.univ : Finset (Fin 1024))) hf

/-! ## The weights, their sum, the normalised weights -/

theorem weight_apply (i : Fin 10000) (j : Fin 1024) :
    val_main_v20 (F := Ideal) x0 x1 x3 x4 x5 x6 (ix2 i j)
      = Ideal.exp (logits x0 x1 x3 x4 x5 x6 i j - Cert.Spec.rowMax (logits x0 x1 x3 x4 x5 x6 i)) := by
  rw [val_main_v20_apply, val_main_v19_apply, val_main_v18_apply, val_main_v17_apply,
    show idx_main_v17 (idx_main_v18 (ix2 i j)) = ix1 i by idx_eq1, rowmax_apply, logit_apply,
    Ideal.hostUnary_exp_def, Ideal.subf_def]

/-- The float sum starts from the zero word, which adds nothing. -/
theorem wsum_apply (i : Fin 10000) :
    val_main_v21 (F := Ideal) x0 x1 x3 x4 x5 x6 (ix1 i)
      = ∑ j : Fin 1024, Ideal.exp (logits x0 x1 x3 x4 x5 x6 i j - Cert.Spec.rowMax (logits x0 x1 x3 x4 x5 x6 i)) := by
  rw [val_main_v21_apply, val_main_cst_2_apply, Ideal.ofBits_def, Ideal.ofBits_zero_f32, zero_add]
  refine Finset.sum_congr rfl fun j _ => ?_
  rw [show idx_main_v21 (ix1 i) j = ix2 i j by idx_eq, weight_apply]

theorem nweight_apply (i : Fin 10000) (j : Fin 1024) :
    val_main_v24 (F := Ideal) x0 x1 x3 x4 x5 x6 (ix2 i j)
      = Ideal.div (Ideal.exp (logits x0 x1 x3 x4 x5 x6 i j - Cert.Spec.rowMax (logits x0 x1 x3 x4 x5 x6 i)))
          (∑ j' : Fin 1024, Ideal.exp (logits x0 x1 x3 x4 x5 x6 i j' - Cert.Spec.rowMax (logits x0 x1 x3 x4 x5 x6 i))) := by
  rw [val_main_v24_apply, val_main_v23_apply, val_main_v22_apply,
    show idx_main_v22 (idx_main_v23 (ix2 i j)) = ix1 i by idx_eq1, wsum_apply, weight_apply, Ideal.hostDivf_def]

/-! ## The mixing matrix and `other` mixed -/

/-- The Gram matrix at (a, b): the left operand is `fix` transposed, so both factors read row `r` of `fix`. -/
theorem gram_apply (a b : Fin 1024) :
    val_main_v26 (F := Ideal) x2 (ix2 a b) = Cert.Spec.gram (Cert.Spec.c2 x2) a b := by
  rw [val_main_v26_apply]
  simp only [val_main_v25_apply, Cert.Spec.gram, Cert.Spec.c2]
  refine Finset.sum_congr rfl fun r _ => ?_
  exact congrArg₂ (· * ·) (congrArg x2 (by idx_eq)) (congrArg x2 (by idx_eq))

theorem root_apply (a b : Fin 1024) :
    val_main_v27 (F := Ideal) x2 (ix2 a b) = Cert.Spec.root (Cert.Spec.c2 x2) a b := by
  unfold Cert.Spec.root
  rw [val_main_v27_apply, gram_apply, Ideal.hostUnary_sqrt_def]

/-- The column sums: the float sum over the first axis, from the zero word. -/
theorem colsum_apply (b : Fin 1024) :
    val_main_v28 (F := Ideal) x2 (ix1 b) = Cert.Spec.colsum (Cert.Spec.c2 x2) b := by
  unfold Cert.Spec.colsum
  rw [val_main_v28_apply, val_main_cst_3_apply, Ideal.ofBits_def, Ideal.ofBits_zero_f32, zero_add]
  refine Finset.sum_congr rfl fun a _ => ?_
  rw [show idx_main_v28 (ix1 b) a = ix2 a b by idx_eq, root_apply]

theorem mixmat_apply (a b : Fin 1024) :
    val_main_v31 (F := Ideal) x2 (ix2 a b)
      = Ideal.div (Cert.Spec.root (Cert.Spec.c2 x2) a b) (Cert.Spec.colsum (Cert.Spec.c2 x2) b) := by
  rw [val_main_v31_apply, val_main_v30_apply, val_main_v29_apply,
    show idx_main_v29 (idx_main_v30 (ix2 a b)) = ix1 b by idx_eq1, colsum_apply, root_apply, Ideal.hostDivf_def]

theorem mixed_apply (a : Fin 1024) (d : Fin 256) :
    val_main_v32 (F := Ideal) x1 x2 (ix2 a d) = Cert.Spec.mixR (Cert.Spec.c2 x2) (Cert.Spec.c2 x1) a d := by
  unfold Cert.Spec.mixR
  rw [val_main_v32_apply]
  refine Finset.sum_congr rfl fun b _ => ?_
  rw [show lidx_main_v32 (ix2 a d) b = ix2 a b by idx_eq, show ridx_main_v32 (ix2 a d) b = ix2 b d by idx_eq,
    mixmat_apply]
  rfl

end Stages

/-! ## The result -/

/-- The reference's result at (i, d) is its closed form: the normalised weights of row `i` against column `d`
    of `other` mixed. -/
theorem ref_apply (x0 : (⟨S10000x256, .f32⟩ : BufTy).Contents (Elt Ideal)) (x1 : (⟨S1024x256, .f32⟩ : BufTy).Contents (Elt Ideal))
    (x2 : (⟨S4096x1024, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (i : Fin 10000) (d : Fin 256) :
    val_main_v33 (F := Ideal) x0 x1 x2 x3 x4 x5 x6 (ix2 i d)
      = Cert.Spec.outR (Cert.Spec.c2 x0) (Cert.Spec.c2 x1) (Cert.Spec.c2 x2) (Cert.Spec.c2 x3) (Cert.Spec.c1 x4)
          (Cert.Spec.c2 x5) (Cert.Spec.c1 x6) i d := by
  unfold Cert.Spec.outR Cert.Spec.softR
  rw [val_main_v33_apply]
  refine Finset.sum_congr rfl fun j _ => ?_
  rw [show lidx_main_v33 (ix2 i d) j = ix2 i j by idx_eq, show ridx_main_v33 (ix2 i d) j = ix2 j d by idx_eq,
    nweight_apply, mixed_apply]
  rfl

end Cert.ReferenceIdeal.RefValue

end
-- ==== Proof.KI.PreDecode.lean ====
/-
  The precondition, decoded at the extended reals.

  The printed predicate is a conjunction of eight one-bit facts. Seven say, of one input each, that every entry's
  absolute value is below +∞; an entry of the extended reals with that property is neither -∞ nor +∞. The eighth says
  that no column sum of the entrywise square root of fixᵀ fix is zero; read entry by entry that column sum is
  `Cert.Spec.colsum` of the input.
-/
import proofs.«133251_g52209622450808_cont_9to1_m_767_7_alg».proof.Pre_finite_inputs
import proofs.«133251_g52209622450808_cont_9to1_m_767_7_alg».proof.Proof.KI.Spec
import Idealize.ShloMosaic.Lib.ReduceAll
import Idealize.ShloMosaic.Lib.StableHlo.Predicate
import Idealize.ShloMosaic.Lib.ValueIdx
import Idealize.ShloMosaic.PureOps.Ideal.Laws
import Idealize.ShloMosaic.Lib.Pipeline.Value

set_option maxRecDepth 16384

noncomputable section

namespace Cert.Pre_finite_inputs.Decode

open Idealize.ShloMosaic Idealize.ShloMosaic.ValueIdx
open Cert.Pre_finite_inputs Cert.Pre_finite_inputs.Facts

variable [Cert.Pre_finite_inputs.Facts]

/-- The rank-0 index set has one element. -/
instance subsingleton_scalar_idx : Subsingleton S_.Idx := ⟨fun a b => funext fun d => d.elim0⟩

/-! ## One entry: an absolute value below +∞ -/

/-- The f32 word `0x7F800000` is +∞. -/
theorem inf_word : Ideal.ofBits .f32 0x7F800000#32 = ⊤ := by simp [Ideal.ofBits, Ideal.ieee]

/-- An extended real whose absolute value `max x (-x)` is below +∞ is neither infinity. -/
theorem real_of_abs_lt_top (x : EReal) (h : max x (-x) < ⊤) : x ≠ ⊥ ∧ x ≠ ⊤ := by
  induction x using EReal.rec with
  | bot => simp at h
  | coe r => exact ⟨EReal.coe_ne_bot r, EReal.coe_ne_top r⟩
  | top => simp at h

/-- The same, from the bit the printed comparison `|x| < +∞` answers. -/
theorem real_of_cmp (x : EReal) (h : Ideal.cmp .olt (max x (-x)) (Ideal.ofBits .f32 0x7F800000#32) = 1#1) :
    x ≠ ⊥ ∧ x ≠ ⊤ := by
  rw [inf_word] at h
  refine real_of_abs_lt_top x ?_
  simpa [Ideal.cmp, StableHlo.Predicate.ofBool_eq_one_iff] using h

/-- One input's conjunct, at any shape: if the `and` over every entry of `|x| < +∞` is 1, every entry is real. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ix0 = 1#1) (i : s.Idx) : x i ≠ ⊥ ∧ x i ≠ ⊤ := by
  have h1 := Host.reduce_andi_all _ _ hr h0 ix0 e i
  rw [cmpf_apply, StableHlo.Predicate.bcast_scalar hb h0] at h1
  exact real_of_cmp (x i) h1

/-- A conjunction of two one-bit scalars that is 1 has both conjuncts 1. -/
theorem and_ix0 (a b : IVec S_ 1) (h : andi a b ix0 = 1#1) : a ix0 = 1#1 ∧ b ix0 = 1#1 := IntOp.andi_eq_one.1 h

/-! ## The column sums of √(fixᵀ fix), entry by entry -/

/-- The transpose at `(a, r)` is the input at `(r, a)`. -/
theorem tr_apply (x2 : FVec Ideal S4096x1024 .f32) (a : Fin 1024) (r : Fin 4096) :
    transpose S1024x4096 [1, 0] x2 transposes_S4096x1024_S1024x4096_1_0 (ix2 a r) = x2 (ix2 r a) :=
  transpose_apply [1, 0] x2 transposes_S4096x1024_S1024x4096_1_0 (ix2 a r) (ix2 r a) (fun b => match b with
    | ⟨0, _⟩ => rfl
    | ⟨1, _⟩ => rfl)

/-- The contraction runs over one axis. -/
theorem contr_pos : 0 < dot_S1024x4096_S4096x1024_S1024x1024_1_0_0_1_n_n.contr.rank := by rw [DotDims.rank_contr]; exact Nat.one_pos

/-- The product's left index keeps the result's row on axis 0 … -/
theorem lhs_0 (i : S1024x1024.Idx) (q : dot_S1024x4096_S4096x1024_S1024x1024_1_0_0_1_n_n.contr.Idx) : (dot_S1024x4096_S4096x1024_S1024x1024_1_0_0_1_n_n.lhsIdx i q 0).val = (i 0).val := by
  unfold DotDims.lhsIdx
  rw [dif_neg (show ¬(0 : Fin S1024x4096.rank) ∈ dot_S1024x4096_S4096x1024_S1024x1024_1_0_0_1_n_n.lhsBatch from List.not_mem_nil),
    dif_pos (show (0 : Fin S1024x4096.rank) ∈ dot_S1024x4096_S4096x1024_S1024x1024_1_0_0_1_n_n.lhsNonContracting from List.mem_singleton.mpr rfl)]
  rfl
/-- … and carries the contraction's coordinate on axis 1; -/
theorem lhs_1 (i : S1024x1024.Idx) (q : dot_S1024x4096_S4096x1024_S1024x1024_1_0_0_1_n_n.contr.Idx) : (dot_S1024x4096_S4096x1024_S1024x1024_1_0_0_1_n_n.lhsIdx i q 1).val = (q ⟨0, contr_pos⟩).val :=
  dot_S1024x4096_S4096x1024_S1024x1024_1_0_0_1_n_n.lhsIdx_val_of_single rfl i q
/-- the right index carries the contraction's coordinate on axis 0 … -/
theorem rhs_0 (i : S1024x1024.Idx) (q : dot_S1024x4096_S4096x1024_S1024x1024_1_0_0_1_n_n.contr.Idx) : (dot_S1024x4096_S4096x1024_S1024x1024_1_0_0_1_n_n.rhsIdx i q 0).val = (q ⟨0, contr_pos⟩).val :=
  dot_S1024x4096_S4096x1024_S1024x1024_1_0_0_1_n_n.rhsIdx_val_of_single rfl i q
/-- … and keeps the result's column on axis 1. -/
theorem rhs_1 (i : S1024x1024.Idx) (q : dot_S1024x4096_S4096x1024_S1024x1024_1_0_0_1_n_n.contr.Idx) : (dot_S1024x4096_S4096x1024_S1024x1024_1_0_0_1_n_n.rhsIdx i q 1).val = (i 1).val := by
  unfold DotDims.rhsIdx
  rw [dif_neg (show ¬(1 : Fin S4096x1024.rank) ∈ dot_S1024x4096_S4096x1024_S1024x1024_1_0_0_1_n_n.rhsBatch from List.not_mem_nil),
    dif_pos (show (1 : Fin S4096x1024.rank) ∈ dot_S1024x4096_S4096x1024_S1024x1024_1_0_0_1_n_n.rhsNonContracting from List.mem_singleton.mpr rfl)]
  rfl

/-- The product at `(a, b)`: the sum over the 4096 contracted rows. -/
theorem dot_apply (y : FVec Ideal S1024x4096 .f32) (x2 : FVec Ideal S4096x1024 .f32) (a b : Fin 1024) :
    Host.dotGeneral dot_S1024x4096_S4096x1024_S1024x1024_1_0_0_1_n_n none y x2 (ix2 a b) = ∑ r : Fin 4096, y (ix2 a r) * x2 (ix2 r b) := by
  simp only [Host.dotGeneral]
  rw [Ideal.dotGeneral_apply, ← Equiv.sum_comp (contrEquiv1 dot_S1024x4096_S4096x1024_S1024x1024_1_0_0_1_n_n 4096 rfl rfl).symm]
  refine Finset.sum_congr rfl fun r _ => ?_
  have hr := contrEquiv1_symm_val dot_S1024x4096_S4096x1024_S1024x1024_1_0_0_1_n_n 4096 rfl rfl r
  have el : dot_S1024x4096_S4096x1024_S1024x1024_1_0_0_1_n_n.lhsIdx (ix2 a b) ((contrEquiv1 dot_S1024x4096_S4096x1024_S1024x1024_1_0_0_1_n_n 4096 rfl rfl).symm r) = ix2 a r :=
    funext fun c => Fin.ext (by
      match c with
      | ⟨0, _⟩ => exact lhs_0 _ _
      | ⟨1, _⟩ => exact (lhs_1 _ _).trans hr)
  have er : dot_S1024x4096_S4096x1024_S1024x1024_1_0_0_1_n_n.rhsIdx (ix2 a b) ((contrEquiv1 dot_S1024x4096_S4096x1024_S1024x1024_1_0_0_1_n_n 4096 rfl rfl).symm r) = ix2 r b :=
    funext fun c => Fin.ext (by
      match c with
      | ⟨0, _⟩ => exact (rhs_0 _ _).trans hr
      | ⟨1, _⟩ => exact rhs_1 _ _)
  rw [el, er]

/-- The sum over axis 0 from the zero word, at column `b`: the sum of that column's 1024 entries. -/
theorem colsum_apply (y : FVec Ideal S1024x1024 .f32) (b : Fin 1024) :
    Host.reduceAdd y (constant (F := Ideal) S_ .f32 0x00000000#32) reducesTo_S1024x1024_S1024_d0 h_S_ (ix1 b)
      = ∑ a : Fin 1024, y (ix2 a b) := by
  simp only [Host.reduceAdd, Ideal.hostReduceAdd_def]
  rw [Ideal.hostReduceAdd_single reducesTo_S1024x1024_S1024_d0 (by decide), constant_apply, Ideal.ofBits_zero_f32,
    zero_add]
  refine Finset.sum_congr rfl fun a _ => ?_
  exact congrArg y (funext fun c => Fin.ext (by match c with | ⟨0, _⟩ => rfl | ⟨1, _⟩ => rfl))

/-- The entrywise square root at an index is the square root of the entry. -/
theorem sqrt_apply {s : Shape} (y : FVec Ideal s .f32) (i : s.Idx) : Host.sqrt y i = Ideal.sqrt (y i) := rfl

/-- The printed column sum at `b` is the closed form's. -/
theorem colsum_eq (x2 : FVec Ideal S4096x1024 .f32) (b : Fin 1024) :
    Host.reduceAdd (Host.sqrt (Host.dotGeneral dot_S1024x4096_S4096x1024_S1024x1024_1_0_0_1_n_n none
        (transpose S1024x4096 [1, 0] x2 transposes_S4096x1024_S1024x4096_1_0) x2))
      (constant (F := Ideal) S_ .f32 0x00000000#32) reducesTo_S1024x1024_S1024_d0 h_S_ (ix1 b)
      = Cert.Spec.colsum (Cert.Spec.c2 x2) b := by
  rw [colsum_apply]
  unfold Cert.Spec.colsum Cert.Spec.root Cert.Spec.gram Cert.Spec.c2
  refine Finset.sum_congr rfl fun a _ => ?_
  rw [sqrt_apply, dot_apply]
  refine congrArg Ideal.sqrt (Finset.sum_congr rfl fun r _ => ?_)
  rw [tr_apply]

/-- The last conjunct: if the `and` over every column of "the column sum is not zero" is 1, no column sum is zero. -/
theorem colsum_ne_zero (x2 : FVec Ideal S4096x1024 .f32)
    (e : Host.reduce IntOp.andi
        (cmpf .une
          (Host.reduceAdd (Host.sqrt (Host.dotGeneral dot_S1024x4096_S4096x1024_S1024x1024_1_0_0_1_n_n none
              (transpose S1024x4096 [1, 0] x2 transposes_S4096x1024_S1024x4096_1_0) x2))
            (constant (F := Ideal) S_ .f32 0x00000000#32) reducesTo_S1024x1024_S1024_d0 h_S_)
          (broadcastInDim S1024 ![] bcast_S_S1024 (constant (F := Ideal) S_ .f32 0x00000000#32)))
        (constantI S_ 1 1#1) reducesTo_S1024_S_d0 h_S_ ix0 = 1#1) (b : Fin 1024) :
    Cert.Spec.colsum (Cert.Spec.c2 x2) b ≠ 0 := by
  have h1 := Host.reduce_andi_all _ _ reducesTo_S1024_S_d0 h_S_ ix0 e (ix1 b)
  rw [cmpf_apply, StableHlo.Predicate.bcast_scalar bcast_S_S1024 h_S_, colsum_eq, constant_apply,
    Ideal.ofBits_zero_f32, Ideal.cmpf_def] at h1
  simpa [Ideal.cmp, StableHlo.Predicate.ofBool_eq_one_iff] using h1

/-! ## The whole predicate -/

/-- From the precondition: the six inputs other than `fix` have only real entries, and no column sum of √(fixᵀ fix) is zero. -/
theorem decode (x0 : FVec Ideal S10000x256 .f32) (x1 : FVec Ideal S1024x256 .f32) (x2 : FVec Ideal S4096x1024 .f32)
    (x3 : FVec Ideal S256x256 .f32) (x4 : FVec Ideal S256 .f32) (x5 : FVec Ideal S256x256 .f32) (x6 : FVec Ideal S256 .f32)
    (h : Cert.Pre_finite_inputs.fn (F := Ideal) x0 x1 x2 x3 x4 x5 x6 = fun _ => 1#1) :
    (∀ i k, Cert.Spec.c2 x0 i k ≠ ⊥ ∧ Cert.Spec.c2 x0 i k ≠ ⊤) ∧ (∀ j k, Cert.Spec.c2 x1 j k ≠ ⊥ ∧ Cert.Spec.c2 x1 j k ≠ ⊤)
    ∧ (∀ d k, Cert.Spec.c2 x3 d k ≠ ⊥ ∧ Cert.Spec.c2 x3 d k ≠ ⊤) ∧ (∀ d, Cert.Spec.c1 x4 d ≠ ⊥ ∧ Cert.Spec.c1 x4 d ≠ ⊤)
    ∧ (∀ d k, Cert.Spec.c2 x5 d k ≠ ⊥ ∧ Cert.Spec.c2 x5 d k ≠ ⊤) ∧ (∀ d, Cert.Spec.c1 x6 d ≠ ⊥ ∧ Cert.Spec.c1 x6 d ≠ ⊤)
    ∧ (∀ b, Cert.Spec.colsum (Cert.Spec.c2 x2) b ≠ 0) := by
  have h0 := congrFun h ix0
  dsimp only [fn, fn_part1, fn_part2] at h0
  obtain ⟨h33, h40⟩ := and_ix0 _ _ h0
  obtain ⟨h28, h32⟩ := and_ix0 _ _ h33
  obtain ⟨h23, h27⟩ := and_ix0 _ _ h28
  obtain ⟨h18, h22⟩ := and_ix0 _ _ h23
  obtain ⟨h13, h17⟩ := and_ix0 _ _ h18
  obtain ⟨h8, h12⟩ := and_ix0 _ _ h13
  obtain ⟨h3, h7⟩ := and_ix0 _ _ h8
  refine ⟨fun i k => ?_, fun j k => ?_, fun d k => ?_, fun d => ?_, fun d k => ?_, fun d => ?_, fun b => ?_⟩
  · exact all_real x0 bcast_S_S10000x256 reducesTo_S10000x256_S_d0_1 h_S_ h3 (ix2 i k)
  · exact all_real x1 bcast_S_S1024x256 reducesTo_S1024x256_S_d0_1 h_S_ h7 (ix2 j k)
  · exact all_real x3 bcast_S_S256x256 reducesTo_S256x256_S_d0_1 h_S_ h17 (ix2 d k)
  · exact all_real x4 bcast_S_S256 reducesTo_S256_S_d0 h_S_ h22 (ix1 d)
  · exact all_real x5 bcast_S_S256x256 reducesTo_S256x256_S_d0_1 h_S_ h27 (ix2 d k)
  · exact all_real x6 bcast_S_S256 reducesTo_S256_S_d0 h_S_ h32 (ix1 d)
  · exact colsum_ne_zero x2 h40 b

end Cert.Pre_finite_inputs.Decode

end
-- ==== Proof.KI.Algebra.lean ====
/-
  The kernel's arrangement of the result equals the reference's, entry by entry, on the extended reals.

  Four rearrangements, each an identity of the extended reals:
  * a sum over 4096 rows is the sum of its eight chunks of 512 rows (addition is associative and commutative);
  * off a zero divisor, `a * (b / c) = (a / c) * b` (multiplication is associative and commutative);
  * a product with the real 1/16 is the quotient by the real 16;
  * a quotient by a positive real `S` distributes over a finite sum: `(Σ w_j o_j) / S = Σ (w_j / S) o_j`,
    whatever extended reals the `o_j` are, because `1 / S` is a nonnegative real.
  The softmax's denominator is such a positive real as soon as every input of the logits is finite.
-/
import proofs.«133251_g52209622450808_cont_9to1_m_767_7_alg».proof.Proof.KI.Spec
import Idealize.ShloMosaic.PureOps.Ideal
import Mathlib.Data.EReal.Operations
import Mathlib.Data.EReal.Inv
import Mathlib.Data.Finset.Lattice.Fold
import Mathlib.Algebra.BigOperators.Fin
import Mathlib.Algebra.Order.BigOperators.Group.Finset
import Mathlib.Logic.Equiv.Fin.Basic
import Mathlib.Analysis.Complex.Exponential

noncomputable section

namespace Cert.Spec

open Idealize.ShloMosaic

/-! ## Finite sums of extended reals -/

section Sums

variable {ι : Type*}

/-- A finite sum of reals, taken in the extended reals, is the real sum. -/
theorem coe_finset_sum (s : Finset ι) (r : ι → ℝ) :
    ∑ j ∈ s, ((r j : ℝ) : EReal) = ((∑ j ∈ s, r j : ℝ) : EReal) := by
  classical
  induction s using Finset.induction_on with
  | empty => simp
  | insert a s ha ih => rw [Finset.sum_insert ha, Finset.sum_insert ha, ih, EReal.coe_add]

/-- A nonnegative real factor distributes over a finite sum of extended reals, whatever the terms are. -/
theorem sum_mul_coe (s : Finset ι) (g : ι → EReal) {c : ℝ} (hc : 0 ≤ c) :
    (∑ j ∈ s, g j) * (c : EReal) = ∑ j ∈ s, g j * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- An extended real that is a real number. -/
def IsReal (x : EReal) : Prop := ∃ r : ℝ, x = (r : EReal)

theorem IsReal.of_ne {x : EReal} (h : x ≠ ⊥ ∧ x ≠ ⊤) : IsReal x :=
  ⟨x.toReal, (EReal.coe_toReal h.2 h.1).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum (s : Finset ι) (g : ι → EReal) (h : ∀ j, IsReal (g j)) : IsReal (∑ j ∈ s, g j) := by
  choose r hr using h
  exact ⟨∑ j ∈ s, r j, by rw [← coe_finset_sum]; exact Finset.sum_congr rfl (fun j _ => hr j)⟩

end Sums

/-! ## The Gram matrix: eight chunks of 512 rows make the 4096 rows -/

/-- A sum over the 4096 rows is the sum, over the eight chunks, of each chunk's 512 rows. -/
theorem sum_chunks (f : Fin 4096 → EReal) :
    ∑ r : Fin 4096, f r = ∑ n : Fin 8, ∑ r : Fin 512, f (chunkRow n r) := by
  rw [← Fintype.sum_prod_type' (fun n r => f (chunkRow n r))]
  refine (Fintype.sum_equiv (finProdFinEquiv (m := 8) (n := 512)) _ _ (fun x => ?_)).symm
  exact congrArg f (Fin.ext (by simp [chunkRow, finProdFinEquiv]; omega))

/-- The running sum after the last chunk is the whole Gram matrix. -/
theorem gramK_eq_gram (fx : Fin 4096 → Fin 1024 → EReal) : gramK fx = gram fx := by
  funext a b
  rw [gram, sum_chunks, Fin.sum_univ_eight]
  rfl

theorem rootK_eq_root (fx : Fin 4096 → Fin 1024 → EReal) : rootK fx = root fx := by
  funext a b
  rw [rootK, root, gramK_eq_gram]

theorem colsumK_eq_colsum (fx : Fin 4096 → Fin 1024 → EReal) : colsumK fx = colsum fx := by
  funext b
  rw [colsumK, colsum, rootK_eq_root]

/-! ## The column normalisation: which factor carries the divisor -/

/-- Off a zero divisor the quotient is the product with the inverse. -/
theorem div_of_ne_zero (x : EReal) {y : EReal} (h : y ≠ 0) : Ideal.div x y = x * y⁻¹ := by
  rw [Ideal.div, if_neg h]

/-- `a * (b / c) = (a / c) * b` term by term, where no column sum is zero. -/
theorem mixK_eq_mixR (fx : Fin 4096 → Fin 1024 → EReal) (ot : Fin 1024 → Fin 256 → EReal)
    (hcs : ∀ b, colsum fx b ≠ 0) : mixK fx ot = mixR fx ot := by
  funext a d
  rw [mixK, mixR, rootK_eq_root, colsumK_eq_colsum]
  refine Finset.sum_congr rfl (fun b _ => ?_)
  rw [div_of_ne_zero _ (hcs b), div_of_ne_zero _ (hcs b), ← mul_assoc, mul_right_comm]

/-! ## The scale of the logits -/

/-- The word `0x41800000` is the real 16. -/
theorem sixteen_eq : sixteen = ((16 : ℝ) : EReal) := by
  simp [sixteen, Ideal.ofBits, Ideal.ieee, -EReal.coe_mul]; norm_num

/-- The word `0x3D800000` is the real 1/16. -/
theorem sixteenth_eq : sixteenth = ((1 / 16 : ℝ) : EReal) := by
  simp [sixteenth, Ideal.ofBits, Ideal.ieee, -EReal.coe_mul]; norm_num

/-- The product with 1/16 is the quotient by 16, at the infinities too. -/
theorem mul_sixteenth (x : EReal) : x * sixteenth = Ideal.div x sixteen := by
  rw [sixteen_eq, sixteenth_eq, Ideal.div_coe (by norm_num)]

/-! ## The softmax's normalisation: one division of the sum, or one of every weight -/

/-- With the weights' sum a positive real `s`, dividing the weighted sum by `s` is dividing every weight by `s`:
    the factor `s⁻¹` is a nonnegative real, so it goes through the sum whatever the summands are. -/
theorem softK_eq_softR (A : Fin 1024 → EReal) (om : Fin 1024 → Fin 256 → EReal) (d : Fin 256) {s : ℝ} (hs : 0 < s)
    (hS : ∑ j' : Fin 1024, Ideal.exp (A j' - rowMax A) = (s : EReal)) : softK A om d = softR A om d := by
  have h0 : (s : EReal) ≠ 0 := EReal.coe_ne_zero.2 hs.ne'
  rw [softK, softR, hS, div_of_ne_zero _ h0, ← EReal.coe_inv, sum_mul_coe _ _ (inv_nonneg.2 hs.le)]
  refine Finset.sum_congr rfl (fun j _ => ?_)
  rw [div_of_ne_zero _ h0, ← EReal.coe_inv, mul_right_comm]

/-- The maximum of a row is one of its entries. -/
theorem rowMax_mem (A : Fin 1024 → EReal) : ∃ j, rowMax A = A j := by
  obtain ⟨j, _, hj⟩ := Finset.exists_mem_eq_sup (Finset.univ : Finset (Fin 1024)) Finset.univ_nonempty A
  exact ⟨j, hj⟩

/-- For a row of reals the weights `exp (A j - max A)` are positive reals, and so is their sum. -/
theorem weights_sum_pos (A : Fin 1024 → EReal) (hA : ∀ j, IsReal (A j)) :
    ∃ s : ℝ, 0 < s ∧ ∑ j : Fin 1024, Ideal.exp (A j - rowMax A) = (s : EReal) := by
  obtain ⟨j₀, hj₀⟩ := rowMax_mem A
  obtain ⟨m, hm⟩ := hA j₀
  choose a ha using hA
  refine ⟨∑ j : Fin 1024, Real.exp (a j - m), Finset.sum_pos (fun j _ => Real.exp_pos _) Finset.univ_nonempty, ?_⟩
  rw [← coe_finset_sum]
  refine Finset.sum_congr rfl (fun j _ => ?_)
  rw [hj₀, hm, ha j, ← EReal.coe_sub, Ideal.exp_coe]

/-! ## The logits are reals -/

theorem IsReal.proj {n : Nat} {X : Fin n → Fin 256 → EReal} {W : Fin 256 → Fin 256 → EReal} {b : Fin 256 → EReal}
    (hX : ∀ i k, X i k ≠ ⊥ ∧ X i k ≠ ⊤) (hW : ∀ d k, W d k ≠ ⊥ ∧ W d k ≠ ⊤) (hb : ∀ d, b d ≠ ⊥ ∧ b d ≠ ⊤)
    (i : Fin n) (d : Fin 256) : IsReal (proj X W b i d) :=
  (IsReal.sum _ _ fun k => (IsReal.of_ne (hX i k)).mul (IsReal.of_ne (hW d k))).add (IsReal.of_ne (hb d))

theorem IsReal.score {n : Nat} {Q : Fin n → Fin 256 → EReal} {K : Fin 1024 → Fin 256 → EReal}
    (hQ : ∀ i d, IsReal (Q i d)) (hK : ∀ j d, IsReal (K j d)) (i : Fin n) (j : Fin 1024) : IsReal (score Q K i j) :=
  IsReal.sum _ _ fun d => (hQ i d).mul (hK j d)

/-! ## The result -/

/-- The kernel's arrangement and the reference's give the same array, when every input of the logits is finite and no
    column of square roots sums to zero. -/
theorem outK_eq_outR (mn : Fin 10000 → Fin 256 → EReal) (ot : Fin 1024 → Fin 256 → EReal) (fx : Fin 4096 → Fin 1024 → EReal)
    (Wq : Fin 256 → Fin 256 → EReal) (bq : Fin 256 → EReal) (Wk : Fin 256 → Fin 256 → EReal) (bk : Fin 256 → EReal)
    (hmn : ∀ i k, mn i k ≠ ⊥ ∧ mn i k ≠ ⊤) (hot : ∀ j k, ot j k ≠ ⊥ ∧ ot j k ≠ ⊤)
    (hWq : ∀ d k, Wq d k ≠ ⊥ ∧ Wq d k ≠ ⊤) (hbq : ∀ d, bq d ≠ ⊥ ∧ bq d ≠ ⊤)
    (hWk : ∀ d k, Wk d k ≠ ⊥ ∧ Wk d k ≠ ⊤) (hbk : ∀ d, bk d ≠ ⊥ ∧ bk d ≠ ⊤)
    (hcs : ∀ b, colsum fx b ≠ 0) :
    outK mn ot fx Wq bq Wk bk = outR mn ot fx Wq bq Wk bk := by
  funext i d
  have hA : ∀ j, IsReal (Ideal.div (score (proj mn Wq bq) (proj ot Wk bk) i j) sixteen) := by
    intro j
    rw [← mul_sixteenth, sixteenth_eq]
    exact (IsReal.score (IsReal.proj hmn hWq hbq) (IsReal.proj hot hWk hbk) i j).mul ⟨_, rfl⟩
  obtain ⟨s, hs, hS⟩ := weights_sum_pos _ hA
  rw [outK, outR, mixK_eq_mixR fx ot hcs]
  simp only [mul_sixteenth]
  exact softK_eq_softR _ _ d hs hS

end Cert.Spec

end
-- ==== Proof.Claims.lean ====
/-
  The five claims.

  The two kernel programs' frames are the hand run of @main's three segments read at the argument arrays; the
  reference's is its run with the result dropped. The idealization rewrote nothing, so `preserves` states nothing.
  For `algebraic`: the kernel's run leaves in its result buffer an array whose entry (i, d) is the kernel's
  arrangement `Cert.Spec.outK` of the argument arrays, and the reference's run leaves the reference's arrangement
  `Cert.Spec.outR` of the same arrays. Under the precondition — every entry of main, other, Wq, bq, Wk, bk finite, and no
  column of square roots of the Gram matrix summing to zero — the two arrangements agree: the Gram matrix summed by
  chunks is the Gram matrix; a quotient by a nonzero column sum commutes with the product it sits in; multiplying by 1/16
  is dividing by 16; and the softmax's normalising sum, a positive real, may divide each weight or the weighted sum.
-/
import proofs.«133251_g52209622450808_cont_9to1_m_767_7_alg».proof.Defs
import proofs.«133251_g52209622450808_cont_9to1_m_767_7_alg».proof.Proof.Gen.Kernel
import proofs.«133251_g52209622450808_cont_9to1_m_767_7_alg».proof.Proof.Gen.KernelIdeal
import proofs.«133251_g52209622450808_cont_9to1_m_767_7_alg».proof.Proof.Gen.ReferenceIdeal
import proofs.«133251_g52209622450808_cont_9to1_m_767_7_alg».proof.Proof.Gen.Pre_finite_inputs
import proofs.«133251_g52209622450808_cont_9to1_m_767_7_alg».proof.Proof.Gen.ReferenceIdeal.Run
import proofs.«133251_g52209622450808_cont_9to1_m_767_7_alg».proof.Proof.Gen.ReferenceIdeal.Read
import proofs.«133251_g52209622450808_cont_9to1_m_767_7_alg».proof.Proof.K.Run
import proofs.«133251_g52209622450808_cont_9to1_m_767_7_alg».proof.Proof.KI.Run
import proofs.«133251_g52209622450808_cont_9to1_m_767_7_alg».proof.Proof.KI.Value
import proofs.«133251_g52209622450808_cont_9to1_m_767_7_alg».proof.Proof.KI.RefValue
import proofs.«133251_g52209622450808_cont_9to1_m_767_7_alg».proof.Proof.KI.PreDecode
import proofs.«133251_g52209622450808_cont_9to1_m_767_7_alg».proof.Proof.KI.Algebra

noncomputable section

namespace Cert.Proof.Claims

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the kernel's, entry by entry, from memories that agree on the arguments. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v33 (F := Ideal) m' c
      = Cert.KernelIdeal.Hand.W3 m c (Proc.devRef .tc Cert.KernelIdeal.main_v3) := by
  obtain ⟨f0, f1, f3, f4, f5, f6, hcs⟩ := Cert.Pre_finite_inputs.Decode.decode _ _ _ _ _ _ _ (hpre c)
  funext j
  obtain ⟨i, d, rfl⟩ : ∃ (i : Fin 10000) (d : Fin 256), j = ix2 i d := ⟨j 0, j 1, eq_ix2 j⟩
  rw [Cert.ReferenceIdeal.Read.val_main_v33_eq, h0, h1, h2, h3, h4, h5, h6]
  refine (Cert.ReferenceIdeal.RefValue.ref_apply _ _ _ _ _ _ _ i d).trans ?_
  refine (congrFun (congrFun (Cert.Spec.outK_eq_outR _ _ _ _ _ _ _ f0 f1 f3 f4 f5 f6 hcs) i) d).symm.trans ?_
  exact (Cert.KernelIdeal.HandValue.result_apply m c i d).symm

theorem algebraic : Cert.algebraic_KernelIdeal_ReferenceIdeal := by
  intro m ρ m' ρ' hpre hagree
  refine ⟨fun c => Cert.KernelIdeal.Hand.W3 m c (Proc.devRef .tc Cert.KernelIdeal.main_v3), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v3 (by decide)),
      (h c _ (Cert.KernelIdeal.Hand.mem_uc Cert.KernelIdeal.main_arg0 (by decide))).trans (Cert.KernelIdeal.Hand.W3_main_arg0 m c),
      (h c _ (Cert.KernelIdeal.Hand.mem_uc Cert.KernelIdeal.main_arg1 (by decide))).trans (Cert.KernelIdeal.Hand.W3_main_arg1 m c),
      (h c _ (Cert.KernelIdeal.Hand.mem_uc Cert.KernelIdeal.main_arg2 (by decide))).trans (Cert.KernelIdeal.Hand.W3_main_arg2 m c),
      (h c _ (Cert.KernelIdeal.Hand.mem_uc Cert.KernelIdeal.main_arg3 (by decide))).trans (Cert.KernelIdeal.Hand.W3_main_arg3 m c),
      (h c _ (Cert.KernelIdeal.Hand.mem_uc Cert.KernelIdeal.main_arg4 (by decide))).trans (Cert.KernelIdeal.Hand.W3_main_arg4 m c),
      (h c _ (Cert.KernelIdeal.Hand.mem_uc Cert.KernelIdeal.main_arg5 (by decide))).trans (Cert.KernelIdeal.Hand.W3_main_arg5 m c),
      (h c _ (Cert.KernelIdeal.Hand.mem_uc Cert.KernelIdeal.main_arg6 (by decide))).trans (Cert.KernelIdeal.Hand.W3_main_arg6 m c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    exact results_agree m m' hpre c h0 h1 h2 h3 h4 h5 h6

end Cert.Proof.Claims

end
-- ==== Proof.lean ====
/-
  The certificate of a two-call attention kernel against its jnp reference, over the extended reals.

  Both programs compute  O = softmax(Q Kᵀ / 16) · (ff · other)  with  Q = main Wqᵀ + bq,  K = other Wkᵀ + bk  and
  ff[a, b] = √G[a, b] / Σ_a' √G[a', b]  for the Gram matrix  G = fixᵀ fix.  The kernel's first call sums G over eight
  chunks of 512 rows in a scratch buffer it carries from grid point to grid point, and at the last point stores
  K and  Σ_b √G[a, b] · (other[b, d] / Σ_a' √G[a', b]);  its second call computes, for each block of 2000 rows of
  `main`, the logits scaled by 1/16, their row maximum, the exponentials, the weighted sum and its quotient by the
  exponentials' sum.

  The frames (every weakly fair execution ends, faults nowhere, leaves the arguments unchanged) are the run of @main's
  three segments — a host stretch of two reshapes and the two kernel regions — from one invariant per region; the
  second program's frame is its run read back. The two results agree entry by entry when every entry of main, other,
  Wq, bq, Wk, bk is finite and no column of √G sums to zero (where the reference itself divides zero by zero): summing
  by chunks regroups a finite sum; a quotient by a nonzero number commutes with a product; the factor 1/16 is the
  divisor 16; and a positive real divisor may divide each term of a finite sum or the sum. The idealization rewrote
  no operation, so it preserves the program by having changed nothing.
-/
import proofs.«133251_g52209622450808_cont_9to1_m_767_7_alg».proof.Defs
import proofs.«133251_g52209622450808_cont_9to1_m_767_7_alg».proof.Proof.Gen.Kernel
import proofs.«133251_g52209622450808_cont_9to1_m_767_7_alg».proof.Proof.Gen.Kernel.Skeleton
import proofs.«133251_g52209622450808_cont_9to1_m_767_7_alg».proof.Proof.Gen.Kernel.Launch
import proofs.«133251_g52209622450808_cont_9to1_m_767_7_alg».proof.Proof.Gen.Kernel.Regions
import proofs.«133251_g52209622450808_cont_9to1_m_767_7_alg».proof.Proof.Gen.Kernel.Points
import proofs.«133251_g52209622450808_cont_9to1_m_767_7_alg».proof.Proof.Gen.KernelIdeal
import proofs.«133251_g52209622450808_cont_9to1_m_767_7_alg».proof.Proof.Gen.KernelIdeal.Skeleton
import proofs.«133251_g52209622450808_cont_9to1_m_767_7_alg».proof.Proof.Gen.KernelIdeal.Launch
import proofs.«133251_g52209622450808_cont_9to1_m_767_7_alg».proof.Proof.Gen.KernelIdeal.Regions
import proofs.«133251_g52209622450808_cont_9to1_m_767_7_alg».proof.Proof.Gen.KernelIdeal.Points
import proofs.«133251_g52209622450808_cont_9to1_m_767_7_alg».proof.Proof.Gen.ReferenceIdeal
import proofs.«133251_g52209622450808_cont_9to1_m_767_7_alg».proof.Proof.Gen.Pre_finite_inputs
import proofs.«133251_g52209622450808_cont_9to1_m_767_7_alg».proof.Proof.Gen.ReferenceIdeal.Run
import proofs.«133251_g52209622450808_cont_9to1_m_767_7_alg».proof.Proof.Gen.ReferenceIdeal.Read
import proofs.«133251_g52209622450808_cont_9to1_m_767_7_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
